-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000x1 : Shape := ⟨2, ![3200000, 1]⟩
abbrev S2x128x16 : Shape := ⟨3, ![2, 128, 16]⟩
abbrev S128x16 : Shape := ⟨2, ![128, 16]⟩
abbrev S16 : Shape := ⟨1, ![16]⟩
abbrev S2x16x40 : Shape := ⟨3, ![2, 16, 40]⟩
abbrev S16x40 : Shape := ⟨2, ![16, 40]⟩
abbrev S40 : Shape := ⟨1, ![40]⟩
abbrev S_ : Shape := ⟨0, ![]⟩
abbrev S1x3200000 : Shape := ⟨2, ![1, 3200000]⟩
abbrev S3200000 : Shape := ⟨1, ![3200000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S2x128x16 : S_.BroadcastsInDim S2x128x16 (![] : Fin 0 → Fin S2x128x16.rank)
  reducesTo_S2x128x16_S_d0_1_2 : S2x128x16.ReducesTo [0, 1, 2] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S2x16x40 : S_.BroadcastsInDim S2x16x40 (![] : Fin 0 → Fin S2x16x40.rank)
  reducesTo_S2x16x40_S_d0_1_2 : S2x16x40.ReducesTo [0, 1, 2] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part2 {F : FTy → Type} [FloatOps F] (main_arg1 : IVec S2x3200000 32) (main_arg8 : FVec F S40 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  let main_v39 : IVec S1x3200000 32 := (extractStridedSlice S1x3200000 ![0, 0] · slices_S2x3200000_S1x3200000_0_0) main_arg1
  let main_v40 : IVec S3200000 32 := shapeCast S3200000 main_v39 shapeCasts_S1x3200000_S3200000
  let main_c_14 : IVec S_ 32 := constantI S_ 32 0#32
  let main_v41 : IVec S3200000 32 := broadcastInDim S3200000 ![] bcast_S_S3200000 main_c_14
  let main_v42 : IVec S3200000 1 := cmpi .sge main_v40 main_v41
  let main_v43 : IVec S1x3200000 32 := (extractStridedSlice S1x3200000 ![0, 0] · slices_S2x3200000_S1x3200000_0_0) main_arg1
  let main_v44 : IVec S3200000 32 := shapeCast S3200000 main_v43 shapeCasts_S1x3200000_S3200000
  let main_c_15 : IVec S_ 32 := constantI S_ 32 100000#32
  let main_v45 : IVec S3200000 32 := broadcastInDim S3200000 ![] bcast_S_S3200000 main_c_15
  let main_v46 : IVec S3200000 1 := cmpi .slt main_v44 main_v45
  let main_v47 : IVec S3200000 1 := andi main_v42 main_v46
  let main_c_16 : IVec S_ 1 := constantI S_ 1 1#1
  let main_v48 : IVec S_ 1 := (fun x v => Host.reduce IntOp.andi x v reducesTo_S3200000_S_d0 h_S_) main_v47 main_c_16
  let main_v49 : IVec S_ 1 := andi main_v38 main_v48
  main_v49

def fn_part1 {F : FTy → Type} [FloatOps F] (main_arg1 : IVec S2x3200000 32) (main_arg5 : FVec F S16 .f32) (main_arg6 : FVec F S2x16x40 .f32) (main_arg7 : FVec F S16x40 .f32) (main_arg8 : FVec F S40 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S2x16x40 .f32 := Host.absf main_arg6
  let main_cst_8 : FVec F S_ .f32 := constant S_ .f32 0x7F800000#32
  let main_v25 : FVec F S2x16x40 .f32 := broadcastInDim S2x16x40 ![] bcast_S_S2x16x40 main_cst_8
  let main_v26 : IVec S2x16x40 1 := cmpf .olt main_v24 main_v25
  let main_c_9 : IVec S_ 1 := constantI S_ 1 1#1
  let main_v27 : IVec S_ 1 := (fun x v => Host.reduce IntOp.andi x v reducesTo_S2x16x40_S_d0_1_2 h_S_) main_v26 main_c_9
  let main_v28 : IVec S_ 1 := andi main_v23 main_v27
  let main_v29 : FVec F S16x40 .f32 := Host.absf main_arg7
  let main_cst_10 : FVec F S_ .f32 := constant S_ .f32 0x7F800000#32
  let main_v30 : FVec F S16x40 .f32 := broadcastInDim S16x40 ![] bcast_S_S16x40 main_cst_10
  let main_v31 : IVec S16x40 1 := cmpf .olt main_v29 main_v30
  let main_c_11 : IVec S_ 1 := constantI S_ 1 1#1
  let main_v32 : IVec S_ 1 := (fun x v => Host.reduce IntOp.andi x v reducesTo_S16x40_S_d0_1 h_S_) main_v31 main_c_11
  let main_v33 : IVec S_ 1 := andi main_v28 main_v32
  fn_part2 (F := F) main_arg1 main_arg8 main_v33

def fn {F : FTy → Type} [FloatOps F] (main_arg0 : FVec F S100000x128 .f32) (main_arg1 : IVec S2x3200000 32) (main_arg2 : FVec F S3200000x1 .f32) (main_arg3 : FVec F S2x128x16 .f32) (main_arg4 : FVec F S128x16 .f32) (main_arg5 : FVec F S16 .f32) (main_arg6 : FVec F S2x16x40 .f32) (main_arg7 : FVec F S16x40 .f32) (main_arg8 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000x1 .f32 := Host.absf main_arg2
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S2x128x16 .f32 := Host.absf main_arg3
  let main_cst_2 : FVec F S_ .f32 := constant S_ .f32 0x7F800000#32
  let main_v10 : FVec F S2x128x16 .f32 := broadcastInDim S2x128x16 ![] bcast_S_S2x128x16 main_cst_2
  let main_v11 : IVec S2x128x16 1 := cmpf .olt main_v9 main_v10
  let main_c_3 : IVec S_ 1 := constantI S_ 1 1#1
  let main_v12 : IVec S_ 1 := (fun x v => Host.reduce IntOp.andi x v reducesTo_S2x128x16_S_d0_1_2 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg1 main_arg5 main_arg6 main_arg7 main_arg8 main_v13 main_v16
-- ==== Kernel.lean ====
abbrev S100000x128 : Shape := ⟨2, ![100000, 128]⟩
abbrev S2x3200000 : Shape := ⟨2, ![2, 3200000]⟩
abbrev S3200000x1 : Shape := ⟨2, ![3200000, 1]⟩
abbrev S2x128x16 : Shape := ⟨3, ![2, 128, 16]⟩
abbrev S128x16 : Shape := ⟨2, ![128, 16]⟩
abbrev S16 : Shape := ⟨1, ![16]⟩
abbrev S2x16x40 : Shape := ⟨3, ![2, 16, 40]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S1x128x16 : Shape := ⟨3, ![1, 128, 16]⟩
abbrev S128x32 : Shape := ⟨2, ![128, 32]⟩
abbrev S100000x32 : Shape := ⟨2, ![100000, 32]⟩
abbrev S100000x16 : Shape := ⟨2, ![100000, 16]⟩
abbrev S5000x128 : Shape := ⟨2, ![5000, 128]⟩
abbrev S5000x32 : Shape := ⟨2, ![5000, 32]⟩
abbrev S5000x16 : Shape := ⟨2, ![5000, 16]⟩
abbrev S1 : Shape := ⟨1, ![1]⟩
abbrev S1x1 : Shape := ⟨2, ![1, 1]⟩
abbrev S3200000x32 : Shape := ⟨2, ![3200000, 32]⟩
abbrev S3200000x16 : Shape := ⟨2, ![3200000, 16]⟩
abbrev S100000 : Shape := ⟨1, ![100000]⟩
abbrev S100000x1 : Shape := ⟨2, ![100000, 1]⟩
abbrev S1x16 : Shape := ⟨2, ![1, 16]⟩
abbrev S1x16x40 : Shape := ⟨3, ![1, 16, 40]⟩
abbrev S16x80 : Shape := ⟨2, ![16, 80]⟩
abbrev S100000x80 : Shape := ⟨2, ![100000, 80]⟩
abbrev S100000x40 : Shape := ⟨2, ![100000, 40]⟩
abbrev S5000x80 : Shape := ⟨2, ![5000, 80]⟩
abbrev S5000x40 : Shape := ⟨2, ![5000, 40]⟩
abbrev S3200000x80 : Shape := ⟨2, ![3200000, 80]⟩
abbrev S3200000x40 : Shape := ⟨2, ![3200000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 118
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000x1, .f32⟩
  | .hbm, ⟨3, _⟩ => ⟨S2x128x16, .f32⟩
  | .hbm, ⟨4, _⟩ => ⟨S128x16, .f32⟩
  | .hbm, ⟨5, _⟩ => ⟨S16, .f32⟩
  | .hbm, ⟨6, _⟩ => ⟨S2x16x40, .f32⟩
  | .hbm, ⟨7, _⟩ => ⟨S16x40, .f32⟩
  | .hbm, ⟨8, _⟩ => ⟨S40, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S3200000, .f32⟩
  | .hbm, ⟨14, _⟩ => ⟨S_, .f32⟩
  | .hbm, ⟨15, _⟩ => ⟨S3200000, .f32⟩
  | .hbm, ⟨16, _⟩ => ⟨S3200000, .f32⟩
  | .hbm, ⟨17, _⟩ => ⟨S3200000x1, .f32⟩
  | .hbm, ⟨18, _⟩ => ⟨S3200000x1, .f32⟩
  | .hbm, ⟨19, _⟩ => ⟨S1x128x16, .f32⟩
  | .hbm, ⟨20, _⟩ => ⟨S128x16, .f32⟩
  | .hbm, ⟨21, _⟩ => ⟨S1x128x16, .f32⟩
  | .hbm, ⟨22, _⟩ => ⟨S128x16, .f32⟩
  | .hbm, ⟨23, _⟩ => ⟨S128x32, .f32⟩
  | .hbm, ⟨24, _⟩ => ⟨S100000x32, .f32⟩
  | .hbm, ⟨25, _⟩ => ⟨S100000x16, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S1, .i32⟩
  | .hbm, ⟨35, _⟩ => ⟨S_, .i32⟩
  | .hbm, ⟨36, _⟩ => ⟨S3200000x1, .i32⟩
  | .hbm, ⟨37, _⟩ => ⟨S3200000x1, .i1⟩
  | .hbm, ⟨38, _⟩ => ⟨S1x1, .i32⟩
  | .hbm, ⟨39, _⟩ => ⟨S3200000x1, .i32⟩
  | .hbm, ⟨40, _⟩ => ⟨S3200000x1, .i1⟩
  | .hbm, ⟨41, _⟩ => ⟨S3200000x1, .i1⟩
  | .hbm, ⟨42, _⟩ => ⟨S_, .i1⟩
  | .hbm, ⟨43, _⟩ => ⟨S3200000, .i1⟩
  | .hbm, ⟨44, _⟩ => ⟨S3200000x32, .f32⟩
  | .hbm, ⟨45, _⟩ => ⟨S3200000x32, .i1⟩
  | .hbm, ⟨46, _⟩ => ⟨S_, .f32⟩
  | .hbm, ⟨47, _⟩ => ⟨S3200000x32, .f32⟩
  | .hbm, ⟨48, _⟩ => ⟨S3200000x32, .f32⟩
  | .hbm, ⟨49, _⟩ => ⟨S3200000x16, .f32⟩
  | .hbm, ⟨50, _⟩ => ⟨S3200000x16, .f32⟩
  | .hbm, ⟨51, _⟩ => ⟨S3200000x16, .f32⟩
  | .hbm, ⟨52, _⟩ => ⟨S3200000x16, .f32⟩
  | .hbm, ⟨53, _⟩ => ⟨S3200000x16, .f32⟩
  | .hbm, ⟨54, _⟩ => ⟨S3200000x16, .f32⟩
  | .hbm, ⟨55, _⟩ => ⟨S3200000x16, .f32⟩
  | .hbm, ⟨56, _⟩ => ⟨S_, .f32⟩
  | .hbm, ⟨57, _⟩ => ⟨S100000x16, .f32⟩
  | .hbm, ⟨58, _⟩ => ⟨S3200000x1, .i32⟩
  | .hbm, ⟨59, _⟩ => ⟨S100000x16, .f32⟩
  | .hbm, ⟨60, _⟩ => ⟨S_, .f32⟩
  | .hbm, ⟨61, _⟩ => ⟨S3200000, .f32⟩
  | .hbm, ⟨62, _⟩ => ⟨S_, .f32⟩
  | .hbm, ⟨63, _⟩ => ⟨S100000, .f32⟩
  | .hbm, ⟨64, _⟩ => ⟨S3200000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x16, .f32⟩
  | .hbm, ⟨71, _⟩ => ⟨S100000x16, .f32⟩
  | .hbm, ⟨72, _⟩ => ⟨S1x16, .f32⟩
  | .hbm, ⟨73, _⟩ => ⟨S1x16x40, .f32⟩
  | .hbm, ⟨74, _⟩ => ⟨S16x40, .f32⟩
  | .hbm, ⟨75, _⟩ => ⟨S1x16x40, .f32⟩
  | .hbm, ⟨76, _⟩ => ⟨S16x40, .f32⟩
  | .hbm, ⟨77, _⟩ => ⟨S16x80, .f32⟩
  | .hbm, ⟨78, _⟩ => ⟨S100000x80, .f32⟩
  | .hbm, ⟨79, _⟩ => ⟨S100000x40, .f32⟩
  | .hbm, ⟨80, _⟩ => ⟨S_, .i32⟩
  | .hbm, ⟨81, _⟩ => ⟨S3200000, .i32⟩
  | .hbm, ⟨82, _⟩ => ⟨S3200000, .i1⟩
  | .hbm, ⟨83, _⟩ => ⟨S_, .i32⟩
  | .hbm, ⟨84, _⟩ => ⟨S3200000, .i32⟩
  | .hbm, ⟨85, _⟩ => ⟨S3200000, .i32⟩
  | .hbm, ⟨86, _⟩ => ⟨S3200000, .i32⟩
  | .hbm, ⟨87, _⟩ => ⟨S3200000x1, .i32⟩
  | .hbm, ⟨88, _⟩ => ⟨S1, .i32⟩
  | .hbm, ⟨89, _⟩ => ⟨S_, .i32⟩
  | .hbm, ⟨90, _⟩ => ⟨S3200000x1, .i32⟩
  | .hbm, ⟨91, _⟩ => ⟨S3200000x1, .i1⟩
  | .hbm, ⟨92, _⟩ => ⟨S1x1, .i32⟩
  | .hbm, ⟨93, _⟩ => ⟨S3200000x1, .i32⟩
  | .hbm, ⟨94, _⟩ => ⟨S3200000x1, .i1⟩
  | .hbm, ⟨95, _⟩ => ⟨S3200000x1, .i1⟩
  | .hbm, ⟨96, _⟩ => ⟨S_, .i1⟩
  | .hbm, ⟨97, _⟩ => ⟨S3200000, .i1⟩
  | .hbm, ⟨98, _⟩ => ⟨S3200000x80, .f32⟩
  | .hbm, ⟨99, _⟩ => ⟨S3200000x80, .i1⟩
  | .hbm, ⟨100, _⟩ => ⟨S_, .f32⟩
  | .hbm, ⟨101, _⟩ => ⟨S3200000x80, .f32⟩
  | .hbm, ⟨102, _⟩ => ⟨S3200000x80, .f32⟩
  | .hbm, ⟨103, _⟩ => ⟨S3200000x40, .f32⟩
  | .hbm, ⟨104, _⟩ => ⟨S3200000x40, .f32⟩
  | .hbm, ⟨105, _⟩ => ⟨S3200000x40, .f32⟩
  | .hbm, ⟨106, _⟩ => ⟨S3200000x40, .f32⟩
  | .hbm, ⟨107, _⟩ => ⟨S3200000x40, .f32⟩
  | .hbm, ⟨108, _⟩ => ⟨S3200000x40, .f32⟩
  | .hbm, ⟨109, _⟩ => ⟨S3200000x40, .f32⟩
  | .hbm, ⟨110, _⟩ => ⟨S_, .f32⟩
  | .hbm, ⟨111, _⟩ => ⟨S100000x40, .f32⟩
  | .hbm, ⟨112, _⟩ => ⟨S3200000x1, .i32⟩
  | .hbm, ⟨113, _⟩ => ⟨S100000x40, .f32⟩
  | .hbm, ⟨114, _⟩ => ⟨S100000x40, .f32⟩
  | .hbm, ⟨115, _⟩ => ⟨S100000x40, .f32⟩
  | .hbm, ⟨116, _⟩ => ⟨S1x40, .f32⟩
  | .hbm, ⟨117, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S128x16, .f32⟩
  | .local _ .vmem, ⟨4, _⟩ => ⟨S5000x32, .f32⟩
  | .local _ .vmem, ⟨5, _⟩ => ⟨S5000x32, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S1x16, .f32⟩
  | .local _ .vmem, ⟨13, _⟩ => ⟨S16x80, .f32⟩
  | .local _ .vmem, ⟨14, _⟩ => ⟨S16x40, .f32⟩
  | .local _ .vmem, ⟨15, _⟩ => ⟨S5000x80, .f32⟩
  | .local _ .vmem, ⟨16, _⟩ => ⟨S5000x80, .f32⟩
  | .local _ .vmem, ⟨17, _⟩ => ⟨S5000x40, .f32⟩
  | .local _ .vmem, ⟨18, _⟩ => ⟨S5000x40, .f32⟩
  | .local _ .vmem, ⟨19, _⟩ => ⟨S5000x40, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S1x40, .f32⟩
  | .local _ .vmem, ⟨24, _⟩ => ⟨S5000x40, .f32⟩
  | .local _ .vmem, ⟨25, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_0 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_1 : Ref sig .tc := ⟨.hbm, 60, rfl⟩
abbrev main_v26 : Ref sig .tc := ⟨.hbm, 61, rfl⟩
abbrev main_cst_2 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_3 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41_0 : Ref sig .tc := ⟨.hbm, 78, rfl⟩
abbrev main_v41_1 : Ref sig .tc := ⟨.hbm, 79, rfl⟩
abbrev main_call1_c : Ref sig .tc := ⟨.hbm, 80, rfl⟩
abbrev main_call1_v0 : Ref sig .tc := ⟨.hbm, 81, rfl⟩
abbrev main_call1_v1 : Ref sig .tc := ⟨.hbm, 82, rfl⟩
abbrev main_call1_c_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_c_1 : Ref sig .tc := ⟨.hbm, 88, rfl⟩
abbrev main_call1_c_2 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_c_3 : Ref sig .tc := ⟨.hbm, 96, rfl⟩
abbrev main_call1_v12 : Ref sig .tc := ⟨.hbm, 97, rfl⟩
abbrev main_call1_v13 : Ref sig .tc := ⟨.hbm, 98, rfl⟩
abbrev main_call1_v14 : Ref sig .tc := ⟨.hbm, 99, rfl⟩
abbrev main_call1_cst : Ref sig .tc := ⟨.hbm, 100, rfl⟩
abbrev main_call1_v15 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_cst_4 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x80 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x80 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S3200000x1_S3200000 : S3200000x1.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x128x16_S1x128x16_0_0_0 : S2x128x16.Slices ![0, 0, 0] S1x128x16
  shapeCasts_S1x128x16_S128x16 : S1x128x16.ShapeCasts S128x16
  slices_S2x128x16_S1x128x16_1_0_0 : S2x128x16.Slices ![1, 0, 0] S1x128x16
  concatenates_S128x16_S128x16_S128x32_d1 : Shape.Concatenates [S128x16, S128x16] S128x32 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S128x16_S128x16_0_0 : ∀ a, (![0, 0] : Fin 2 → Nat) a + S128x16.size a ≤ S128x16.size a
  h_S128x16 : 0 < S128x16.numel
  inb_S5000x32_S5000x32_0_0 : ∀ a, (![0, 0] : Fin 2 → Nat) a + S5000x32.size a ≤ S5000x32.size a
  h_S5000x32 : 0 < S5000x32.numel
  inb_S5000x16_S5000x16_0_0 : ∀ a, (![0, 0] : Fin 2 → Nat) a + S5000x16.size a ≤ S5000x16.size a
  h_S5000x16 : 0 < S5000x16.numel
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x32_0 : S3200000.BroadcastsInDim S3200000x32 (![0] : Fin 1 → Fin S3200000x32.rank)
  bcast_S_S3200000x32 : S_.BroadcastsInDim S3200000x32 (![] : Fin 0 → Fin S3200000x32.rank)
  slices_S3200000x32_S3200000x16_0_0 : S3200000x32.Slices ![0, 0] S3200000x16
  slices_S3200000x32_S3200000x16_0_16 : S3200000x32.Slices ![0, 16] S3200000x16
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  slices_S2x16x40_S1x16x40_0_0_0 : S2x16x40.Slices ![0, 0, 0] S1x16x40
  shapeCasts_S1x16x40_S16x40 : S1x16x40.ShapeCasts S16x40
  slices_S2x16x40_S1x16x40_1_0_0 : S2x16x40.Slices ![1, 0, 0] S1x16x40
  concatenates_S16x40_S16x40_S16x80_d1 : Shape.Concatenates [S16x40, S16x40] S16x80 1
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x80_S16x80_0_0 : ∀ a, (![0, 0] : Fin 2 → Nat) a + S16x80.size a ≤ S16x80.size a
  h_S16x80 : 0 < S16x80.numel
  shapeCasts_S16x80_S16x80 : S16x80.ShapeCasts S16x80
  inb_S16x40_S16x40_0_0 : ∀ a, (![0, 0] : Fin 2 → Nat) a + S16x40.size a ≤ S16x40.size a
  h_S16x40 : 0 < S16x40.numel
  inb_S5000x80_S5000x80_0_0 : ∀ a, (![0, 0] : Fin 2 → Nat) a + S5000x80.size a ≤ S5000x80.size a
  h_S5000x80 : 0 < S5000x80.numel
  inb_S5000x40_S5000x40_0_0 : ∀ a, (![0, 0] : Fin 2 → Nat) a + S5000x40.size a ≤ S5000x40.size a
  h_S5000x40 : 0 < S5000x40.numel
  bcast_S3200000_S3200000x80_0 : S3200000.BroadcastsInDim S3200000x80 (![0] : Fin 1 → Fin S3200000x80.rank)
  bcast_S_S3200000x80 : S_.BroadcastsInDim S3200000x80 (![] : Fin 0 → Fin S3200000x80.rank)
  slices_S3200000x80_S3200000x40_0_0 : S3200000x80.Slices ![0, 0] S3200000x40
  slices_S3200000x80_S3200000x40_0_40 : S3200000x80.Slices ![0, 40] S3200000x40
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  dot_S5000x128_S128x32_S5000x32_1_0_0_1_n_n_wf : DotDims.WF S5000x128 S128x32 S5000x32 [1] [0] [0] [1] [] []
  dot_S5000x128_S128x16_S5000x16_1_0_0_1_n_n_wf : DotDims.WF S5000x128 S128x16 S5000x16 [1] [0] [0] [1] [] []
  gather_S100000x32_S3200000x1_S3200000x32_1_0_n_n_0_1_132_wf : GatherDims.WF S100000x32 S3200000x1 S3200000x32 [1] [0] [] [0] [] 1 ![1, 32]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S5000x16_S16x80_S5000x80_1_0_0_1_n_n_wf : DotDims.WF S5000x16 S16x80 S5000x80 [1] [0] [0] [1] [] []
  dot_S5000x16_S16x40_S5000x40_1_0_0_1_n_n_wf : DotDims.WF S5000x16 S16x40 S5000x40 [1] [0] [0] [1] [] []
  gather_S100000x80_S3200000x1_S3200000x80_1_0_n_n_0_1_180_wf : GatherDims.WF S100000x80 S3200000x1 S3200000x80 [1] [0] [] [0] [] 1 ![1, 80]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x16.size a ≤ S100000x16.size a
  hwx0_4 : ∀ i : grid0.Coords, EltTy.bits .f32 = 32 ∨ (Rect.block (s := S100000x16) S5000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x80.size a ≤ S16x80.size a
  hwx1_3 : ∀ i : grid1.Coords, EltTy.bits .f32 = 32 ∨ (Rect.block (s := S16x80) S16x80.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x40.size a ≤ S16x40.size a
  hwx1_4 : ∀ i : grid1.Coords, EltTy.bits .f32 = 32 ∨ (Rect.block (s := S16x40) S16x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x80.size a ≤ S100000x80.size a
  hwx1_5 : ∀ i : grid1.Coords, EltTy.bits .f32 = 32 ∨ (Rect.block (s := S100000x80) S5000x80.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x40.size a ≤ S100000x40.size a
  hwx1_6 : ∀ i : grid1.Coords, EltTy.bits .f32 = 32 ∨ (Rect.block (s := S100000x40) S5000x40.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x40.size a ≤ S100000x40.size a
  hwx2_1 : ∀ i : grid2.Coords, EltTy.bits .f32 = 32 ∨ (Rect.block (s := S100000x40) S5000x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S100000x40.size a
  hwx2_3 : ∀ i : grid2.Coords, EltTy.bits .f32 = 32 ∨ (Rect.block (s := S100000x40) S5000x40.size (cc2_transform_3 i) (hinb2_3 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x16_S16x80_S5000x80_1_0_0_1_n_n : DotDims S5000x16 S16x80 S5000x80 where
  lhsContracting := [1]
  rhsContracting := [0]
  lhsNonContracting := [0]
  rhsNonContracting := [1]
  lhsBatch := []
  rhsBatch := []
  wf := dot_S5000x16_S16x80_S5000x80_1_0_0_1_n_n_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x80_S3200000x1_S3200000x80_1_0_n_n_0_1_180 : GatherDims S100000x80 S3200000x1 S3200000x80 where
  offsetDims := [1]
  collapsedSliceDims := [0]
  operandBatchingDims := []
  startIndicesBatchingDims := []
  startIndexMap := [0]
  indexVectorDim := 1
  sliceSizes := ![1, 80]
  wf := gather_S100000x80_S3200000x1_S3200000x80_1_0_n_n_0_1_180_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S5000x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S5000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v34) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_1) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S16x80.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S16x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41_0) S5000x80.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v41_1) S5000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v54) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41_1) S5000x40.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000x1 : Shape := ⟨2, ![3200000, 1]⟩
abbrev S2x128x16 : Shape := ⟨3, ![2, 128, 16]⟩
abbrev S128x16 : Shape := ⟨2, ![128, 16]⟩
abbrev S16 : Shape := ⟨1, ![16]⟩
abbrev S2x16x40 : Shape := ⟨3, ![2, 16, 40]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S1x128x16 : Shape := ⟨3, ![1, 128, 16]⟩
abbrev S100000x16 : Shape := ⟨2, ![100000, 16]⟩
abbrev S3200000x16 : Shape := ⟨2, ![3200000, 16]⟩
abbrev S100000 : Shape := ⟨1, ![100000]⟩
abbrev S100000x1 : Shape := ⟨2, ![100000, 1]⟩
abbrev S1x16 : Shape := ⟨2, ![1, 16]⟩
abbrev S1x16x40 : Shape := ⟨3, ![1, 16, 40]⟩
abbrev S100000x40 : Shape := ⟨2, ![100000, 40]⟩
abbrev S3200000x40 : Shape := ⟨2, ![3200000, 40]⟩
abbrev S1x40 : Shape := ⟨2, ![1, 40]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x3200000, .i32⟩
  | 2 => ⟨S3200000x1, .f32⟩
  | 3 => ⟨S2x128x16, .f32⟩
  | 4 => ⟨S128x16, .f32⟩
  | 5 => ⟨S16, .f32⟩
  | 6 => ⟨S2x16x40, .f32⟩
  | 7 => ⟨S16x40, .f32⟩
  | 8 => ⟨S40, .f32⟩
  | 9 => ⟨S1x3200000, .i32⟩
  | 10 => ⟨S3200000, .i32⟩
  | 11 => ⟨S1x3200000, .i32⟩
  | 12 => ⟨S3200000, .i32⟩
  | 13 => ⟨S3200000, .f32⟩
  | 14 => ⟨S_, .f32⟩
  | 15 => ⟨S3200000, .f32⟩
  | 16 => ⟨S3200000, .f32⟩
  | 17 => ⟨S1x128x16, .f32⟩
  | 18 => ⟨S128x16, .f32⟩
  | 19 => ⟨S100000x16, .f32⟩
  | 20 => ⟨S1x128x16, .f32⟩
  | 21 => ⟨S128x16, .f32⟩
  | 22 => ⟨S100000x16, .f32⟩
  | 23 => ⟨S3200000x1, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000x16, .f32⟩
  | 33 => ⟨S3200000x16, .f32⟩
  | 34 => ⟨S3200000x16, .f32⟩
  | 35 => ⟨S3200000x1, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000x16, .f32⟩
  | 45 => ⟨S3200000x16, .f32⟩
  | 46 => ⟨S3200000x16, .f32⟩
  | 47 => ⟨S3200000x16, .f32⟩
  | 48 => ⟨S_, .f32⟩
  | 49 => ⟨S100000x16, .f32⟩
  | 50 => ⟨S3200000x1, .i32⟩
  | 51 => ⟨S100000x16, .f32⟩
  | 52 => ⟨S_, .f32⟩
  | 53 => ⟨S3200000, .f32⟩
  | 54 => ⟨S_, .f32⟩
  | 55 => ⟨S100000, .f32⟩
  | 56 => ⟨S3200000x1, .i32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x16, .f32⟩
  | 63 => ⟨S100000x16, .f32⟩
  | 64 => ⟨S100000x16, .f32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .i1⟩
  | 72 => ⟨S_, .f32⟩
  | 73 => ⟨S100000x16, .f32⟩
  | 74 => ⟨S100000x16, .i1⟩
  | 75 => ⟨S_, .f32⟩
  | 76 => ⟨S_, .f32⟩
  | 77 => ⟨S100000x16, .f32⟩
  | 78 => ⟨S100000x16, .f32⟩
  | 79 => ⟨S100000x16, .f32⟩
  | 80 => ⟨S_, .f32⟩
  | 81 => ⟨S100000x16, .f32⟩
  | 82 => ⟨S100000x16, .f32⟩
  | 83 => ⟨S100000x16, .f32⟩
  | 84 => ⟨S1x16x40, .f32⟩
  | 85 => ⟨S16x40, .f32⟩
  | 86 => ⟨S100000x40, .f32⟩
  | 87 => ⟨S1x16x40, .f32⟩
  | 88 => ⟨S16x40, .f32⟩
  | 89 => ⟨S100000x40, .f32⟩
  | 90 => ⟨S3200000x1, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S3200000x40, .f32⟩
  | 100 => ⟨S3200000x40, .f32⟩
  | 101 => ⟨S3200000x40, .f32⟩
  | 102 => ⟨S3200000x1, .f32⟩
  | 103 => ⟨S_, .i32⟩
  | 104 => ⟨S3200000, .i32⟩
  | 105 => ⟨S3200000, .i1⟩
  | 106 => ⟨S_, .i32⟩
  | 107 => ⟨S3200000, .i32⟩
  | 108 => ⟨S3200000, .i32⟩
  | 109 => ⟨S3200000, .i32⟩
  | 110 => ⟨S3200000x1, .i32⟩
  | 111 => ⟨S3200000x40, .f32⟩
  | 112 => ⟨S3200000x40, .f32⟩
  | 113 => ⟨S3200000x40, .f32⟩
  | 114 => ⟨S3200000x40, .f32⟩
  | 115 => ⟨S_, .f32⟩
  | 116 => ⟨S100000x40, .f32⟩
  | 117 => ⟨S3200000x1, .i32⟩
  | 118 => ⟨S100000x40, .f32⟩
  | 119 => ⟨S_, .f32⟩
  | 120 => ⟨S3200000, .f32⟩
  | 121 => ⟨S_, .f32⟩
  | 122 => ⟨S100000, .f32⟩
  | 123 => ⟨S3200000x1, .i32⟩
  | 124 => ⟨S100000, .f32⟩
  | 125 => ⟨S_, .f32⟩
  | 126 => ⟨S100000, .f32⟩
  | 127 => ⟨S100000, .f32⟩
  | _ => ⟨S100000x128, .f32⟩

abbrev hbmTy0_1 (i : Nat) : BufTy := match i % 128 with
  | 0 => ⟨S100000x1, .f32⟩
  | 1 => ⟨S100000x40, .f32⟩
  | 2 => ⟨S100000x40, .f32⟩
  | 3 => ⟨S100000x40, .f32⟩
  | 4 => ⟨S100000x40, .f32⟩
  | 5 => ⟨S1x40, .f32⟩
  | 6 => ⟨S100000x40, .f32⟩
  | 7 => ⟨S100000x40, .f32⟩
  | 8 => ⟨S_, .f32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x40, .f32⟩
  | 15 => ⟨S100000x40, .f32⟩
  | 16 => ⟨S100000x40, .f32⟩
  | 17 => ⟨S_, .f32⟩
  | 18 => ⟨S100000, .f32⟩
  | 19 => ⟨S100000x1, .f32⟩
  | 20 => ⟨S100000x1, .f32⟩
  | 21 => ⟨S100000x40, .f32⟩
  | 22 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_cst_0 : Ref sig .tc := ⟨.hbm, 72, rfl⟩
abbrev main_call0_v2 : Ref sig .tc := ⟨.hbm, 73, rfl⟩
abbrev main_call0_v3 : Ref sig .tc := ⟨.hbm, 74, rfl⟩
abbrev main_call0_cst_1 : Ref sig .tc := ⟨.hbm, 75, rfl⟩
abbrev main_call0_call0_v0 : Ref sig .tc := ⟨.hbm, 76, rfl⟩
abbrev main_call0_call0_v1 : Ref sig .tc := ⟨.hbm, 77, rfl⟩
abbrev main_call0_v4 : Ref sig .tc := ⟨.hbm, 78, rfl⟩
abbrev main_call0_v5 : Ref sig .tc := ⟨.hbm, 79, rfl⟩
abbrev main_call0_cst_2 : Ref sig .tc := ⟨.hbm, 80, rfl⟩
abbrev main_call0_v6 : Ref sig .tc := ⟨.hbm, 81, rfl⟩
abbrev main_call0_v7 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_7 : Ref sig .tc := ⟨.hbm, 91, rfl⟩
abbrev main_v59 : Ref sig .tc := ⟨.hbm, 92, rfl⟩
abbrev main_v60 : Ref sig .tc := ⟨.hbm, 93, rfl⟩
abbrev main_c_8 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_9 : Ref sig .tc := ⟨.hbm, 103, rfl⟩
abbrev main_v69 : Ref sig .tc := ⟨.hbm, 104, rfl⟩
abbrev main_v70 : Ref sig .tc := ⟨.hbm, 105, rfl⟩
abbrev main_c_10 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_11 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_12 : Ref sig .tc := ⟨.hbm, 119, rfl⟩
abbrev main_v82 : Ref sig .tc := ⟨.hbm, 120, rfl⟩
abbrev main_cst_13 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_14 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_call1_cst : Ref sig .tc := ⟨.hbm, 136, rfl⟩
abbrev main_call1_v0 : Ref sig .tc := ⟨.hbm, 137, rfl⟩
abbrev main_call1_cst_0 : Ref sig .tc := ⟨.hbm, 138, rfl⟩
abbrev main_call1_v1 : Ref sig .tc := ⟨.hbm, 139, rfl⟩
abbrev main_call1_v2 : Ref sig .tc := ⟨.hbm, 140, rfl⟩
abbrev main_call1_v3 : Ref sig .tc := ⟨.hbm, 141, rfl⟩
abbrev main_call1_v4 : Ref sig .tc := ⟨.hbm, 142, rfl⟩
abbrev main_call1_v5 : Ref sig .tc := ⟨.hbm, 143, rfl⟩
abbrev main_call1_v6 : Ref sig .tc := ⟨.hbm, 144, rfl⟩
abbrev main_call1_cst_1 : Ref sig .tc := ⟨.hbm, 145, rfl⟩
abbrev main_call1_v7 : Ref sig .tc := ⟨.hbm, 146, rfl⟩
abbrev main_call1_v8 : Ref sig .tc := ⟨.hbm, 147, rfl⟩
abbrev main_call1_v9 : Ref sig .tc := ⟨.hbm, 148, rfl⟩
abbrev main_call1_v10 : Ref sig .tc := ⟨.hbm, 149, rfl⟩
abbrev main_v96 : Ref sig .tc := ⟨.hbm, 150, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S3200000x1_S3200000 : S3200000x1.ShapeCasts S3200000
  bcast_S_S3200000 : S_.BroadcastsInDim S3200000 (![] : Fin 0 → Fin S3200000.rank)
  slices_S2x128x16_S1x128x16_0_0_0 : S2x128x16.Slices ![0, 0, 0] S1x128x16
  shapeCasts_S1x128x16_S128x16 : S1x128x16.ShapeCasts S128x16
  slices_S2x128x16_S1x128x16_1_0_0 : S2x128x16.Slices ![1, 0, 0] S1x128x16
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  slices_S2x16x40_S1x16x40_0_0_0 : S2x16x40.Slices ![0, 0, 0] S1x16x40
  shapeCasts_S1x16x40_S16x40 : S1x16x40.ShapeCasts S16x40
  slices_S2x16x40_S1x16x40_1_0_0 : S2x16x40.Slices ![1, 0, 0] S1x16x40
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  dot_S100000x128_S128x16_S100000x16_1_0_0_1_n_n_wf : DotDims.WF S100000x128 S128x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S100000x16_S16x40_S100000x40_1_0_0_1_n_n_wf : DotDims.WF S100000x16 S16x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.Spec.lean ====
/-
  The whole-array functions the three kernels compute, written with the host's own operations so that they read
  term for term as the reference spells them: a row-blocked dense product is a `dot_general` of the whole
  arrays; the first layer's finalize is ELU of (mean + root term + bias row); the last is a row-wise
  log-softmax of (mean + root term + bias row).  Nothing here is proved about a program: these are the
  statements' vocabulary.
-/
import Idealize.ShloMosaic.PureOps
import Idealize.ShloMosaic.PureOps.Ideal

noncomputable section

namespace Cert.Spec

open Idealize.ShloMosaic

abbrev S_ : Shape := ⟨0, ![]⟩
abbrev SN : Shape := ⟨1, ![100000]⟩
abbrev SNx1 : Shape := ⟨2, ![100000, 1]⟩
abbrev SNx128 : Shape := ⟨2, ![100000, 128]⟩
abbrev SNx16 : Shape := ⟨2, ![100000, 16]⟩
abbrev SNx32 : Shape := ⟨2, ![100000, 32]⟩
abbrev SNx40 : Shape := ⟨2, ![100000, 40]⟩
abbrev SNx80 : Shape := ⟨2, ![100000, 80]⟩
abbrev S128x32 : Shape := ⟨2, ![128, 32]⟩
abbrev S128x16 : Shape := ⟨2, ![128, 16]⟩
abbrev S16x80 : Shape := ⟨2, ![16, 80]⟩
abbrev S16x40 : Shape := ⟨2, ![16, 40]⟩
abbrev S1x16 : Shape := ⟨2, ![1, 16]⟩
abbrev S1x40 : Shape := ⟨2, ![1, 40]⟩

theorem h_S_ : 0 < S_.numel := by decide
theorem bcast_S_SN : S_.BroadcastsInDim SN (![] : Fin 0 → Fin SN.rank) := by decide
theorem bcast_S_SNx16 : S_.BroadcastsInDim SNx16 (![] : Fin 0 → Fin SNx16.rank) := by decide
theorem bcast_SN_SNx1 : SN.BroadcastsInDim SNx1 (![0] : Fin 1 → Fin SNx1.rank) := by decide
theorem bcast_SNx1_SNx40 : SNx1.BroadcastsInDim SNx40 (![0, 1] : Fin 2 → Fin SNx40.rank) := by decide
theorem bcast_S1x16_SNx16 : S1x16.BroadcastsInDim SNx16 (![0, 1] : Fin 2 → Fin SNx16.rank) := by decide
theorem bcast_S1x40_SNx40 : S1x40.BroadcastsInDim SNx40 (![0, 1] : Fin 2 → Fin SNx40.rank) := by decide
theorem red_SNx40_SN : SNx40.ReducesTo [1] SN := by decide

theorem dN_128_32_wf : DotDims.WF SNx128 S128x32 SNx32 [1] [0] [0] [1] [] [] := by decide
theorem dN_128_16_wf : DotDims.WF SNx128 S128x16 SNx16 [1] [0] [0] [1] [] [] := by decide
theorem dN_16_80_wf : DotDims.WF SNx16 S16x80 SNx80 [1] [0] [0] [1] [] [] := by decide
theorem dN_16_40_wf : DotDims.WF SNx16 S16x40 SNx40 [1] [0] [0] [1] [] [] := by decide

/-- rows [N,128] times a table [128,32]: contraction of axis 1 with axis 0. -/
def dN_128_32 : DotDims SNx128 S128x32 SNx32 where
  lhsContracting := [1]
  rhsContracting := [0]
  lhsNonContracting := [0]
  rhsNonContracting := [1]
  lhsBatch := []
  rhsBatch := []
  wf := dN_128_32_wf
def dN_128_16 : DotDims SNx128 S128x16 SNx16 where
  lhsContracting := [1]
  rhsContracting := [0]
  lhsNonContracting := [0]
  rhsNonContracting := [1]
  lhsBatch := []
  rhsBatch := []
  wf := dN_128_16_wf
def dN_16_80 : DotDims SNx16 S16x80 SNx80 where
  lhsContracting := [1]
  rhsContracting := [0]
  lhsNonContracting := [0]
  rhsNonContracting := [1]
  lhsBatch := []
  rhsBatch := []
  wf := dN_16_80_wf
def dN_16_40 : DotDims SNx16 S16x40 SNx40 where
  lhsContracting := [1]
  rhsContracting := [0]
  lhsNonContracting := [0]
  rhsNonContracting := [1]
  lhsBatch := []
  rhsBatch := []
  wf := dN_16_40_wf

variable {F : FTy → Type} [FloatOps F]

/-- Layer 1's two dense products of the node features. -/
def reg0a (x : FVec F SNx128 .f32) (wc : FVec F S128x32 .f32) : FVec F SNx32 .f32 := Host.dotGeneral dN_128_32 none x wc
def reg0b (x : FVec F SNx128 .f32) (r : FVec F S128x16 .f32) : FVec F SNx16 .f32 := Host.dotGeneral dN_128_16 none x r

/-- ELU as jax.nn.elu lowers it: `z` where `z > 0`, else `1 · expm1 (z where not z > 0, else 0)`. -/
def elu (z : FVec F SNx16 .f32) : FVec F SNx16 .f32 :=
  select (cmpf .ogt z (broadcastInDim SNx16 ![] bcast_S_SNx16 (constant S_ .f32 0x00000000#32))) z
    (mulf (broadcastInDim SNx16 ![] bcast_S_SNx16 (constant S_ .f32 0x3F800000#32))
      (Host.expm1 (select (cmpf .ogt z (broadcastInDim SNx16 ![] bcast_S_SNx16 (constant S_ .f32 0x00000000#32)))
        (broadcastInDim SNx16 ![] bcast_S_SNx16 (id (constant S_ .f32 0x00000000#32))) z)))

/-- The hidden layer: ELU of (neighbour mean + root term + bias row). -/
def hid (a xr : FVec F SNx16 .f32) (b : FVec F S1x16 .f32) : FVec F SNx16 .f32 :=
  elu (addf (addf a xr) (broadcastInDim SNx16 ![0, 1] bcast_S1x16_SNx16 b))

/-- Layer 2's two dense products of the hidden layer. -/
def reg1a (a xr : FVec F SNx16 .f32) (b : FVec F S1x16 .f32) (wc : FVec F S16x80 .f32) : FVec F SNx80 .f32 :=
  Host.dotGeneral dN_16_80 none (hid a xr b) wc
def reg1b (a xr : FVec F SNx16 .f32) (b : FVec F S1x16 .f32) (r : FVec F S16x40 .f32) : FVec F SNx40 .f32 :=
  Host.dotGeneral dN_16_40 none (hid a xr b) r

/-- Row-wise log-softmax as jax.nn.log_softmax lowers it: shift by the row maximum (taken from −∞), subtract
    the log of the row sum of exponentials. -/
def lsm (z : FVec F SNx40 .f32) : FVec F SNx40 .f32 :=
  let sh := subf z (broadcastInDim SNx40 ![0, 1] bcast_SNx1_SNx40 (broadcastInDim SNx1 ![0] bcast_SN_SNx1
    (maximumf (broadcastInDim SN ![] bcast_S_SN (constant S_ .f32 0xFF800000#32))
      (Host.reduce FloatOps.maximumf z (constant S_ .f32 0xFF800000#32) red_SNx40_SN h_S_))))
  subf sh (broadcastInDim SNx40 ![0, 1] bcast_SNx1_SNx40 (Host.log (broadcastInDim SNx1 ![0] bcast_SN_SNx1
    (Host.reduceAdd (Host.exp sh) (constant S_ .f32 0x00000000#32) red_SNx40_SN h_S_))))

/-- The output: log-softmax of (neighbour mean + root term + bias row). -/
def reg2 (a xr : FVec F SNx40 .f32) (b : FVec F S1x40 .f32) : FVec F SNx40 .f32 :=
  lsm (addf (addf a xr) (broadcastInDim SNx40 ![0, 1] bcast_S1x40_SNx40 b))

end Cert.Spec

end
-- ==== Proof.KOut.lean ====
/-
  The idealized kernel program's result as ONE function of its nine argument arrays: the host operations
  around the three regions, written as they are printed, over the regions' whole-array functions (Spec).
  Edge e carries weight u(e); b0 = 1 − u and b1 = u as columns; a layer gathers the rows src(e) of a table
  [X0 | X1], blends b0·X0 + b1·X1 per edge, sums the messages into their destination rows and divides by the
  in-degree (at least 1).
-/
import proofs.«429878_j43843026157849_3_alg».proof.KernelIdeal
import proofs.«429878_j43843026157849_3_alg».proof.Proof.Gen.KernelIdeal
import proofs.«429878_j43843026157849_3_alg».proof.Proof.Spec

noncomputable section

namespace Cert.KernelIdeal.Val

open Idealize.ShloMosaic
open Cert.KernelIdeal Cert.KernelIdeal.Facts₀ Cert.KernelIdeal.Facts

variable {F : FTy → Type} [FloatOps F]

/-- Row 0 of the edge list: the source node of each edge. -/
def srcOf (ei : IVec S2x3200000 32) : IVec S3200000 32 :=
  shapeCast S3200000 (extractStridedSlice S1x3200000 ![0, 0] ei slices_S2x3200000_S1x3200000_0_0) shapeCasts_S1x3200000_S3200000
/-- Row 1 of the edge list: the destination node of each edge. -/
def dstOf (ei : IVec S2x3200000 32) : IVec S3200000 32 :=
  shapeCast S3200000 (extractStridedSlice S1x3200000 ![1, 0] ei slices_S2x3200000_S1x3200000_1_0) shapeCasts_S1x3200000_S3200000
/-- The column 1 − u. -/
def b0c (ea : FVec F S3200000x1 .f32) : FVec F S3200000x1 .f32 :=
  broadcastInDim S3200000x1 ![0] bcast_S3200000_S3200000x1_0
    (subf (broadcastInDim S3200000 ![] bcast_S_S3200000 (constant S_ .f32 0x3F800000#32))
      (shapeCast S3200000 ea shapeCasts_S3200000x1_S3200000))
/-- The column u. -/
def b1c (ea : FVec F S3200000x1 .f32) : FVec F S3200000x1 .f32 :=
  broadcastInDim S3200000x1 ![0] bcast_S3200000_S3200000x1_0 (shapeCast S3200000 ea shapeCasts_S3200000x1_S3200000)
/-- [W[0] | W[1]] for layer 1. -/
def wcat1 (w : FVec F S2x128x16 .f32) : FVec F S128x32 .f32 :=
  concatenate S128x32 1
    [⟨S128x16, shapeCast S128x16 (extractStridedSlice S1x128x16 ![0, 0, 0] w slices_S2x128x16_S1x128x16_0_0_0) shapeCasts_S1x128x16_S128x16⟩,
     ⟨S128x16, shapeCast S128x16 (extractStridedSlice S1x128x16 ![1, 0, 0] w slices_S2x128x16_S1x128x16_1_0_0) shapeCasts_S1x128x16_S128x16⟩]
    concatenates_S128x16_S128x16_S128x32_d1
/-- [W[0] | W[1]] for layer 2. -/
def wcat2 (w : FVec F S2x16x40 .f32) : FVec F S16x80 .f32 :=
  concatenate S16x80 1
    [⟨S16x40, shapeCast S16x40 (extractStridedSlice S1x16x40 ![0, 0, 0] w slices_S2x16x40_S1x16x40_0_0_0) shapeCasts_S1x16x40_S16x40⟩,
     ⟨S16x40, shapeCast S16x40 (extractStridedSlice S1x16x40 ![1, 0, 0] w slices_S2x16x40_S1x16x40_1_0_0) shapeCasts_S1x16x40_S16x40⟩]
    concatenates_S16x40_S16x40_S16x80_d1
def bias1row (b : FVec F S16 .f32) : FVec F S1x16 .f32 := broadcastInDim S1x16 ![1] bcast_S16_S1x16_1 b
def bias2row (b : FVec F S40 .f32) : FVec F S1x40 .f32 := broadcastInDim S1x40 ![1] bcast_S40_S1x40_1 b

/-- A node id with a negative one counted from the end. -/
def wrapIdx (s : IVec S3200000 32) : IVec S3200000 32 :=
  select (cmpi .slt s (broadcastInDim S3200000 ![] bcast_S_S3200000 (constantI S_ 32 0#32)))
    (addi s (broadcastInDim S3200000 ![] bcast_S_S3200000 (constantI S_ 32 100000#32))) s
/-- The index column the gathers read. -/
def idxCol (s : IVec S3200000 32) : IVec S3200000x1 32 :=
  broadcastInDim S3200000x1 ![0] bcast_S3200000_S3200000x1_0 (wrapIdx s)
/-- Per edge: is the index inside [0, 99999]? -/
def inRange (s : IVec S3200000 32) : IVec S3200000 1 :=
  Host.reduce IntOp.andi
    (andi (cmpi .sge (idxCol s) (broadcastInDim S3200000x1 ![] bcast_S_S3200000x1 (constantI S_ 32 0#32)))
      (cmpi .sle (idxCol s) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_
/-- jnp.take with fill: row src(e) of the 32-column table, or the NaN word where the index is out of range. -/
def take32 (y : FVec F S100000x32 .f32) (s : IVec S3200000 32) : FVec F S3200000x32 .f32 :=
  select (broadcastInDim S3200000x32 ![0] bcast_S3200000_S3200000x32_0 (inRange s))
    (Host.gather gather_S100000x32_S3200000x1_S3200000x32_1_0_n_n_0_1_132 y (idxCol s))
    (broadcastInDim S3200000x32 ![] bcast_S_S3200000x32 (constant S_ .f32 0x7FC00000#32))
/-- The same of the 80-column table. -/
def take80 (y : FVec F S100000x80 .f32) (s : IVec S3200000 32) : FVec F S3200000x80 .f32 :=
  select (broadcastInDim S3200000x80 ![0] bcast_S3200000_S3200000x80_0 (inRange s))
    (Host.gather gather_S100000x80_S3200000x1_S3200000x80_1_0_n_n_0_1_180 y (idxCol s))
    (broadcastInDim S3200000x80 ![] bcast_S_S3200000x80 (constant S_ .f32 0x7FC00000#32))

/-- The in-degree of each node, at least 1, as a column. -/
def cntCol (d : IVec S3200000 32) : FVec F S100000x1 .f32 :=
  broadcastInDim S100000x1 ![0] bcast_S100000_S100000x1_0
    (maximumf
      (Host.scatterAdd scatter_S100000_S3200000x1_S3200000_n_0_0_1
        (broadcastInDim S100000 ![] bcast_S_S100000 (constant S_ .f32 0x00000000#32))
        (broadcastInDim S3200000x1 ![0] bcast_S3200000_S3200000x1_0 d)
        (broadcastInDim S3200000 ![] bcast_S_S3200000 (constant S_ .f32 0x3F800000#32)))
      (broadcastInDim S100000 ![] bcast_S_S100000 (constant S_ .f32 0x3F800000#32)))

/-- Layer 1's neighbour mean from the gathered [X0 | X1] rows. -/
def mean16 (g : FVec F S3200000x32 .f32) (p0 p1 : FVec F S3200000x1 .f32) (d : IVec S3200000 32)
    (cnt : FVec F S100000x1 .f32) : FVec F S100000x16 .f32 :=
  Host.divf
    (Host.scatterAdd scatter_S100000x16_S3200000x1_S3200000x16_1_0_0_1
      (broadcastInDim S100000x16 ![] bcast_S_S100000x16 (constant S_ .f32 0x00000000#32))
      (broadcastInDim S3200000x1 ![0] bcast_S3200000_S3200000x1_0 d)
      (addf
        (mulf (broadcastInDim S3200000x16 ![0, 1] bcast_S3200000x1_S3200000x16_0_1 p0)
          (extractStridedSlice S3200000x16 ![0, 0] g slices_S3200000x32_S3200000x16_0_0))
        (mulf (broadcastInDim S3200000x16 ![0, 1] bcast_S3200000x1_S3200000x16_0_1 p1)
          (extractStridedSlice S3200000x16 ![0, 16] g slices_S3200000x32_S3200000x16_0_16))))
    (broadcastInDim S100000x16 ![0, 1] bcast_S100000x1_S100000x16_0_1 cnt)

/-- Layer 2's neighbour mean from the gathered [X0 | X1] rows. -/
def mean40 (g : FVec F S3200000x80 .f32) (p0 p1 : FVec F S3200000x1 .f32) (d : IVec S3200000 32)
    (cnt : FVec F S100000x1 .f32) : FVec F S100000x40 .f32 :=
  Host.divf
    (Host.scatterAdd scatter_S100000x40_S3200000x1_S3200000x40_1_0_0_1
      (broadcastInDim S100000x40 ![] bcast_S_S100000x40 (constant S_ .f32 0x00000000#32))
      (broadcastInDim S3200000x1 ![0] bcast_S3200000_S3200000x1_0 d)
      (addf
        (mulf (broadcastInDim S3200000x40 ![0, 1] bcast_S3200000x1_S3200000x40_0_1 p0)
          (extractStridedSlice S3200000x40 ![0, 0] g slices_S3200000x80_S3200000x40_0_0))
        (mulf (broadcastInDim S3200000x40 ![0, 1] bcast_S3200000x1_S3200000x40_0_1 p1)
          (extractStridedSlice S3200000x40 ![0, 40] g slices_S3200000x80_S3200000x40_0_40))))
    (broadcastInDim S100000x40 ![0, 1] bcast_S100000x1_S100000x40_0_1 cnt)

/-- Layer 1's neighbour mean of the arguments. -/
def m1 (x : FVec F S100000x128 .f32) (ei : IVec S2x3200000 32) (ea : FVec F S3200000x1 .f32)
    (w1 : FVec F S2x128x16 .f32) : FVec F S100000x16 .f32 :=
  mean16 (take32 (Cert.Spec.reg0a x (wcat1 w1)) (srcOf ei)) (b0c ea) (b1c ea) (dstOf ei) (cntCol (dstOf ei))

/-- Layer 2's gather table [X0 | X1] of the arguments. -/
def y2 (x : FVec F S100000x128 .f32) (ei : IVec S2x3200000 32) (ea : FVec F S3200000x1 .f32)
    (w1 : FVec F S2x128x16 .f32) (r1 : FVec F S128x16 .f32) (bb1 : FVec F S16 .f32) (w2 : FVec F S2x16x40 .f32) :
    FVec F S100000x80 .f32 :=
  Cert.Spec.reg1a (m1 x ei ea w1) (Cert.Spec.reg0b x r1) (bias1row bb1) (wcat2 w2)

/-- Layer 2's root term of the arguments. -/
def xr2 (x : FVec F S100000x128 .f32) (ei : IVec S2x3200000 32) (ea : FVec F S3200000x1 .f32)
    (w1 : FVec F S2x128x16 .f32) (r1 : FVec F S128x16 .f32) (bb1 : FVec F S16 .f32) (r2 : FVec F S16x40 .f32) :
    FVec F S100000x40 .f32 :=
  Cert.Spec.reg1b (m1 x ei ea w1) (Cert.Spec.reg0b x r1) (bias1row bb1) r2

/-- Layer 2's neighbour mean of the arguments. -/
def m2 (x : FVec F S100000x128 .f32) (ei : IVec S2x3200000 32) (ea : FVec F S3200000x1 .f32)
    (w1 : FVec F S2x128x16 .f32) (r1 : FVec F S128x16 .f32) (bb1 : FVec F S16 .f32) (w2 : FVec F S2x16x40 .f32) :
    FVec F S100000x40 .f32 :=
  mean40 (take80 (y2 x ei ea w1 r1 bb1 w2) (srcOf ei)) (b0c ea) (b1c ea) (dstOf ei) (cntCol (dstOf ei))

/-- The program's result of its nine arguments. -/
def out (x : FVec F S100000x128 .f32) (ei : IVec S2x3200000 32) (ea : FVec F S3200000x1 .f32)
    (w1 : FVec F S2x128x16 .f32) (r1 : FVec F S128x16 .f32) (bb1 : FVec F S16 .f32) (w2 : FVec F S2x16x40 .f32)
    (r2 : FVec F S16x40 .f32) (bb2 : FVec F S40 .f32) : FVec F S100000x40 .f32 :=
  Cert.Spec.reg2 (m2 x ei ea w1 r1 bb1 w2) (xr2 x ei ea w1 r1 bb1 r2) (bias2row bb2)

end Cert.KernelIdeal.Val

end
-- ==== Proof.Reg0.lean ====
import proofs.«429878_j43843026157849_3_alg».proof.Proof.Gen.KernelIdeal.Frame
import proofs.«429878_j43843026157849_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg0

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## A rows-by-table product read at an index

For dimension numbers that contract axis 1 of an M×K operand with axis 0 of a K×N operand, with no batch axis, the
operand indices at output index (a, b) and contraction position c are (a, c) and (c, b). -/

section Plain
open Idealize.ShloMosaic.ValueIdx
variable {M K N : Nat} (D : DotDims ⟨2, ![M, K]⟩ ⟨2, ![K, N]⟩ ⟨2, ![M, N]⟩)

theorem lhs_row (hb : D.lhsBatch = []) (hn : D.lhsNonContracting = [0]) (j : (⟨2, ![M, N]⟩ : Shape).Idx) (k : D.contr.Idx) :
    (D.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hb, hn])

theorem rhs_col (hb : D.rhsBatch = []) (hlb : D.lhsBatch = []) (hln : D.lhsNonContracting = [0]) (hn : D.rhsNonContracting = [1])
    (j : (⟨2, ![M, N]⟩ : Shape).Idx) (k : D.contr.Idx) :
    (D.rhsIdx j k 1).val = (j 1).val := by
  unfold DotDims.rhsIdx
  rw [dif_neg (by rw [hb]; exact List.not_mem_nil), dif_pos (by rw [hn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hn])

theorem plain_sum (hlc : D.lhsContracting = [1]) (hrc : D.rhsContracting = [0]) (hln : D.lhsNonContracting = [0])
    (hrn : D.rhsNonContracting = [1]) (hlb : D.lhsBatch = []) (hrb : D.rhsBatch = [])
    (hr : D.contr.rank = 1) (hs : D.contr.size ⟨0, by omega⟩ = K)
    (A : (⟨2, ![M, K]⟩ : Shape).Idx → EReal) (B : (⟨2, ![K, N]⟩ : Shape).Idx → EReal) (a : Fin M) (b : Fin N) :
    ∑ k : D.contr.Idx, A (D.lhsIdx (ix2 a b) k) * B (D.rhsIdx (ix2 a b) k) = ∑ c : Fin K, A (ix2 a c) * B (ix2 c b) := by
  rw [← Equiv.sum_comp (contrEquiv1 D K hr hs).symm]
  refine Finset.sum_congr rfl fun c _ => ?_
  have c2 := contrEquiv1_symm_val D K hr hs c
  have l2 : D.lhsIdx (ix2 a b) ((contrEquiv1 D K hr hs).symm c) = ix2 a c := by
    funext ax; apply Fin.ext
    match ax with
    | ⟨0, _⟩ => exact lhs_row D hlb hln _ _
    | ⟨1, _⟩ => exact (D.lhsIdx_val_of_single hlc _ _).trans c2
  have r2 : D.rhsIdx (ix2 a b) ((contrEquiv1 D K hr hs).symm c) = ix2 c b := by
    funext ax; apply Fin.ext
    match ax with
    | ⟨0, _⟩ => exact (D.rhsIdx_val_of_single hrc _ _).trans c2
    | ⟨1, _⟩ => exact rhs_col D hrb hlb hln hrn _ _
  rw [l2, r2]

end Plain

/-! ## The body's two products at an index -/

section Payload
open Idealize.ShloMosaic.ValueIdx

/-- The root-term product of one 5000-row block: entry (p, q) is the sum over the 128 features. -/
theorem pay3_apply (x0 : Vec Ideal S5000x128 .f32) (x2 : Vec Ideal S128x16 .f32) (p : Fin 5000) (q : Fin 16) :
    k0_pay3 (F := Ideal) x0 x2 (ix2 p q) = ∑ k : Fin 128, x0 (ix2 p k) * x2 (ix2 k q) := by
  unfold k0_pay3 k0_pay1
  show FloatOps.matmul dot_S5000x128_S128x16_S5000x16_1_0_0_1_n_n none _ _ (constant (F := Ideal) S5000x16 .f32 0x00000000#32) (ix2 p q) = _
  rw [Ideal.matmul_constant_zero_apply]
  exact plain_sum dot_S5000x128_S128x16_S5000x16_1_0_0_1_n_n rfl rfl rfl rfl rfl rfl rfl rfl x0 x2 p q

/-- The neighbour-table product of one 5000-row block. -/
theorem pay2_apply (x0 : Vec Ideal S5000x128 .f32) (x1 : Vec Ideal S128x32 .f32) (p : Fin 5000) (q : Fin 32) :
    k0_pay2 (F := Ideal) x0 x1 (ix2 p q) = ∑ k : Fin 128, x0 (ix2 p k) * x1 (ix2 k q) := by
  unfold k0_pay2 k0_pay1
  show FloatOps.matmul dot_S5000x128_S128x32_S5000x32_1_0_0_1_n_n none _
    (truncf .bf16 (shapeCast S128x32 x1 shapeCasts_S128x32_S128x32) bitsLt_bf16_f32)
    (constant (F := Ideal) S5000x32 .f32 0x00000000#32) (ix2 p q) = _
  rw [shapeCast_self, Ideal.matmul_constant_zero_apply]
  exact plain_sum dot_S5000x128_S128x32_S5000x32_1_0_0_1_n_n rfl rfl rfl rfl rfl rfl rfl rfl x0 x1 p q

/-- The host's root-term product of the whole arrays, at an index. -/
theorem reg0b_apply (x : FVec Ideal Cert.Spec.SNx128 .f32) (r : FVec Ideal Cert.Spec.S128x16 .f32) (a : Fin 100000) (b : Fin 16) :
    Cert.Spec.reg0b (F := Ideal) x r (ix2 a b) = ∑ k : Fin 128, x (ix2 a k) * r (ix2 k b) := by
  unfold Cert.Spec.reg0b
  show FloatOps.dotGeneral Cert.Spec.dN_128_16 none _ x r (ix2 a b) = _
  rw [Ideal.dotGeneral_apply]
  exact plain_sum Cert.Spec.dN_128_16 rfl rfl rfl rfl rfl rfl rfl rfl x r a b

/-- The host's neighbour-table product of the whole arrays, at an index. -/
theorem reg0a_apply (x : FVec Ideal Cert.Spec.SNx128 .f32) (w : FVec Ideal Cert.Spec.S128x32 .f32) (a : Fin 100000) (b : Fin 32) :
    Cert.Spec.reg0a (F := Ideal) x w (ix2 a b) = ∑ k : Fin 128, x (ix2 a k) * w (ix2 k b) := by
  unfold Cert.Spec.reg0a
  show FloatOps.dotGeneral Cert.Spec.dN_128_32 none _ x w (ix2 a b) = _
  rw [Ideal.dotGeneral_apply]
  exact plain_sum Cert.Spec.dN_128_32 rfl rfl rfl rfl rfl rfl rfl rfl x w a b

end Payload

/-! ## From the blocks to the arrays -/

section Blocks
open Idealize.ShloMosaic.ValueIdx

theorem zeros2 : (![0, 0] : Fin 2 → Nat) = fun _ => 0 := funext fun a => by fin_cases a <;> rfl

/-- The printed index maps over the grid: a row-blocked window sits at block (t, 0), a table at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- One entry of a block's root-term product is the entry of the whole arrays' product at the row the block's
    row stands for, once the block of x is rows of x and the table is the table. -/
theorem point4 (x0 : Vec Ideal S5000x128 .f32) (x2 : Vec Ideal S128x16 .f32)
    (X : FVec Ideal Cert.Spec.SNx128 .f32) (R : FVec Ideal Cert.Spec.S128x16 .f32)
    (p : Fin 5000) (q : Fin 16) (a : Fin 100000) (j : S5000x16.Idx) (i : S100000x16.Idx)
    (hj : j = ix2 p q) (hi : i = ix2 a q)
    (hx : ∀ k : Fin 128, x0 (ix2 p k) = X (ix2 a k)) (hr : ∀ k : Fin 128, x2 (ix2 k q) = R (ix2 k q)) :
    k0_pay3 (F := Ideal) x0 x2 j = Cert.Spec.reg0b (F := Ideal) X R i := by
  subst hj hi
  rw [pay3_apply, reg0b_apply]
  exact Finset.sum_congr rfl fun k _ => by rw [hx k, hr k]

theorem point3 (x0 : Vec Ideal S5000x128 .f32) (x1 : Vec Ideal S128x32 .f32)
    (X : FVec Ideal Cert.Spec.SNx128 .f32) (W : FVec Ideal Cert.Spec.S128x32 .f32)
    (p : Fin 5000) (q : Fin 32) (a : Fin 100000) (j : S5000x32.Idx) (i : S100000x32.Idx)
    (hj : j = ix2 p q) (hi : i = ix2 a q)
    (hx : ∀ k : Fin 128, x0 (ix2 p k) = X (ix2 a k)) (hw : ∀ k : Fin 128, x1 (ix2 k q) = W (ix2 k q)) :
    k0_pay2 (F := Ideal) x0 x1 j = Cert.Spec.reg0a (F := Ideal) X W i := by
  subst hj hi
  rw [pay2_apply, reg0a_apply]
  exact Finset.sum_congr rfl fun k _ => by rw [hx k, hw k]

/-- What point t writes back to the root-term array is block t of the whole arrays' product. -/
theorem flushed4_eq (c : Dev nD) (t : Fin cfg0.N) :
    (dat0 (F := Ideal) V c).flushed 4 t
      = ((cfg0.win 4).blk t).view.read (Elt Ideal) (Cert.Spec.reg0b (F := Ideal) (V c main_arg0) (V c main_arg4)) := by
  show (cfg0.win 4).cut (grid0.coords t) ((dat0 (F := Ideal) V c).after 4 t) = _
  rw [after0_4]
  unfold out0_4
  rw [View.canon_unit_zero zeros2]
  simp only [View.ld_unit_zero (S := S5000x128) zeros2, View.ld_unit_zero (S := S128x16) zeros2]
  obtain ⟨e00, e01, e10, e11, e20, e21, e30, e31, e40, e41⟩ := idx_facts t
  have ht : t.val < 20 := lt_of_lt_of_eq t.isLt N_0
  funext j
  have hj0 : (j 0).val < 5000 := (j 0).isLt
  have hj1 : (j 1).val < 16 := (j 1).isLt
  show k0_pay3 (F := Ideal) (iblk0 V c 0 t) (iblk0 V c 2 t) ((cfg0.win 4).xinj (grid0.coords t) j)
    = Cert.Spec.reg0b (F := Ideal) (V c main_arg0) (V c main_arg4) (((cfg0.win 4).blk t).view.emb j)
  refine point4 (iblk0 V c 0 t) (iblk0 V c 2 t) (V c main_arg0) (V c main_arg4)
    ⟨(j 0).val, hj0⟩ ⟨(j 1).val, hj1⟩ ⟨t.val * 5000 + (j 0).val, by omega⟩ _ _ ?_ ?_ ?_ ?_
  · funext ax; apply Fin.ext
    match ax with
    | ⟨0, _⟩ => rfl
    | ⟨1, _⟩ => rfl
  · funext ax; apply Fin.ext
    match ax with
    | ⟨0, _⟩ => show win0_4.index t (0 : Fin 2) * 5000 + 1 * (j 0).val = t.val * 5000 + (j 0).val; omega
    | ⟨1, _⟩ => show win0_4.index t (1 : Fin 2) * 16 + 1 * (j 1).val = (j 1).val; omega
  · intro k
    show V c main_arg0 (((cfg0.win 0).blk t).view.emb (ix2 (⟨(j 0).val, hj0⟩ : Fin 5000) k)) = V c main_arg0 _
    refine congrArg (V c main_arg0) ?_
    funext ax; apply Fin.ext
    match ax with
    | ⟨0, _⟩ => show win0_0.index t (0 : Fin 2) * 5000 + 1 * (j 0).val = t.val * 5000 + (j 0).val; omega
    | ⟨1, _⟩ => show win0_0.index t (1 : Fin 2) * 128 + 1 * k.val = k.val; omega
  · intro k
    show V c main_arg4 (((cfg0.win 2).blk t).view.emb (ix2 k (⟨(j 1).val, hj1⟩ : Fin 16))) = V c main_arg4 _
    refine congrArg (V c main_arg4) ?_
    funext ax; apply Fin.ext
    match ax with
    | ⟨0, _⟩ => show win0_2.index t (0 : Fin 2) * 128 + 1 * k.val = k.val; omega
    | ⟨1, _⟩ => show win0_2.index t (1 : Fin 2) * 16 + 1 * (j 1).val = (j 1).val; omega

/-- An index of the root-term array is in point t's block iff each coordinate is in the block's range on its axis. -/
theorem mem_blk4 (t : Fin cfg0.N) (i : S100000x16.Idx) :
    i ∈ ((cfg0.win 4).blk t).view.set ↔ ∀ a : Fin 2, win0_4.index t a * S5000x16.size a ≤ (i a).val ∧ (i a).val < win0_4.index t a * S5000x16.size a + S5000x16.size a := by
  show i ∈ ((View.whole main_v14_1).slice (win0_4.rect t)).set ↔ _
  rw [View.set_slice_whole, Rect.mem_set_unit]
  exact Iff.rfl

/-- Twenty blocks of 5000 rows tile the 100000 rows: row r is in the block of point r / 5000. -/
theorem cover4 (i : S100000x16.Idx) :
    ∃ t : Fin cfg0.N, (cfg0.win 4).flush t = true ∧ i ∈ ((cfg0.win 4).blk t).view.set := by
  have hi0 : (i 0).val < 100000 := (i 0).isLt
  have hi1 : (i 1).val < 16 := (i 1).isLt
  obtain ⟨t, ht⟩ : ∃ t : Fin cfg0.N, t.val = (i 0).val / 5000 :=
    ⟨⟨(i 0).val / 5000, lt_of_lt_of_eq (show (i 0).val / 5000 < 20 by omega) N_0.symm⟩, rfl⟩
  obtain ⟨e00, e01, e10, e11, e20, e21, e30, e31, e40, e41⟩ := idx_facts t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 16 ≤ (i 1).val ∧ (i 1).val < win0_4.index t (1 : Fin 2) * 16 + 16; omega

end Blocks

theorem arr4 (c : Dev nD) :
    (dat0 (F := Ideal) V c).arrAt 4 cfg0.N = Cert.Spec.reg0b (F := Ideal) (V c main_arg0) (V c main_arg4) :=
  (dat0 (F := Ideal) V c).arrAt_eq_of_cover 4 _ (fun t _ => flushed4_eq V c t) cover4

section Blocks3
open Idealize.ShloMosaic.ValueIdx

/-- What point t writes back to the neighbour-table array is block t of the whole arrays' product. -/
theorem flushed3_eq (c : Dev nD) (t : Fin cfg0.N) :
    (dat0 (F := Ideal) V c).flushed 3 t
      = ((cfg0.win 3).blk t).view.read (Elt Ideal) (Cert.Spec.reg0a (F := Ideal) (V c main_arg0) (V c main_v13)) := by
  show (cfg0.win 3).cut (grid0.coords t) ((dat0 (F := Ideal) V c).after 3 t) = _
  rw [after0_3]
  unfold out0_3
  rw [View.canon_unit_zero zeros2]
  simp only [View.ld_unit_zero (S := S5000x128) zeros2, View.ld_unit_zero (S := S128x32) zeros2]
  obtain ⟨e00, e01, e10, e11, e20, e21, e30, e31, e40, e41⟩ := idx_facts t
  have ht : t.val < 20 := lt_of_lt_of_eq t.isLt N_0
  funext j
  have hj0 : (j 0).val < 5000 := (j 0).isLt
  have hj1 : (j 1).val < 32 := (j 1).isLt
  show k0_pay2 (F := Ideal) (iblk0 V c 0 t) (iblk0 V c 1 t) ((cfg0.win 3).xinj (grid0.coords t) j)
    = Cert.Spec.reg0a (F := Ideal) (V c main_arg0) (V c main_v13) (((cfg0.win 3).blk t).view.emb j)
  refine point3 (iblk0 V c 0 t) (iblk0 V c 1 t) (V c main_arg0) (V c main_v13)
    ⟨(j 0).val, hj0⟩ ⟨(j 1).val, hj1⟩ ⟨t.val * 5000 + (j 0).val, by omega⟩ _ _ ?_ ?_ ?_ ?_
  · funext ax; apply Fin.ext
    match ax with
    | ⟨0, _⟩ => rfl
    | ⟨1, _⟩ => rfl
  · funext ax; apply Fin.ext
    match ax with
    | ⟨0, _⟩ => show win0_3.index t (0 : Fin 2) * 5000 + 1 * (j 0).val = t.val * 5000 + (j 0).val; omega
    | ⟨1, _⟩ => show win0_3.index t (1 : Fin 2) * 32 + 1 * (j 1).val = (j 1).val; omega
  · intro k
    show V c main_arg0 (((cfg0.win 0).blk t).view.emb (ix2 (⟨(j 0).val, hj0⟩ : Fin 5000) k)) = V c main_arg0 _
    refine congrArg (V c main_arg0) ?_
    funext ax; apply Fin.ext
    match ax with
    | ⟨0, _⟩ => show win0_0.index t (0 : Fin 2) * 5000 + 1 * (j 0).val = t.val * 5000 + (j 0).val; omega
    | ⟨1, _⟩ => show win0_0.index t (1 : Fin 2) * 128 + 1 * k.val = k.val; omega
  · intro k
    show V c main_v13 (((cfg0.win 1).blk t).view.emb (ix2 k (⟨(j 1).val, hj1⟩ : Fin 32))) = V c main_v13 _
    refine congrArg (V c main_v13) ?_
    funext ax; apply Fin.ext
    match ax with
    | ⟨0, _⟩ => show win0_1.index t (0 : Fin 2) * 128 + 1 * k.val = k.val; omega
    | ⟨1, _⟩ => show win0_1.index t (1 : Fin 2) * 32 + 1 * (j 1).val = (j 1).val; omega

/-- An index of the neighbour-table array is in point t's block iff each coordinate is in the block's range on its axis. -/
theorem mem_blk3 (t : Fin cfg0.N) (i : S100000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v14_0).slice (win0_3.rect t)).set ↔ _
  rw [View.set_slice_whole, Rect.mem_set_unit]
  exact Iff.rfl

/-- Twenty blocks of 5000 rows tile the 100000 rows: row r is in the block of point r / 5000. -/
theorem cover3 (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  obtain ⟨t, ht⟩ : ∃ t : Fin cfg0.N, t.val = (i 0).val / 5000 :=
    ⟨⟨(i 0).val / 5000, lt_of_lt_of_eq (show (i 0).val / 5000 < 20 by omega) N_0.symm⟩, rfl⟩
  obtain ⟨e00, e01, e10, e11, e20, e21, e30, e31, e40, e41⟩ := idx_facts t
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 32 ≤ (i 1).val ∧ (i 1).val < win0_3.index t (1 : Fin 2) * 32 + 32; omega

end Blocks3

theorem arr3 (c : Dev nD) :
    (dat0 (F := Ideal) V c).arrAt 3 cfg0.N = Cert.Spec.reg0a (F := Ideal) (V c main_arg0) (V c main_v13) :=
  (dat0 (F := Ideal) V c).arrAt_eq_of_cover 3 _ (fun t _ => flushed3_eq V c t) cover3

end Cert.KernelIdeal.Reg0

end
-- ==== Proof.Reg1.lean ====
/-
  Region 1 (ELU of the sum of two [100000,16] operands and a bias row, then two dense products), read as whole-array functions.

  Each of the twenty grid points takes rows 5000 t … 5000 t + 4999 of the two [100000,16] operands, adds them and
  the bias row, applies ELU, and multiplies the [5000,16] result by the whole [16,80] and [16,40] weight arrays.
  The claim: after the twenty points the two result arrays are the dense products of the whole [100000,16] hidden
  layer with the weights, as the host spells them.

  The steps: (1) ELU on one extended real — the body's select (z > 0) z (exp (min z 0) − 1) and the host's
  select (z > 0) z (1 · expm1 (select (z > 0) 0 z)) are the same function; (2) for a rows-by-columns product
  with one contracted axis the operand indices are (row, k) and (k, column), so the contraction's sum is a sum
  over k : Fin K; (3) the body's arithmetic and the whole-array function, each read at an index, are the same sum
  of sixteen terms once every operand block is the same rows of its array; (4) the twenty blocks of 5000 rows tile
  the 100000 rows, so the array after the run is the whole-array function.
-/
import proofs.«429878_j43843026157849_3_alg».proof.Proof.Gen.KernelIdeal.Frame
import proofs.«429878_j43843026157849_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

namespace Cert.KernelIdeal.Reg1

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open scoped BigOperators

/-! ## ELU on one extended real -/

/-- ELU of one extended real: the element itself where positive, otherwise its exponential less one. -/
def elu1 (z : EReal) : EReal := if 0 < z then z else Ideal.exp z - 1

/-- The kernel's spelling: select on z > 0 between z and exp (min z 0) - 1. -/
theorem elu_kernel (z : EReal) :
    Scalar.select (FloatOps.cmpf (F := Ideal) (φ := .f32) .ogt z (Scalar.ofBits .f32 0x00000000#32)) z
        (FloatOps.subf (F := Ideal) (φ := .f32) (FloatOps.exp (F := Ideal) (φ := .f32) (FloatOps.minimumf (F := Ideal) (φ := .f32) z (Scalar.ofBits .f32 0x00000000#32)))
          (Scalar.ofBits .f32 0x3F800000#32))
      = elu1 z := by
  have hs : ∀ b : BitVec (FTy.bits .f32), Scalar.ofBits (F := Ideal) .f32 b = Ideal.ofBits .f32 b := fun _ => rfl
  simp only [Scalar.select, Ideal.cmpf_def, Ideal.subf_def, Ideal.exp_def, Ideal.minimumf_def, hs, Ideal.cmp,
    Ideal.ofBits_zero_f32, Ideal.ofBits_one_f32, elu1]
  by_cases h : 0 < z
  · simp [h]
  · have hz : min z 0 = z := min_eq_left (not_lt.mp h)
    simp [h, hz]

/-- The host's spelling (jax.nn.elu): select on z > 0 between z and 1 · expm1 (select on z > 0 between 0 and z). -/
theorem elu_host (z : FVec Ideal Cert.Spec.SNx16 .f32) (i : Cert.Spec.SNx16.Idx) :
    Cert.Spec.elu (F := Ideal) z i = elu1 (z i) := by
  show Scalar.select (Ideal.cmp .ogt (z i) (Ideal.ofBits .f32 0x00000000#32)) (z i)
      (Ideal.ofBits .f32 0x3F800000#32 * (Ideal.exp (Scalar.select (Ideal.cmp .ogt (z i) (Ideal.ofBits .f32 0x00000000#32))
        (Ideal.ofBits .f32 0x00000000#32) (z i)) - 1)) = _
  simp only [Scalar.select, Ideal.cmp, Ideal.ofBits_zero_f32, Ideal.ofBits_one_f32, elu1, one_mul]
  by_cases h : 0 < z i
  · simp [h]
  · simp [h]

/-! ## A rows-by-columns product's operand indices -/

section Dot2
variable {m K n : Nat} (d : DotDims ⟨2, ![m, K]⟩ ⟨2, ![K, n]⟩ ⟨2, ![m, n]⟩)
  (hlb : d.lhsBatch = []) (hln : d.lhsNonContracting = [0]) (hlc : d.lhsContracting = [1])
  (hrb : d.rhsBatch = []) (hrn : d.rhsNonContracting = [1]) (hrc : d.rhsContracting = [0])
include hlb hln hlc hrb hrn hrc

/-- One contracted axis … -/
theorem dot2_rank : d.contr.rank = 1 := by rw [d.rank_contr, hlc]; rfl

/-- … of extent K. -/
theorem dot2_size : d.contr.size ⟨0, by rw [dot2_rank d hlb hln hlc hrb hrn hrc]; exact Nat.one_pos⟩ = K := by
  have h := d.size_contr 0 (by rw [hlc]; exact Nat.one_pos)
  rw [h]
  simp [hlc]

/-- The left operand's row is the result's row. -/
theorem dot2_lhs0 (j : (⟨2, ![m, n]⟩ : Shape).Idx) (k : d.contr.Idx) : (d.lhsIdx j k 0).val = (j 0).val := by
  have hb : (0 : Fin (⟨2, ![m, K]⟩ : Shape).rank) ∉ d.lhsBatch := by rw [hlb]; exact List.not_mem_nil
  have hn : (0 : Fin (⟨2, ![m, K]⟩ : Shape).rank) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction position. -/
theorem dot2_lhs1 (j : (⟨2, ![m, n]⟩ : Shape).Idx) (k : d.contr.Idx) :
    (d.lhsIdx j k 1).val = (k ⟨0, by rw [dot2_rank d hlb hln hlc hrb hrn hrc]; exact Nat.one_pos⟩).val :=
  d.lhsIdx_val_of_single hlc j k

/-- The right operand's row is the contraction position. -/
theorem dot2_rhs0 (j : (⟨2, ![m, n]⟩ : Shape).Idx) (k : d.contr.Idx) :
    (d.rhsIdx j k 0).val = (k ⟨0, by rw [dot2_rank d hlb hln hlc hrb hrn hrc]; exact Nat.one_pos⟩).val :=
  d.rhsIdx_val_of_single hrc j k

/-- The right operand's column is the result's column. -/
theorem dot2_rhs1 (j : (⟨2, ![m, n]⟩ : Shape).Idx) (k : d.contr.Idx) : (d.rhsIdx j k 1).val = (j 1).val := by
  have hb : (1 : Fin (⟨2, ![K, n]⟩ : Shape).rank) ∉ d.rhsBatch := by rw [hrb]; exact List.not_mem_nil
  have hn : (1 : Fin (⟨2, ![K, n]⟩ : Shape).rank) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction's sum re-indexed by the one contracted coordinate: row p of the left operand against column q of the right. -/
theorem dot2_sum (lhs : (⟨2, ![m, K]⟩ : Shape).Idx → EReal) (rhs : (⟨2, ![K, n]⟩ : Shape).Idx → EReal) (p : Fin m) (q : Fin n) :
    ∑ k : d.contr.Idx, lhs (d.lhsIdx (ix2 p q) k) * rhs (d.rhsIdx (ix2 p q) k) = ∑ k : Fin K, lhs (ix2 p k) * rhs (ix2 k q) := by
  have hr := dot2_rank d hlb hln hlc hrb hrn hrc
  have hs := dot2_size d hlb hln hlc hrb hrn hrc
  rw [← Equiv.sum_comp (contrEquiv1 d K hr hs).symm]
  refine Finset.sum_congr rfl fun k _ => ?_
  have hk := contrEquiv1_symm_val d K hr hs k
  have e1 : d.lhsIdx (ix2 p q) ((contrEquiv1 d K hr hs).symm k) = ix2 p k := by
    funext a; apply Fin.ext
    match a with
    | ⟨0, _⟩ => exact dot2_lhs0 d hlb hln hlc hrb hrn hrc _ _
    | ⟨1, _⟩ => exact (dot2_lhs1 d hlb hln hlc hrb hrn hrc _ _).trans hk
  have e2 : d.rhsIdx (ix2 p q) ((contrEquiv1 d K hr hs).symm k) = ix2 k q := by
    funext a; apply Fin.ext
    match a with
    | ⟨0, _⟩ => exact (dot2_rhs0 d hlb hln hlc hrb hrn hrc _ _).trans hk
    | ⟨1, _⟩ => exact dot2_rhs1 d hlb hln hlc hrb hrn hrc _ _
  rw [e1, e2]

end Dot2

/-! ## The body's arithmetic at an index -/

/-- The hidden block at (p, k): ELU of (first operand + second operand + bias row). -/
theorem pay1_apply (x0 x1 : FVec Ideal S5000x16 .f32) (x2 : FVec Ideal S1x16 .f32) (p : Fin 5000) (k : Fin 16) :
    k1_pay1 (F := Ideal) x0 x1 x2 (ix2 p k) = elu1 ((x0 (ix2 p k) + x1 (ix2 p k)) + x2 (ix2 (0 : Fin 1) k)) := by
  unfold k1_pay1
  simp only [shapeCast_self]
  have hz : addf (addf x0 x1) (broadcastTo S5000x16 x2 broadcasts_S1x16_S5000x16) (ix2 p k)
      = (x0 (ix2 p k) + x1 (ix2 p k)) + x2 (ix2 (0 : Fin 1) k) := by
    rw [addf_apply, addf_apply, broadcastTo_1b_ab_apply]
  exact (elu_kernel (addf (addf x0 x1) (broadcastTo S5000x16 x2 broadcasts_S1x16_S5000x16) (ix2 p k))).trans (congrArg elu1 hz)

/-- The second product's block at (p, q): row p of the hidden block against column q of the weights. -/
theorem pay3_apply (x0 x1 : FVec Ideal S5000x16 .f32) (x2 : FVec Ideal S1x16 .f32) (x4 : FVec Ideal S16x40 .f32) (p : Fin 5000) (q : Fin 40) :
    k1_pay3 (F := Ideal) x0 x1 x2 x4 (ix2 p q)
      = ∑ k : Fin 16, elu1 ((x0 (ix2 p k) + x1 (ix2 p k)) + x2 (ix2 (0 : Fin 1) k)) * x4 (ix2 k q) := by
  unfold k1_pay3
  simp only [matmul]
  rw [Ideal.matmul_constant_zero_apply]
  rw [dot2_sum dot_S5000x16_S16x40_S5000x40_1_0_0_1_n_n rfl rfl rfl rfl rfl rfl]
  refine Finset.sum_congr rfl fun k _ => ?_
  rw [pay1_apply, truncf_apply]

/-- The first product's block at (p, q). -/
theorem pay2_apply (x0 x1 : FVec Ideal S5000x16 .f32) (x2 : FVec Ideal S1x16 .f32) (x3 : FVec Ideal S16x80 .f32) (p : Fin 5000) (q : Fin 80) :
    k1_pay2 (F := Ideal) x0 x1 x2 x3 (ix2 p q)
      = ∑ k : Fin 16, elu1 ((x0 (ix2 p k) + x1 (ix2 p k)) + x2 (ix2 (0 : Fin 1) k)) * x3 (ix2 k q) := by
  unfold k1_pay2
  simp only [matmul, shapeCast_self]
  rw [Ideal.matmul_constant_zero_apply]
  rw [dot2_sum dot_S5000x16_S16x80_S5000x80_1_0_0_1_n_n rfl rfl rfl rfl rfl rfl]
  refine Finset.sum_congr rfl fun k _ => ?_
  rw [pay1_apply, truncf_apply]

/-! ## The whole-array function at an index -/

/-- The hidden layer at (r, k). -/
theorem hid_apply (a xr : FVec Ideal Cert.Spec.SNx16 .f32) (b : FVec Ideal Cert.Spec.S1x16 .f32) (r : Fin 100000) (k : Fin 16) :
    Cert.Spec.hid (F := Ideal) a xr b (ix2 r k) = elu1 ((a (ix2 r k) + xr (ix2 r k)) + b (ix2 (0 : Fin 1) k)) := by
  unfold Cert.Spec.hid
  rw [elu_host, addf_apply, addf_apply, broadcastInDim_oneRow_apply]

/-- The second whole-array product at (r, q): row r of the hidden layer against column q of the weights. -/
theorem reg1b_apply (a xr : FVec Ideal Cert.Spec.SNx16 .f32) (b : FVec Ideal Cert.Spec.S1x16 .f32) (w : FVec Ideal Cert.Spec.S16x40 .f32)
    (r : Fin 100000) (q : Fin 40) :
    Cert.Spec.reg1b (F := Ideal) a xr b w (ix2 r q)
      = ∑ k : Fin 16, elu1 ((a (ix2 r k) + xr (ix2 r k)) + b (ix2 (0 : Fin 1) k)) * w (ix2 k q) := by
  unfold Cert.Spec.reg1b
  simp only [Host.dotGeneral]
  rw [Ideal.dotGeneral_apply]
  rw [dot2_sum Cert.Spec.dN_16_40 rfl rfl rfl rfl rfl rfl]
  refine Finset.sum_congr rfl fun k _ => ?_
  rw [hid_apply]

/-- The first whole-array product at (r, q). -/
theorem reg1a_apply (a xr : FVec Ideal Cert.Spec.SNx16 .f32) (b : FVec Ideal Cert.Spec.S1x16 .f32) (w : FVec Ideal Cert.Spec.S16x80 .f32)
    (r : Fin 100000) (q : Fin 80) :
    Cert.Spec.reg1a (F := Ideal) a xr b w (ix2 r q)
      = ∑ k : Fin 16, elu1 ((a (ix2 r k) + xr (ix2 r k)) + b (ix2 (0 : Fin 1) k)) * w (ix2 k q) := by
  unfold Cert.Spec.reg1a
  simp only [Host.dotGeneral]
  rw [Ideal.dotGeneral_apply]
  rw [dot2_sum Cert.Spec.dN_16_80 rfl rfl rfl rfl rfl rfl]
  refine Finset.sum_congr rfl fun k _ => ?_
  rw [hid_apply]

/-! ## From blocks to the arrays -/

/-- A block of the second product is the same rows of the whole-array product, once each operand block is the same rows
    (or all) of its array. -/
theorem block6 (x0 x1 : FVec Ideal S5000x16 .f32) (x2 : FVec Ideal S1x16 .f32) (x4 : FVec Ideal S16x40 .f32)
    (a xr : FVec Ideal Cert.Spec.SNx16 .f32) (b : FVec Ideal Cert.Spec.S1x16 .f32) (w : FVec Ideal Cert.Spec.S16x40 .f32)
    (p : Fin 5000) (q : Fin 40) (r : Fin 100000)
    (h0 : ∀ k : Fin 16, x0 (ix2 p k) = a (ix2 r k)) (h1 : ∀ k : Fin 16, x1 (ix2 p k) = xr (ix2 r k))
    (h2 : ∀ k : Fin 16, x2 (ix2 (0 : Fin 1) k) = b (ix2 (0 : Fin 1) k)) (h4 : ∀ k : Fin 16, x4 (ix2 k q) = w (ix2 k q)) :
    k1_pay3 (F := Ideal) x0 x1 x2 x4 (ix2 p q) = Cert.Spec.reg1b (F := Ideal) a xr b w (ix2 r q) := by
  rw [pay3_apply, reg1b_apply]
  refine Finset.sum_congr rfl fun k _ => ?_
  rw [h0, h1, h2, h4]

/-- The same for the first product. -/
theorem block5 (x0 x1 : FVec Ideal S5000x16 .f32) (x2 : FVec Ideal S1x16 .f32) (x3 : FVec Ideal S16x80 .f32)
    (a xr : FVec Ideal Cert.Spec.SNx16 .f32) (b : FVec Ideal Cert.Spec.S1x16 .f32) (w : FVec Ideal Cert.Spec.S16x80 .f32)
    (p : Fin 5000) (q : Fin 80) (r : Fin 100000)
    (h0 : ∀ k : Fin 16, x0 (ix2 p k) = a (ix2 r k)) (h1 : ∀ k : Fin 16, x1 (ix2 p k) = xr (ix2 r k))
    (h2 : ∀ k : Fin 16, x2 (ix2 (0 : Fin 1) k) = b (ix2 (0 : Fin 1) k)) (h3 : ∀ k : Fin 16, x3 (ix2 k q) = w (ix2 k q)) :
    k1_pay2 (F := Ideal) x0 x1 x2 x3 (ix2 p q) = Cert.Spec.reg1a (F := Ideal) a xr b w (ix2 r q) := by
  rw [pay2_apply, reg1a_apply]
  refine Finset.sum_congr rfl fun k _ => ?_
  rw [h0, h1, h2, h3]

/-- The zero offsets, however spelt. -/
theorem zero2 : (![0, 0] : Fin 2 → Nat) = fun _ => 0 := funext fun a => by fin_cases a <;> rfl

/-- The printed index maps over the grid: the row-blocked windows sit at row block t, column block 0; the small operands
    at block (0, 0). -/
theorem blockIdx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- What point t writes back to the second result is rows 5000 t … 5000 t + 4999 of the whole-array product. -/
theorem wrote6 (c : Dev nD) (t : Fin cfg1.N) :
    (dat1 (F := Ideal) V c).flushed 6 t = ((cfg1.win 6).blk t).view.read (Elt Ideal)
      (Cert.Spec.reg1b (F := Ideal) (V c main_v34) (V c main_v14_1) (V c main_v35) (V c main_arg7)) := by
  show (cfg1.win 6).cut (grid1.coords t) ((dat1 (F := Ideal) V c).after 6 t) = _
  rw [after1_6]
  unfold out1_6
  rw [View.canon_unit_zero zero2]
  simp only [View.ld_unit_zero (S := S5000x16) zero2, View.ld_unit_zero (S := S1x16) zero2, View.ld_unit_zero (S := S16x40) zero2]
  have ht : t.val < 20 := lt_of_lt_of_eq t.isLt N_1
  obtain ⟨e00, e01, e10, e11, e20, e21, e30, e31, e40, e41, e50, e51, e60, e61⟩ := blockIdx t
  refine funext fun (y : S5000x40.Idx) => ?_
  obtain ⟨p, q, rfl⟩ : ∃ (p : Fin 5000) (q : Fin 40), y = ix2 p q := ⟨y 0, y 1, eq_ix2 y⟩
  have hp : p.val < 5000 := p.isLt
  have hq : q.val < 40 := q.isLt
  show k1_pay3 (F := Ideal) (iblk1 V c 0 t) (iblk1 V c 1 t) (iblk1 V c 2 t) (iblk1 V c 4 t) (ix2 p q)
    = Cert.Spec.reg1b (F := Ideal) (V c main_v34) (V c main_v14_1) (V c main_v35) (V c main_arg7) (((cfg1.win 6).blk t).view.emb (ix2 p q))
  have hr : ((cfg1.win 6).blk t).view.emb (ix2 p q) = ix2 (⟨t.val * 5000 + p.val, by omega⟩ : Fin 100000) q := by
    funext a; apply Fin.ext
    match a with
    | ⟨0, _⟩ => show win1_6.index t (0 : Fin 2) * 5000 + 1 * p.val = t.val * 5000 + p.val; omega
    | ⟨1, _⟩ => show win1_6.index t (1 : Fin 2) * 40 + 1 * q.val = q.val; omega
  rw [hr]
  refine block6 (iblk1 V c 0 t) (iblk1 V c 1 t) (iblk1 V c 2 t) (iblk1 V c 4 t) (V c main_v34) (V c main_v14_1) (V c main_v35) (V c main_arg7)
    p q _ (fun k => ?_) (fun k => ?_) (fun k => ?_) (fun k => ?_)
  · have hk : k.val < 16 := k.isLt
    show V c main_v34 (((cfg1.win 0).blk t).view.emb (ix2 p k)) = V c main_v34 (ix2 _ k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 16 + 1 * k.val = k.val; omega
  · have hk : k.val < 16 := k.isLt
    show V c main_v14_1 (((cfg1.win 1).blk t).view.emb (ix2 p k)) = V c main_v14_1 (ix2 _ k)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 16 + 1 * k.val = k.val; omega
  · have hk : k.val < 16 := k.isLt
    show V c main_v35 (((cfg1.win 2).blk t).view.emb (ix2 (0 : Fin 1) k)) = V c main_v35 (ix2 (0 : Fin 1) k)
    refine congrArg _ (funext fun a => Fin.ext ?_)
    match a with
    | ⟨0, _⟩ => show win1_2.index t (0 : Fin 2) * 1 + 1 * 0 = 0; omega
    | ⟨1, _⟩ => show win1_2.index t (1 : Fin 2) * 16 + 1 * k.val = k.val; omega
  · have hk : k.val < 16 := k.isLt
    show V c main_arg7 (((cfg1.win 4).blk t).view.emb (ix2 k q)) = V c main_arg7 (ix2 k q)
    refine congrArg _ (funext fun a => Fin.ext ?_)
    match a with
    | ⟨0, _⟩ => show win1_4.index t (0 : Fin 2) * 16 + 1 * k.val = k.val; omega
    | ⟨1, _⟩ => show win1_4.index t (1 : Fin 2) * 40 + 1 * q.val = q.val; omega

/-- An index of the second result is in point t's block iff each coordinate is in the block's range on its axis. -/
theorem mem_blk6 (t : Fin cfg1.N) (i : S100000x40.Idx) :
    i ∈ ((cfg1.win 6).blk t).view.set ↔ ∀ a : Fin 2, win1_6.index t a * S5000x40.size a ≤ (i a).val
      ∧ (i a).val < win1_6.index t a * S5000x40.size a + S5000x40.size a := by
  show i ∈ ((View.whole main_v41_1).slice (win1_6.rect t)).set ↔ _
  rw [View.set_slice_whole, Rect.mem_set_unit]
  exact Iff.rfl

/-- Twenty blocks of 5000 rows tile the 100000 rows: row r is in the block of point r / 5000. -/
theorem cover6 (i : S100000x40.Idx) :
    ∃ t : Fin cfg1.N, (cfg1.win 6).flush t = true ∧ i ∈ ((cfg1.win 6).blk t).view.set := by
  have hi0 : (i 0).val < 100000 := (i 0).isLt
  have hi1 : (i 1).val < 40 := (i 1).isLt
  have hlt : (i 0).val / 5000 < cfg1.N := lt_of_lt_of_eq (by omega : (i 0).val / 5000 < 20) N_1.symm
  obtain ⟨e00, e01, e10, e11, e20, e21, e30, e31, e40, e41, e50, e51, e60, e61⟩ := blockIdx ⟨(i 0).val / 5000, hlt⟩
  have e60' : win1_6.index ⟨(i 0).val / 5000, hlt⟩ (0 : Fin 2) = (i 0).val / 5000 := e60
  refine ⟨⟨(i 0).val / 5000, hlt⟩, flush1_6 _, ?_⟩
  rw [mem_blk6]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    omega
  | ⟨1, _⟩ =>
    show win1_6.index ⟨(i 0).val / 5000, hlt⟩ (1 : Fin 2) * 40 ≤ (i 1).val
      ∧ (i 1).val < win1_6.index ⟨(i 0).val / 5000, hlt⟩ (1 : Fin 2) * 40 + 40
    omega

/-- The second result after the twenty points is the whole-array product with the [16,40] weights. -/
theorem arr6 (c : Dev nD) :
    (dat1 (F := Ideal) V c).arrAt 6 cfg1.N
      = Cert.Spec.reg1b (F := Ideal) (V c main_v34) (V c main_v14_1) (V c main_v35) (V c main_arg7) :=
  (dat1 (F := Ideal) V c).arrAt_eq_of_cover 6 _ (fun t _ => wrote6 V c t) cover6

/-- What point t writes back to the first result is rows 5000 t … 5000 t + 4999 of the whole-array product. -/
theorem wrote5 (c : Dev nD) (t : Fin cfg1.N) :
    (dat1 (F := Ideal) V c).flushed 5 t = ((cfg1.win 5).blk t).view.read (Elt Ideal)
      (Cert.Spec.reg1a (F := Ideal) (V c main_v34) (V c main_v14_1) (V c main_v35) (V c main_v40)) := by
  show (cfg1.win 5).cut (grid1.coords t) ((dat1 (F := Ideal) V c).after 5 t) = _
  rw [after1_5]
  unfold out1_5
  rw [View.canon_unit_zero zero2]
  simp only [View.ld_unit_zero (S := S5000x16) zero2, View.ld_unit_zero (S := S1x16) zero2, View.ld_unit_zero (S := S16x80) zero2]
  have ht : t.val < 20 := lt_of_lt_of_eq t.isLt N_1
  obtain ⟨e00, e01, e10, e11, e20, e21, e30, e31, e40, e41, e50, e51, e60, e61⟩ := blockIdx t
  refine funext fun (y : S5000x80.Idx) => ?_
  obtain ⟨p, q, rfl⟩ : ∃ (p : Fin 5000) (q : Fin 80), y = ix2 p q := ⟨y 0, y 1, eq_ix2 y⟩
  have hp : p.val < 5000 := p.isLt
  have hq : q.val < 80 := q.isLt
  show k1_pay2 (F := Ideal) (iblk1 V c 0 t) (iblk1 V c 1 t) (iblk1 V c 2 t) (iblk1 V c 3 t) (ix2 p q)
    = Cert.Spec.reg1a (F := Ideal) (V c main_v34) (V c main_v14_1) (V c main_v35) (V c main_v40) (((cfg1.win 5).blk t).view.emb (ix2 p q))
  have hr : ((cfg1.win 5).blk t).view.emb (ix2 p q) = ix2 (⟨t.val * 5000 + p.val, by omega⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 80 + 1 * q.val = q.val; omega
  rw [hr]
  refine block5 (iblk1 V c 0 t) (iblk1 V c 1 t) (iblk1 V c 2 t) (iblk1 V c 3 t) (V c main_v34) (V c main_v14_1) (V c main_v35) (V c main_v40)
    p q _ (fun k => ?_) (fun k => ?_) (fun k => ?_) (fun k => ?_)
  · have hk : k.val < 16 := k.isLt
    show V c main_v34 (((cfg1.win 0).blk t).view.emb (ix2 p k)) = V c main_v34 (ix2 _ k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 16 + 1 * k.val = k.val; omega
  · have hk : k.val < 16 := k.isLt
    show V c main_v14_1 (((cfg1.win 1).blk t).view.emb (ix2 p k)) = V c main_v14_1 (ix2 _ k)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 16 + 1 * k.val = k.val; omega
  · have hk : k.val < 16 := k.isLt
    show V c main_v35 (((cfg1.win 2).blk t).view.emb (ix2 (0 : Fin 1) k)) = V c main_v35 (ix2 (0 : Fin 1) k)
    refine congrArg _ (funext fun a => Fin.ext ?_)
    match a with
    | ⟨0, _⟩ => show win1_2.index t (0 : Fin 2) * 1 + 1 * 0 = 0; omega
    | ⟨1, _⟩ => show win1_2.index t (1 : Fin 2) * 16 + 1 * k.val = k.val; omega
  · have hk : k.val < 16 := k.isLt
    show V c main_v40 (((cfg1.win 3).blk t).view.emb (ix2 k q)) = V c main_v40 (ix2 k q)
    refine congrArg _ (funext fun a => Fin.ext ?_)
    match a with
    | ⟨0, _⟩ => show win1_3.index t (0 : Fin 2) * 16 + 1 * k.val = k.val; omega
    | ⟨1, _⟩ => show win1_3.index t (1 : Fin 2) * 80 + 1 * q.val = q.val; omega

/-- An index of the first result is in point t's block iff each coordinate is in the block's range on its axis. -/
theorem mem_blk5 (t : Fin cfg1.N) (i : S100000x80.Idx) :
    i ∈ ((cfg1.win 5).blk t).view.set ↔ ∀ a : Fin 2, win1_5.index t a * S5000x80.size a ≤ (i a).val
      ∧ (i a).val < win1_5.index t a * S5000x80.size a + S5000x80.size a := by
  show i ∈ ((View.whole main_v41_0).slice (win1_5.rect t)).set ↔ _
  rw [View.set_slice_whole, Rect.mem_set_unit]
  exact Iff.rfl

/-- The same tiling for the first result. -/
theorem cover5 (i : S100000x80.Idx) :
    ∃ t : Fin cfg1.N, (cfg1.win 5).flush t = true ∧ i ∈ ((cfg1.win 5).blk t).view.set := by
  have hi0 : (i 0).val < 100000 := (i 0).isLt
  have hi1 : (i 1).val < 80 := (i 1).isLt
  have hlt : (i 0).val / 5000 < cfg1.N := lt_of_lt_of_eq (by omega : (i 0).val / 5000 < 20) N_1.symm
  obtain ⟨e00, e01, e10, e11, e20, e21, e30, e31, e40, e41, e50, e51, e60, e61⟩ := blockIdx ⟨(i 0).val / 5000, hlt⟩
  have e50' : win1_5.index ⟨(i 0).val / 5000, hlt⟩ (0 : Fin 2) = (i 0).val / 5000 := e50
  refine ⟨⟨(i 0).val / 5000, hlt⟩, flush1_5 _, ?_⟩
  rw [mem_blk5]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    omega
  | ⟨1, _⟩ =>
    show win1_5.index ⟨(i 0).val / 5000, hlt⟩ (1 : Fin 2) * 80 ≤ (i 1).val
      ∧ (i 1).val < win1_5.index ⟨(i 0).val / 5000, hlt⟩ (1 : Fin 2) * 80 + 80
    omega

/-- The first result after the twenty points is the whole-array product with the [16,80] weights. -/
theorem arr5 (c : Dev nD) :
    (dat1 (F := Ideal) V c).arrAt 5 cfg1.N
      = Cert.Spec.reg1a (F := Ideal) (V c main_v34) (V c main_v14_1) (V c main_v35) (V c main_v40) :=
  (dat1 (F := Ideal) V c).arrAt_eq_of_cover 5 _ (fun t _ => wrote5 V c t) cover5

end Cert.KernelIdeal.Reg1

end
-- ==== Proof.Reg2.lean ====
import proofs.«429878_j43843026157849_3_alg».proof.Proof.Gen.KernelIdeal.Frame
import proofs.«429878_j43843026157849_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Reg2

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## One row of 40 entries -/

/-- The maximum of a row, taken from −∞. -/
def rowMax (z : Fin 40 → EReal) : EReal :=
  (Finset.univ : Finset (Fin 40)).fold max (Ideal.ofBits .f32 0xFF800000#32) z

/-- Log-softmax of a row at entry q: the entry shifted by the row maximum, less the log of the row sum of the
    exponentials of the shifted entries. -/
def rowLsm (z : Fin 40 → EReal) (q : Fin 40) : EReal :=
  (z q - rowMax z) - Ideal.log (∑ k : Fin 40, Ideal.exp (z k - rowMax z))

/-! ## The block's layout operations at an index -/

/-- Row p of the block with column k put back: the index (p, k). -/
theorem lift_blk (p : Fin 5000) (k : Fin 40) :
    (reduces_S5000x40_S5000).lift (ix1 p) k = ix2 p k := by
  funext a; apply Fin.ext
  match a with
  | ⟨0, _⟩ => rfl
  | ⟨1, _⟩ => rfl

/-- A [5000] vector cast to a column [5000, 1] reads its entry p at (p, u). -/
theorem cast_col_blk (v : S5000.Idx → EReal) (p : Fin 5000) (u : Fin 1) :
    shapeCast S5000x1 v shapeCasts_S5000_S5000x1 (ix2 p u) = v (ix1 p) :=
  shapeCast_apply v _ (ix2 p u) (ix1 p) (by
    rw [Shape.rowMajor_val_two, Shape.rowMajor_val_one]
    show p.val = p.val * 1 + u.val
    have := u.isLt; omega)

/-- A column [5000, 1] broadcast along the 40 columns reads its entry (p, 0) at (p, q). -/
theorem bcast_col_blk (v : S5000x1.Idx → EReal) (p : Fin 5000) (q : Fin 40) :
    broadcastTo S5000x40 v broadcasts_S5000x1_S5000x40 (ix2 p q) = v (ix2 p (0 : Fin 1)) :=
  broadcastTo_apply v _ (ix2 p q) (ix2 p (0 : Fin 1)) (by
    intro a
    match a with
    | ⟨0, _⟩ => rfl
    | ⟨1, _⟩ => rfl)

/-- The bias row [1, 40] broadcast down the 5000 rows reads its entry (0, q) at (p, q). -/
theorem bcast_row_blk (v : S1x40.Idx → EReal) (p : Fin 5000) (q : Fin 40) :
    broadcastTo S5000x40 v broadcasts_S1x40_S5000x40 (ix2 p q) = v (ix2 (0 : Fin 1) q) :=
  broadcastTo_1b_ab_apply v _ p q

/-- The vector exp and log at an index. -/
theorem vexp_apply {s : Shape} (x : FVec Ideal s .f32) (i : s.Idx) : exp x i = Ideal.exp (x i) := rfl
theorem vlog_apply {s : Shape} (x : FVec Ideal s .f32) (i : s.Idx) : log x i = Ideal.log (x i) := rfl

/-- The block's row maximum at row p: the maximum from −∞ of row p's 40 entries. -/
theorem max_blk (z : FVec Ideal S5000x40 .f32) (hφ : FTy.f32 = FTy.f32 ∨ FTy.f32 = FTy.bf16)
    (hacc : (0xFF800000#32 : BitVec 32) = 0xFF800000#32) (p : Fin 5000) :
    multiReduction (F := Ideal) .maximumf [1] S5000 z 0xFF800000#32 reduces_S5000x40_S5000 hφ hacc (ix1 p)
      = rowMax (fun k => z (ix2 p k)) := by
  refine (Ideal.multiReduction_maximumf_single z 0xFF800000#32 reduces_S5000x40_S5000 hφ hacc (ix1 p)).trans ?_
  unfold rowMax
  refine congrArg (fun f => (Finset.univ : Finset (Fin 40)).fold max (Ideal.ofBits .f32 0xFF800000#32) f) (funext fun k => ?_)
  exact congrArg z (lift_blk p k)

/-- The block's row sum at row p: the sum of row p's 40 entries. -/
theorem sum_blk (y : FVec Ideal S5000x40 .f32) (hφ : FTy.f32 = FTy.f32 ∨ FTy.f32 = FTy.bf16)
    (hacc : (0x00000000#32 : BitVec 32) = 0x00000000#32) (p : Fin 5000) :
    multiReduction (F := Ideal) .add [1] S5000 y 0x00000000#32 reduces_S5000x40_S5000 hφ hacc (ix1 p)
      = ∑ k : Fin 40, y (ix2 p k) := by
  refine (Ideal.multiReduction_add_single y 0x00000000#32 reduces_S5000x40_S5000 hφ hacc (ix1 p)).trans ?_
  exact Finset.sum_congr rfl fun k _ => congrArg y (lift_blk p k)

/-- The body's arithmetic at entry (p, q): the log-softmax of row p of (x0 + x1) + the bias row. -/
theorem pay_apply (x0 x1 : Vec Ideal S5000x40 .f32) (x2 : Vec Ideal S1x40 .f32) (p : Fin 5000) (q : Fin 40) :
    k2_pay1 (F := Ideal) x0 x1 x2 (ix2 p q)
      = rowLsm (fun k => (x0 (ix2 p k) + x1 (ix2 p k)) + x2 (ix2 (0 : Fin 1) k)) q := by
  unfold k2_pay1
  simp only [shapeCast_self]
  simp only [subf_apply, bcast_col_blk, vlog_apply, cast_col_blk, addf_apply, bcast_row_blk]
  rw [sum_blk]
  simp only [vexp_apply, subf_apply, bcast_col_blk, cast_col_blk, addf_apply, bcast_row_blk]
  rw [max_blk]
  simp only [addf_apply, bcast_row_blk]
  rfl

/-! ## The whole array's operations at an index -/

/-- The reduction of the columns of a [100000, 40] array, as the kernel's reductions state it. -/
theorem red_arr : Cert.Spec.SNx40.Reduces [1] Cert.Spec.SN := by decide

/-- Row r of the array with column k put back: the index (r, k). -/
theorem lift_arr (r : Fin 100000) (k : Fin 40) : red_arr.lift (ix1 r) k = ix2 r k := by
  funext a; apply Fin.ext
  match a with
  | ⟨0, _⟩ => rfl
  | ⟨1, _⟩ => rfl

/-- The host's exp and log at an index. -/
theorem hexp_apply {s : Shape} (x : FVec Ideal s .f32) (i : s.Idx) : Host.exp x i = Ideal.exp (x i) := rfl
theorem hlog_apply {s : Shape} (x : FVec Ideal s .f32) (i : s.Idx) : Host.log x i = Ideal.log (x i) := rfl

/-- The bias row [1, 40] broadcast down the 100000 rows reads its entry (0, q) at (r, q). -/
theorem bcast_row_arr (v : Cert.Spec.S1x40.Idx → EReal) (r : Fin 100000) (q : Fin 40) :
    broadcastInDim Cert.Spec.SNx40 ![0, 1] Cert.Spec.bcast_S1x40_SNx40 v (ix2 r q) = v (ix2 (0 : Fin 1) q) :=
  broadcastInDim_apply ![0, 1] _ v (ix2 r q) (ix2 (0 : Fin 1) q) (by
    intro a
    match a with
    | ⟨0, _⟩ => rfl
    | ⟨1, _⟩ => rfl)

/-- A column [100000, 1] broadcast along the 40 columns reads its entry (r, 0) at (r, q). -/
theorem bcast_col_arr (v : Cert.Spec.SNx1.Idx → EReal) (r : Fin 100000) (q : Fin 40) :
    broadcastInDim Cert.Spec.SNx40 ![0, 1] Cert.Spec.bcast_SNx1_SNx40 v (ix2 r q) = v (ix2 r (0 : Fin 1)) :=
  broadcastInDim_apply ![0, 1] _ v (ix2 r q) (ix2 r (0 : Fin 1)) (by
    intro a
    match a with
    | ⟨0, _⟩ => rfl
    | ⟨1, _⟩ => rfl)

/-- A [100000] vector laid as a column [100000, 1] reads its entry r at (r, u). -/
theorem bcast_unit_arr (v : Cert.Spec.SN.Idx → EReal) (r : Fin 100000) (u : Fin 1) :
    broadcastInDim Cert.Spec.SNx1 ![0] Cert.Spec.bcast_SN_SNx1 v (ix2 r u) = v (ix1 r) :=
  broadcastInDim_apply ![0] _ v (ix2 r u) (ix1 r) (by
    intro a
    match a with
    | ⟨0, _⟩ => rfl)

/-- The host's row maximum at row r: the maximum from −∞ of row r's 40 entries. -/
theorem max_arr (z : FVec Ideal Cert.Spec.SNx40 .f32) (r : Fin 100000) :
    Host.reduce FloatOps.maximumf z (constant (F := Ideal) Cert.Spec.S_ .f32 0xFF800000#32) Cert.Spec.red_SNx40_SN Cert.Spec.h_S_ (ix1 r)
      = rowMax (fun k => z (ix2 r k)) := by
  refine (Host.reduce_eq_fold_single FloatOps.maximumf z _ Cert.Spec.red_SNx40_SN red_arr Cert.Spec.h_S_ (ix1 r)).trans ?_
  unfold rowMax
  refine congrArg (fun f => (Finset.univ : Finset (Fin 40)).fold max (Ideal.ofBits .f32 0xFF800000#32) f) (funext fun k => ?_)
  exact congrArg z (lift_arr r k)

/-- The host's row sum at row r, from zero: the sum of row r's 40 entries. -/
theorem sum_arr (y : FVec Ideal Cert.Spec.SNx40 .f32) (r : Fin 100000) :
    Host.reduceAdd (F := Ideal) y (constant (F := Ideal) Cert.Spec.S_ .f32 0x00000000#32) Cert.Spec.red_SNx40_SN Cert.Spec.h_S_ (ix1 r)
      = ∑ k : Fin 40, y (ix2 r k) := by
  rw [hostReduceAdd_apply, Ideal.hostReduceAdd_single Cert.Spec.red_SNx40_SN red_arr]
  show Ideal.ofBits .f32 0x00000000#32 + _ = _
  rw [Ideal.ofBits_zero_f32, zero_add]
  exact Finset.sum_congr rfl fun k _ => congrArg y (lift_arr r k)

/-- −∞ is below everything. -/
theorem max_negInf (m : EReal) : max (Ideal.ofBits .f32 0xFF800000#32) m = m := by
  have h : Ideal.ofBits .f32 0xFF800000#32 = ⊥ := by simp [Ideal.ofBits, Ideal.ieee]
  rw [h]; exact max_eq_right bot_le

/-- The column of row maxima laid over the 40 columns reads row r's maximum at (r, k). -/
theorem shift_arr (z : FVec Ideal Cert.Spec.SNx40 .f32) (r : Fin 100000) (k : Fin 40) :
    broadcastInDim Cert.Spec.SNx40 ![0, 1] Cert.Spec.bcast_SNx1_SNx40
      (broadcastInDim Cert.Spec.SNx1 ![0] Cert.Spec.bcast_SN_SNx1
        (maximumf (broadcastInDim Cert.Spec.SN ![] Cert.Spec.bcast_S_SN (constant (F := Ideal) Cert.Spec.S_ .f32 0xFF800000#32))
          (Host.reduce FloatOps.maximumf z (constant (F := Ideal) Cert.Spec.S_ .f32 0xFF800000#32)
            Cert.Spec.red_SNx40_SN Cert.Spec.h_S_))) (ix2 r k)
      = rowMax (fun k' => z (ix2 r k')) := by
  rw [bcast_col_arr, bcast_unit_arr, maximumf_apply, broadcastInDim_scalar_apply, constant_apply, max_arr, max_negInf]

/-- The host's row-wise log-softmax at entry (r, q): the log-softmax of row r. -/
theorem lsm_apply (z : FVec Ideal Cert.Spec.SNx40 .f32) (r : Fin 100000) (q : Fin 40) :
    Cert.Spec.lsm (F := Ideal) z (ix2 r q) = rowLsm (fun k => z (ix2 r k)) q := by
  unfold Cert.Spec.lsm
  simp only [subf_apply]
  rw [shift_arr, bcast_col_arr, hlog_apply, bcast_unit_arr, sum_arr]
  unfold rowLsm
  refine congrArg (fun s => z (ix2 r q) - rowMax (fun k => z (ix2 r k)) - Ideal.log s)
    (Finset.sum_congr rfl fun k _ => ?_)
  rw [hexp_apply, subf_apply, shift_arr]

/-- The specification at entry (r, q): the log-softmax of row r of (a + xr) + the bias row. -/
theorem spec_apply (a xr : FVec Ideal Cert.Spec.SNx40 .f32) (b : FVec Ideal Cert.Spec.S1x40 .f32) (r : Fin 100000) (q : Fin 40) :
    Cert.Spec.reg2 (F := Ideal) a xr b (ix2 r q)
      = rowLsm (fun k => (a (ix2 r k) + xr (ix2 r k)) + b (ix2 (0 : Fin 1) k)) q := by
  unfold Cert.Spec.reg2
  rw [lsm_apply]
  refine congrArg (fun z => rowLsm z q) (funext fun k => ?_)
  rw [addf_apply, addf_apply, bcast_row_arr]

/-! ## From blocks to the array -/

theorem hz : (![0, 0] : Fin 2 → Nat) = fun _ => 0 :=
  funext fun a => by
    match a with
    | ⟨0, _⟩ => rfl
    | ⟨1, _⟩ => rfl

/-- The printed index maps over the grid: the row-blocked windows sit at block (t, 0), the bias row at (0, 0). -/
theorem idx_pts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (p, k) of the first operand's block at point t is entry (5000 t + p, k) of its array. -/
theorem blk0_apply (c : Dev nD) (t : Fin cfg2.N) (p : Fin 5000) (k : Fin 40) (r : Fin 100000)
    (hr : r.val = t.val * 5000 + p.val) :
    (iblk2 (F := Ideal) V c 0 t : Vec Ideal S5000x40 .f32) (ix2 p k)
      = (V c main_v54 : S100000x40.Idx → EReal) (ix2 r k) := by
  obtain ⟨e0, e1, -⟩ := idx_pts t
  unfold iblk2
  rw [View.read_apply]
  show V c main_v54 _ = V c main_v54 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 40 + 1 * k.val = k.val; rw [e1]; omega

/-- Entry (p, k) of the second operand's block at point t is entry (5000 t + p, k) of its array. -/
theorem blk1_apply (c : Dev nD) (t : Fin cfg2.N) (p : Fin 5000) (k : Fin 40) (r : Fin 100000)
    (hr : r.val = t.val * 5000 + p.val) :
    (iblk2 (F := Ideal) V c 1 t : Vec Ideal S5000x40 .f32) (ix2 p k)
      = (V c main_v41_1 : S100000x40.Idx → EReal) (ix2 r k) := by
  obtain ⟨-, -, e0, e1, -⟩ := idx_pts t
  unfold iblk2
  rw [View.read_apply]
  show V c main_v41_1 _ = V c main_v41_1 _
  congr 1
  funext a
  apply Fin.ext
  match a with
  | ⟨0, _⟩ => show win2_1.index t (0 : Fin 2) * 5000 + 1 * p.val = r.val; rw [e0, hr]; omega
  | ⟨1, _⟩ => show win2_1.index t (1 : Fin 2) * 40 + 1 * k.val = k.val; rw [e1]; omega

/-- The bias row's block at every point is the bias row. -/
theorem blk2_apply (c : Dev nD) (t : Fin cfg2.N) (k : Fin 40) :
    (iblk2 (F := Ideal) V c 2 t : Vec Ideal S1x40 .f32) (ix2 (0 : Fin 1) k)
      = (V c main_v55 : S1x40.Idx → EReal) (ix2 (0 : Fin 1) k) := by
  obtain ⟨-, -, -, -, e0, e1, -⟩ := idx_pts t
  unfold iblk2
  rw [View.read_apply]
  show V c main_v55 _ = V c main_v55 _
  congr 1
  funext a
  apply Fin.ext
  match a with
  | ⟨0, _⟩ => show win2_2.index t (0 : Fin 2) * 1 + 1 * 0 = 0; rw [e0]
  | ⟨1, _⟩ => show win2_2.index t (1 : Fin 2) * 40 + 1 * k.val = k.val; rw [e1]; omega

/-- What point t writes back is block t of the specification's array. -/
theorem flushed3 (c : Dev nD) (t : Fin cfg2.N) :
    (dat2 (F := Ideal) V c).flushed 3 t
      = ((cfg2.win 3).blk t).view.read (Elt Ideal)
          (Cert.Spec.reg2 (F := Ideal) (V c main_v54) (V c main_v41_1) (V c main_v55)) := by
  show (cfg2.win 3).cut (grid2.coords t) ((dat2 (F := Ideal) V c).after 3 t) = _
  rw [after2_3]
  unfold out2_3
  rw [View.canon_unit_zero hz]
  simp only [View.ld_unit_zero (S := S5000x40) hz, View.ld_unit_zero (S := S1x40) hz]
  funext j
  obtain ⟨p, q, rfl⟩ : ∃ (p : Fin 5000) (q : Fin 40), j = ix2 p q := ⟨j 0, j 1, eq_ix2 j⟩
  have hN : cfg2.N = 20 := N_2
  have ht : t.val < 20 := by have := t.isLt; omega
  obtain ⟨-, -, -, -, -, -, e6, e7⟩ := idx_pts t
  have hrow : t.val * 5000 + p.val < 100000 := by have := p.isLt; omega
  have hemb : ((cfg2.win 3).blk t).view.emb (ix2 p q) = ix2 (⟨t.val * 5000 + p.val, hrow⟩ : Fin 100000) q := by
    funext a
    apply Fin.ext
    match a with
    | ⟨0, _⟩ => show win2_3.index t (0 : Fin 2) * 5000 + 1 * p.val = t.val * 5000 + p.val; rw [e6]; omega
    | ⟨1, _⟩ => show win2_3.index t (1 : Fin 2) * 40 + 1 * q.val = q.val; rw [e7]; omega
  show k2_pay1 (F := Ideal) (iblk2 V c 0 t) (iblk2 V c 1 t) (iblk2 V c 2 t) (ix2 p q)
    = Cert.Spec.reg2 (F := Ideal) (V c main_v54) (V c main_v41_1) (V c main_v55) (((cfg2.win 3).blk t).view.emb (ix2 p q))
  rw [hemb]
  refine (pay_apply _ _ _ p q).trans ((spec_apply _ _ _ _ q).trans ?_).symm
  refine congrArg (fun z => rowLsm z q) (funext fun k => ?_)
  exact congrArg₂ (fun x y : EReal => x + y)
    (congrArg₂ (fun x y : EReal => x + y)
      (blk0_apply V c t p k ⟨t.val * 5000 + p.val, hrow⟩ rfl).symm
      (blk1_apply V c t p k ⟨t.val * 5000 + p.val, hrow⟩ rfl).symm)
    (blk2_apply V c t k).symm

/-- An index of the array is in point t's block iff each coordinate is in the block's range on its axis. -/
theorem mem_blk3 (t : Fin cfg2.N) (i : S100000x40.Idx) :
    i ∈ ((cfg2.win 3).blk t).view.set ↔ ∀ a : Fin 2, win2_3.index t a * S5000x40.size a ≤ (i a).val
      ∧ (i a).val < win2_3.index t a * S5000x40.size a + S5000x40.size a := by
  show i ∈ ((View.whole main_v56).slice (win2_3.rect t)).set ↔ _
  rw [View.set_slice_whole, Rect.mem_set_unit]
  exact Iff.rfl

/-- Every index of the array is in the block of the point its row falls in: row r is in block r / 5000. -/
theorem cover3 (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  have hN : cfg2.N = 20 := N_2
  have hlt : (i 0).val / 5000 < cfg2.N := by rw [hN]; omega
  obtain ⟨-, -, -, -, -, -, e6, e7⟩ := idx_pts ⟨(i 0).val / 5000, hlt⟩
  refine ⟨⟨(i 0).val / 5000, hlt⟩, flush2_3 _, ?_⟩
  rw [mem_blk3]
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win2_3.index ⟨(i 0).val / 5000, hlt⟩ (1 : Fin 2) * 40 ≤ (i 1).val
      ∧ (i 1).val < win2_3.index ⟨(i 0).val / 5000, hlt⟩ (1 : Fin 2) * 40 + 40
    rw [e7]
    omega

theorem arr3 (c : Dev nD) :
    (dat2 (F := Ideal) V c).arrAt 3 cfg2.N
      = Cert.Spec.reg2 (F := Ideal) (V c main_v54) (V c main_v41_1) (V c main_v55) :=
  (dat2 (F := Ideal) V c).arrAt_eq_of_cover 3 _ (fun t _ => flushed3 V c t) (fun i => cover3 i)

end Cert.KernelIdeal.Reg2

end
-- ==== Proof.KHostL1.lean ====
/-
  What the host stretches between the first and the second kernel leave in the buffers the second kernel and
  the later stretches read, as functions of the contents the stretches start from.
-/
import proofs.«429878_j43843026157849_3_alg».proof.Proof.Gen.KernelIdeal.Frame
import proofs.«429878_j43843026157849_3_alg».proof.Proof.KOut
import Idealize.ShloMosaic.Lib.StableHlo.Run

set_option maxRecDepth 16384

noncomputable section

namespace Cert.KernelIdeal.Gen

open Idealize.ShloMosaic Idealize.ShloMosaic.TcCoe Idealize.SL.Sem
open Cert.KernelIdeal.Val

variable {F : FTy → Type} [FloatOps F]
variable (Wv : Valuation τ sig (Elt F))

/-! ## The gather stretch, cut before its last four operations -/

section Take
variable (W : Valuation τ sig (Elt F))

theorem ops1_cut : (hostOps1 : List (HloOp τ sig (Elt F))) = hostOps1.take 19 ++ hostOps1.drop 19 :=
  (List.take_append_drop 19 _).symm

attribute [local irreducible] Host.reduce Host.gather Host.scatterAdd in
/-- After the first nineteen operations: the in-range flags of the edges' source indices. -/
theorem take19_v12 : StableHlo.after (hostOps1.take 19) W (Proc.devRef .tc main_call0_v12)
    = inRange (W (Proc.devRef .tc main_v1)) := by
  simp only [hostOps1, List.take_succ_cons, List.take_zero]
  after_results_simp; rfl

attribute [local irreducible] Host.reduce Host.gather Host.scatterAdd in
/-- After the first nineteen operations: the gathered rows. -/
theorem take19_v13 : StableHlo.after (hostOps1.take 19) W (Proc.devRef .tc main_call0_v13)
    = Host.gather gather_S100000x32_S3200000x1_S3200000x32_1_0_n_n_0_1_132 (W (Proc.devRef .tc main_v14_0))
        (idxCol (W (Proc.devRef .tc main_v1))) := by
  simp only [hostOps1, List.take_succ_cons, List.take_zero]
  after_results_simp; rfl

attribute [local irreducible] Host.reduce Host.gather Host.scatterAdd in
/-- The last four operations: the fill where the flag is off. -/
theorem drop19_v15 : StableHlo.after (hostOps1.drop 19) W (Proc.devRef .tc main_v15)
    = select (broadcastInDim S3200000x32 ![0] bcast_S3200000_S3200000x32_0 (W (Proc.devRef .tc main_call0_v12)))
        (W (Proc.devRef .tc main_call0_v13))
        (broadcastInDim S3200000x32 ![] bcast_S_S3200000x32 (constant S_ .f32 0x7FC00000#32)) := by
  simp only [hostOps1, List.drop_succ_cons, List.drop_zero]
  after_results_simp; rfl

end Take

attribute [local irreducible] Host.reduce Host.gather Host.scatterAdd in
/-- The gathered [X0 | X1] rows of layer 1 (jnp.take with fill). -/
theorem h1_v15 : StableHlo.after hostOps1 Wv (Proc.devRef .tc main_v15)
    = take32 (Wv (Proc.devRef .tc main_v14_0)) (Wv (Proc.devRef .tc main_v1)) := by
  rw [ops1_cut, StableHlo.after_append, drop19_v15, take19_v12, take19_v13]
  rfl

attribute [local irreducible] Host.reduce Host.gather Host.scatterAdd in
/-- Layer 1's neighbour mean. -/
theorem h11_v34 : StableHlo.after hostOps1_1 Wv (Proc.devRef .tc main_v34)
    = mean16 (Wv (Proc.devRef .tc main_v15)) (Wv (Proc.devRef .tc main_v7)) (Wv (Proc.devRef .tc main_v8))
        (Wv (Proc.devRef .tc main_v3)) (cntCol (Wv (Proc.devRef .tc main_v3))) := by
  after_results_simp; rfl

attribute [local irreducible] Host.reduce Host.gather Host.scatterAdd in
/-- The in-degree column. -/
theorem h11_v32 : StableHlo.after hostOps1_1 Wv (Proc.devRef .tc main_v32) = cntCol (Wv (Proc.devRef .tc main_v3)) := by
  after_results_simp; rfl

attribute [local irreducible] Host.reduce Host.gather Host.scatterAdd in
/-- Layer 1's bias as a row. -/
theorem h11_v35 : StableHlo.after hostOps1_1 Wv (Proc.devRef .tc main_v35) = bias1row (Wv (Proc.devRef .tc main_arg5)) := by
  after_results_simp; rfl

attribute [local irreducible] Host.reduce Host.gather Host.scatterAdd in
/-- Layer 2's [W[0] | W[1]]. -/
theorem h11_v40 : StableHlo.after hostOps1_1 Wv (Proc.devRef .tc main_v40) = wcat2 (Wv (Proc.devRef .tc main_arg6)) := by
  after_results_simp; rfl

end Cert.KernelIdeal.Gen

end
-- ==== Proof.KHostL2.lean ====
/-
  What the host stretches between the second and the third kernel leave in the buffers the third kernel reads,
  as functions of the contents the stretches start from.
-/
import proofs.«429878_j43843026157849_3_alg».proof.Proof.Gen.KernelIdeal.Frame
import proofs.«429878_j43843026157849_3_alg».proof.Proof.KOut
import Idealize.ShloMosaic.Lib.StableHlo.Run

set_option maxRecDepth 16384

noncomputable section

namespace Cert.KernelIdeal.Gen

open Idealize.ShloMosaic Idealize.ShloMosaic.TcCoe Idealize.SL.Sem
open Cert.KernelIdeal.Val

variable {F : FTy → Type} [FloatOps F]
variable (Wv : Valuation τ sig (Elt F))

/-- The stretch up to the gathered rows: the wrapped index column, the range test, the gather. -/
abbrev takeHead : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S3200000, .i32⟩) (broadcastInDim S3200000 ![] bcast_S_S3200000),
    StableHlo.TRef.binary (.of main_v1 : StableHlo.TRef sig ⟨S3200000, .i32⟩) (.of main_call1_v0 : StableHlo.TRef sig ⟨S3200000, .i32⟩) (.of main_call1_v1 : StableHlo.TRef sig ⟨S3200000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S3200000, .i32⟩) (broadcastInDim S3200000 ![] bcast_S_S3200000),
    StableHlo.TRef.binary (.of main_v1 : StableHlo.TRef sig ⟨S3200000, .i32⟩) (.of main_call1_v2 : StableHlo.TRef sig ⟨S3200000, .i32⟩) (.of main_call1_v3 : StableHlo.TRef sig ⟨S3200000, .i32⟩) addi,
    StableHlo.TRef.ternary (.of main_call1_v1 : StableHlo.TRef sig ⟨S3200000, .i1⟩) (.of main_call1_v3 : StableHlo.TRef sig ⟨S3200000, .i32⟩) (.of main_v1 : StableHlo.TRef sig ⟨S3200000, .i32⟩) (.of main_call1_v4 : StableHlo.TRef sig ⟨S3200000, .i32⟩) select,
    StableHlo.TRef.unary main_call1_call0.v0 (.of main_call1_v5 : StableHlo.TRef sig ⟨S3200000x1, .i32⟩) (broadcastInDim S3200000x1 ![0] bcast_S3200000_S3200000x1_0),
    StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S3200000x1, .i32⟩) (broadcastInDim S3200000x1 ![] bcast_S_S3200000x1),
    StableHlo.TRef.binary (.of main_call1_v5 : StableHlo.TRef sig ⟨S3200000x1, .i32⟩) (.of main_call1_v6 : StableHlo.TRef sig ⟨S3200000x1, .i32⟩) (.of main_call1_v7 : StableHlo.TRef sig ⟨S3200000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S3200000x1, .i32⟩) (broadcastInDim S3200000x1 ![0, 1] bcast_S1x1_S3200000x1_0_1),
    StableHlo.TRef.binary (.of main_call1_v5 : StableHlo.TRef sig ⟨S3200000x1, .i32⟩) (.of main_call1_v9 : StableHlo.TRef sig ⟨S3200000x1, .i32⟩) (.of main_call1_v10 : StableHlo.TRef sig ⟨S3200000x1, .i1⟩) (cmpi .sle),
    StableHlo.TRef.binary (.of main_call1_v7 : StableHlo.TRef sig ⟨S3200000x1, .i1⟩) (.of main_call1_v10 : StableHlo.TRef sig ⟨S3200000x1, .i1⟩) (.of main_call1_v11 : StableHlo.TRef sig ⟨S3200000x1, .i1⟩) andi,
    StableHlo.TRef.nullary (.of main_call1_c_3 : StableHlo.TRef sig ⟨S_, .i1⟩) (constantI S_ 1 1#1),
    StableHlo.TRef.binary (.of main_call1_v11 : StableHlo.TRef sig ⟨S3200000x1, .i1⟩) (.of main_call1_c_3 : StableHlo.TRef sig ⟨S_, .i1⟩) (.of main_call1_v12 : StableHlo.TRef sig ⟨S3200000, .i1⟩) (fun x v => Host.reduce IntOp.andi x v reducesTo_S3200000x1_S3200000_d1 h_S_),
    StableHlo.TRef.binary (.of main_v41_0 : StableHlo.TRef sig ⟨S100000x80, .f32⟩) (.of main_call1_v5 : StableHlo.TRef sig ⟨S3200000x1, .i32⟩) (.of main_call1_v13 : StableHlo.TRef sig ⟨S3200000x80, .f32⟩) (fun x i => Host.gather gather_S100000x80_S3200000x1_S3200000x80_1_0_n_n_0_1_180 x i) ]

/-- The stretch's last four operations: the range test laid over the columns, the fill, the choice. -/
abbrev takeTail : List (HloOp τ sig (Elt F)) :=
  [ StableHlo.TRef.unary (.of main_call1_v12 : StableHlo.TRef sig ⟨S3200000, .i1⟩) (.of main_call1_v14 : StableHlo.TRef sig ⟨S3200000x80, .i1⟩) (broadcastInDim S3200000x80 ![0] bcast_S3200000_S3200000x80_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S3200000x80, .f32⟩) (broadcastInDim S3200000x80 ![] bcast_S_S3200000x80),
    StableHlo.TRef.ternary (.of main_call1_v14 : StableHlo.TRef sig ⟨S3200000x80, .i1⟩) (.of main_call1_v13 : StableHlo.TRef sig ⟨S3200000x80, .f32⟩) (.of main_call1_v15 : StableHlo.TRef sig ⟨S3200000x80, .f32⟩) (.of main_v42 : StableHlo.TRef sig ⟨S3200000x80, .f32⟩) select ]

attribute [local irreducible] Host.reduce Host.gather in
/-- After the head: is each edge's index inside the table? -/
theorem takeHead_v12 : StableHlo.after takeHead Wv (Proc.devRef .tc main_call1_v12)
    = inRange (Wv (Proc.devRef .tc main_v1)) := by
  after_results_simp
  rfl

attribute [local irreducible] Host.reduce Host.gather in
/-- After the head: the table's rows at the wrapped indices. -/
theorem takeHead_v13 : StableHlo.after takeHead Wv (Proc.devRef .tc main_call1_v13)
    = Host.gather gather_S100000x80_S3200000x1_S3200000x80_1_0_n_n_0_1_180 (Wv (Proc.devRef .tc main_v41_0))
        (idxCol (Wv (Proc.devRef .tc main_v1))) := by
  after_results_simp
  rfl

/-- The tail from any contents: the gathered rows where the range test holds, the fill elsewhere. -/
theorem takeTail_v42 (W' : Valuation τ sig (Elt F)) : StableHlo.after takeTail W' (Proc.devRef .tc main_v42)
    = select (broadcastInDim S3200000x80 ![0] bcast_S3200000_S3200000x80_0 (W' (Proc.devRef .tc main_call1_v12)))
        (W' (Proc.devRef .tc main_call1_v13))
        (broadcastInDim S3200000x80 ![] bcast_S_S3200000x80 (constant S_ .f32 0x7FC00000#32)) := by
  after_results_simp
  rfl

/-- The gathered [X0 | X1] rows of layer 2 (jnp.take with fill). -/
theorem h2_v42 : StableHlo.after hostOps2 Wv (Proc.devRef .tc main_v42)
    = take80 (Wv (Proc.devRef .tc main_v41_0)) (Wv (Proc.devRef .tc main_v1)) := by
  show StableHlo.after (takeHead ++ takeTail) Wv _ = _
  rw [StableHlo.after_append, takeTail_v42, takeHead_v12, takeHead_v13]
  rfl

attribute [local irreducible] Host.scatterAdd Host.divf in
/-- Layer 2's neighbour mean (the in-degree column is the one layer 1 made). -/
theorem h21_v54 : StableHlo.after hostOps2_1 Wv (Proc.devRef .tc main_v54)
    = mean40 (Wv (Proc.devRef .tc main_v42)) (Wv (Proc.devRef .tc main_v7)) (Wv (Proc.devRef .tc main_v8))
        (Wv (Proc.devRef .tc main_v3)) (Wv (Proc.devRef .tc main_v32)) := by
  after_results_simp
  rfl

/-- Layer 2's bias as a row. -/
theorem h21_v55 : StableHlo.after hostOps2_1 Wv (Proc.devRef .tc main_v55) = bias2row (Wv (Proc.devRef .tc main_arg8)) := by
  after_results
  rfl

end Cert.KernelIdeal.Gen

end
-- ==== Proof.KHost.lean ====
/-
  The kernel program's result buffer at the run's last boundary is the value function of the launch
  contents of its nine arguments: the boundary contents are read back stretch by stretch and region by region.
-/
import proofs.«429878_j43843026157849_3_alg».proof.Proof.Gen.KernelIdeal.Frame
import proofs.«429878_j43843026157849_3_alg».proof.Proof.KOut
import proofs.«429878_j43843026157849_3_alg».proof.Proof.Reg0
import proofs.«429878_j43843026157849_3_alg».proof.Proof.Reg1
import proofs.«429878_j43843026157849_3_alg».proof.Proof.Reg2
import proofs.«429878_j43843026157849_3_alg».proof.Proof.KHostL1
import proofs.«429878_j43843026157849_3_alg».proof.Proof.KHostL2
import Idealize.ShloMosaic.Lib.StableHlo.Run

set_option maxRecDepth 16384

noncomputable section

namespace Cert.KernelIdeal.Gen

open Idealize.ShloMosaic Idealize.ShloMosaic.TcCoe Idealize.SL.Sem
open Idealize.ShloMosaic.Pipeline (Dat Cfg Window)
open Cert.KernelIdeal.Val

/-- A buffer that none of a stretch's operations writes holds after the stretch what it held before:
    the stretch's written buffers are listed and each is told apart from the given one. -/
macro "khost_not_written" : tactic => `(tactic| (
  refine StableHlo.after_of_forall_not_mem _ _ (List.forall_iff_forall_mem.mp ?_)
  simp only [hostOps0, hostOps1, hostOps1_1, hostOps2, hostOps2_1, List.Forall, StableHlo.nullary_writes,
    StableHlo.unary_writes, StableHlo.binary_writes, StableHlo.ternary_writes, StableHlo.reshape_writes,
    Finset.mem_singleton]
  repeat' apply And.intro
  all_goals exact StableHlo.devRef_ne_of_ne (by decide)))

/-! ## The stretches, from any contents `Wv` -/

section Stretches

variable {F : FTy → Type} [FloatOps F]
variable (Wv : Valuation τ sig (Elt F))

/-! ### The first stretch: the edge list's two rows, the two blend columns, layer 1's weight table -/

/-- Layer 1's [W[0] | W[1]]. -/
theorem h0_v13 : StableHlo.after hostOps0 Wv (Proc.devRef .tc main_v13) = wcat1 (Wv (Proc.devRef .tc main_arg3)) := by
  after_results
  rfl
/-- The source row of the edge list. -/
theorem h0_v1 : StableHlo.after hostOps0 Wv (Proc.devRef .tc main_v1) = srcOf (Wv (Proc.devRef .tc main_arg1)) := by
  after_results
  rfl
/-- The destination row of the edge list. -/
theorem h0_v3 : StableHlo.after hostOps0 Wv (Proc.devRef .tc main_v3) = dstOf (Wv (Proc.devRef .tc main_arg1)) := by
  after_results
  rfl
/-- The column 1 − u. -/
theorem h0_v7 : StableHlo.after hostOps0 Wv (Proc.devRef .tc main_v7) = b0c (Wv (Proc.devRef .tc main_arg2)) := by
  after_results
  rfl
/-- The column u. -/
theorem h0_v8 : StableHlo.after hostOps0 Wv (Proc.devRef .tc main_v8) = b1c (Wv (Proc.devRef .tc main_arg2)) := by
  after_results
  rfl

/-! ### What each stretch leaves alone, of the buffers read later -/

theorem p0_arg0 : StableHlo.after hostOps0 Wv (Proc.devRef .tc main_arg0) = Wv (Proc.devRef .tc main_arg0) := by khost_not_written
theorem p0_arg4 : StableHlo.after hostOps0 Wv (Proc.devRef .tc main_arg4) = Wv (Proc.devRef .tc main_arg4) := by khost_not_written
theorem p0_arg5 : StableHlo.after hostOps0 Wv (Proc.devRef .tc main_arg5) = Wv (Proc.devRef .tc main_arg5) := by khost_not_written
theorem p0_arg6 : StableHlo.after hostOps0 Wv (Proc.devRef .tc main_arg6) = Wv (Proc.devRef .tc main_arg6) := by khost_not_written
theorem p0_arg7 : StableHlo.after hostOps0 Wv (Proc.devRef .tc main_arg7) = Wv (Proc.devRef .tc main_arg7) := by khost_not_written
theorem p0_arg8 : StableHlo.after hostOps0 Wv (Proc.devRef .tc main_arg8) = Wv (Proc.devRef .tc main_arg8) := by khost_not_written
theorem p1_v14_1 : StableHlo.after hostOps1 Wv (Proc.devRef .tc main_v14_1) = Wv (Proc.devRef .tc main_v14_1) := by khost_not_written
theorem p1_v1 : StableHlo.after hostOps1 Wv (Proc.devRef .tc main_v1) = Wv (Proc.devRef .tc main_v1) := by khost_not_written
theorem p1_v3 : StableHlo.after hostOps1 Wv (Proc.devRef .tc main_v3) = Wv (Proc.devRef .tc main_v3) := by khost_not_written
theorem p1_v7 : StableHlo.after hostOps1 Wv (Proc.devRef .tc main_v7) = Wv (Proc.devRef .tc main_v7) := by khost_not_written
theorem p1_v8 : StableHlo.after hostOps1 Wv (Proc.devRef .tc main_v8) = Wv (Proc.devRef .tc main_v8) := by khost_not_written
theorem p1_arg5 : StableHlo.after hostOps1 Wv (Proc.devRef .tc main_arg5) = Wv (Proc.devRef .tc main_arg5) := by khost_not_written
theorem p1_arg6 : StableHlo.after hostOps1 Wv (Proc.devRef .tc main_arg6) = Wv (Proc.devRef .tc main_arg6) := by khost_not_written
theorem p1_arg7 : StableHlo.after hostOps1 Wv (Proc.devRef .tc main_arg7) = Wv (Proc.devRef .tc main_arg7) := by khost_not_written
theorem p1_arg8 : StableHlo.after hostOps1 Wv (Proc.devRef .tc main_arg8) = Wv (Proc.devRef .tc main_arg8) := by khost_not_written
theorem p11_v14_1 : StableHlo.after hostOps1_1 Wv (Proc.devRef .tc main_v14_1) = Wv (Proc.devRef .tc main_v14_1) := by khost_not_written
theorem p11_v1 : StableHlo.after hostOps1_1 Wv (Proc.devRef .tc main_v1) = Wv (Proc.devRef .tc main_v1) := by khost_not_written
theorem p11_v3 : StableHlo.after hostOps1_1 Wv (Proc.devRef .tc main_v3) = Wv (Proc.devRef .tc main_v3) := by khost_not_written
theorem p11_v7 : StableHlo.after hostOps1_1 Wv (Proc.devRef .tc main_v7) = Wv (Proc.devRef .tc main_v7) := by khost_not_written
theorem p11_v8 : StableHlo.after hostOps1_1 Wv (Proc.devRef .tc main_v8) = Wv (Proc.devRef .tc main_v8) := by khost_not_written
theorem p11_arg7 : StableHlo.after hostOps1_1 Wv (Proc.devRef .tc main_arg7) = Wv (Proc.devRef .tc main_arg7) := by khost_not_written
theorem p11_arg8 : StableHlo.after hostOps1_1 Wv (Proc.devRef .tc main_arg8) = Wv (Proc.devRef .tc main_arg8) := by khost_not_written
theorem p2_v3 : StableHlo.after hostOps2 Wv (Proc.devRef .tc main_v3) = Wv (Proc.devRef .tc main_v3) := by khost_not_written
theorem p2_v7 : StableHlo.after hostOps2 Wv (Proc.devRef .tc main_v7) = Wv (Proc.devRef .tc main_v7) := by khost_not_written
theorem p2_v8 : StableHlo.after hostOps2 Wv (Proc.devRef .tc main_v8) = Wv (Proc.devRef .tc main_v8) := by khost_not_written
theorem p2_v32 : StableHlo.after hostOps2 Wv (Proc.devRef .tc main_v32) = Wv (Proc.devRef .tc main_v32) := by khost_not_written
theorem p2_v41_1 : StableHlo.after hostOps2 Wv (Proc.devRef .tc main_v41_1) = Wv (Proc.devRef .tc main_v41_1) := by khost_not_written
theorem p2_arg8 : StableHlo.after hostOps2 Wv (Proc.devRef .tc main_arg8) = Wv (Proc.devRef .tc main_arg8) := by khost_not_written
theorem p21_v41_1 : StableHlo.after hostOps2_1 Wv (Proc.devRef .tc main_v41_1) = Wv (Proc.devRef .tc main_v41_1) := by khost_not_written

end Stretches

/-! ## The boundaries of the run, buffer by buffer -/

section Boundaries

variable (m : (ℓ : Loc nD τ sig) → Buf (Elt Ideal) ℓ) (ρ : Dev nD → PrngReg) (c : Dev nD)

/-! ### At launch: the memory itself -/

theorem W0_arg0 : W0 m ρ c (Proc.devRef .tc main_arg0) = m ((c : Thread nD τ).loc main_arg0) := rfl
theorem W0_arg1 : W0 m ρ c (Proc.devRef .tc main_arg1) = m ((c : Thread nD τ).loc main_arg1) := rfl
theorem W0_arg2 : W0 m ρ c (Proc.devRef .tc main_arg2) = m ((c : Thread nD τ).loc main_arg2) := rfl
theorem W0_arg3 : W0 m ρ c (Proc.devRef .tc main_arg3) = m ((c : Thread nD τ).loc main_arg3) := rfl
theorem W0_arg4 : W0 m ρ c (Proc.devRef .tc main_arg4) = m ((c : Thread nD τ).loc main_arg4) := rfl
theorem W0_arg5 : W0 m ρ c (Proc.devRef .tc main_arg5) = m ((c : Thread nD τ).loc main_arg5) := rfl
theorem W0_arg6 : W0 m ρ c (Proc.devRef .tc main_arg6) = m ((c : Thread nD τ).loc main_arg6) := rfl
theorem W0_arg7 : W0 m ρ c (Proc.devRef .tc main_arg7) = m ((c : Thread nD τ).loc main_arg7) := rfl
theorem W0_arg8 : W0 m ρ c (Proc.devRef .tc main_arg8) = m ((c : Thread nD τ).loc main_arg8) := rfl

/-! ### After the first stretch (the first kernel's entry) -/

theorem W1_v13 : W1 m ρ c (Proc.devRef .tc main_v13) = wcat1 (F := Ideal) (W0 m ρ c (Proc.devRef .tc main_arg3)) := h0_v13 _
theorem W1_v1 : W1 m ρ c (Proc.devRef .tc main_v1) = srcOf (W0 m ρ c (Proc.devRef .tc main_arg1)) := h0_v1 _
theorem W1_v3 : W1 m ρ c (Proc.devRef .tc main_v3) = dstOf (W0 m ρ c (Proc.devRef .tc main_arg1)) := h0_v3 _
theorem W1_v7 : W1 m ρ c (Proc.devRef .tc main_v7) = b0c (F := Ideal) (W0 m ρ c (Proc.devRef .tc main_arg2)) := h0_v7 _
theorem W1_v8 : W1 m ρ c (Proc.devRef .tc main_v8) = b1c (F := Ideal) (W0 m ρ c (Proc.devRef .tc main_arg2)) := h0_v8 _
theorem W1_arg0 : W1 m ρ c (Proc.devRef .tc main_arg0) = W0 m ρ c (Proc.devRef .tc main_arg0) := p0_arg0 _
theorem W1_arg4 : W1 m ρ c (Proc.devRef .tc main_arg4) = W0 m ρ c (Proc.devRef .tc main_arg4) := p0_arg4 _
theorem W1_arg5 : W1 m ρ c (Proc.devRef .tc main_arg5) = W0 m ρ c (Proc.devRef .tc main_arg5) := p0_arg5 _
theorem W1_arg6 : W1 m ρ c (Proc.devRef .tc main_arg6) = W0 m ρ c (Proc.devRef .tc main_arg6) := p0_arg6 _
theorem W1_arg7 : W1 m ρ c (Proc.devRef .tc main_arg7) = W0 m ρ c (Proc.devRef .tc main_arg7) := p0_arg7 _
theorem W1_arg8 : W1 m ρ c (Proc.devRef .tc main_arg8) = W0 m ρ c (Proc.devRef .tc main_arg8) := p0_arg8 _

/-! ### At the first kernel's exit: its two results are the whole-array products, the rest is as entered -/

theorem W2_v14_0 : W2 m ρ c (Proc.devRef .tc main_v14_0) = Cert.Spec.reg0a (F := Ideal) (W1 m ρ c (Proc.devRef .tc main_arg0)) (W1 m ρ c (Proc.devRef .tc main_v13)) :=
  (W2_arr m ρ c 3).trans (Cert.KernelIdeal.Reg0.arr3 (V1 m ρ) c)
theorem W2_v14_1 : W2 m ρ c (Proc.devRef .tc main_v14_1) = Cert.Spec.reg0b (F := Ideal) (W1 m ρ c (Proc.devRef .tc main_arg0)) (W1 m ρ c (Proc.devRef .tc main_arg4)) :=
  (W2_arr m ρ c 4).trans (Cert.KernelIdeal.Reg0.arr4 (V1 m ρ) c)
theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_v7 : W2 m ρ c (Proc.devRef .tc main_v7) = W1 m ρ c (Proc.devRef .tc main_v7) := W2_of_ne m ρ c main_v7 (by decide)
theorem W2_v8 : W2 m ρ c (Proc.devRef .tc main_v8) = W1 m ρ c (Proc.devRef .tc main_v8) := W2_of_ne m ρ c main_v8 (by decide)
theorem W2_arg5 : W2 m ρ c (Proc.devRef .tc main_arg5) = W1 m ρ c (Proc.devRef .tc main_arg5) := W2_of_ne m ρ c main_arg5 (by decide)
theorem W2_arg6 : W2 m ρ c (Proc.devRef .tc main_arg6) = W1 m ρ c (Proc.devRef .tc main_arg6) := W2_of_ne m ρ c main_arg6 (by decide)
theorem W2_arg7 : W2 m ρ c (Proc.devRef .tc main_arg7) = W1 m ρ c (Proc.devRef .tc main_arg7) := W2_of_ne m ρ c main_arg7 (by decide)
theorem W2_arg8 : W2 m ρ c (Proc.devRef .tc main_arg8) = W1 m ρ c (Proc.devRef .tc main_arg8) := W2_of_ne m ρ c main_arg8 (by decide)

/-! ### After the gather of layer 1 -/

theorem W3_v15 : W3 m ρ c (Proc.devRef .tc main_v15) = take32 (F := Ideal) (W2 m ρ c (Proc.devRef .tc main_v14_0)) (W2 m ρ c (Proc.devRef .tc main_v1)) := h1_v15 _
theorem W3_v14_1 : W3 m ρ c (Proc.devRef .tc main_v14_1) = W2 m ρ c (Proc.devRef .tc main_v14_1) := p1_v14_1 _
theorem W3_v1 : W3 m ρ c (Proc.devRef .tc main_v1) = W2 m ρ c (Proc.devRef .tc main_v1) := p1_v1 _
theorem W3_v3 : W3 m ρ c (Proc.devRef .tc main_v3) = W2 m ρ c (Proc.devRef .tc main_v3) := p1_v3 _
theorem W3_v7 : W3 m ρ c (Proc.devRef .tc main_v7) = W2 m ρ c (Proc.devRef .tc main_v7) := p1_v7 _
theorem W3_v8 : W3 m ρ c (Proc.devRef .tc main_v8) = W2 m ρ c (Proc.devRef .tc main_v8) := p1_v8 _
theorem W3_arg5 : W3 m ρ c (Proc.devRef .tc main_arg5) = W2 m ρ c (Proc.devRef .tc main_arg5) := p1_arg5 _
theorem W3_arg6 : W3 m ρ c (Proc.devRef .tc main_arg6) = W2 m ρ c (Proc.devRef .tc main_arg6) := p1_arg6 _
theorem W3_arg7 : W3 m ρ c (Proc.devRef .tc main_arg7) = W2 m ρ c (Proc.devRef .tc main_arg7) := p1_arg7 _
theorem W3_arg8 : W3 m ρ c (Proc.devRef .tc main_arg8) = W2 m ρ c (Proc.devRef .tc main_arg8) := p1_arg8 _

/-! ### After layer 1's mean (the second kernel's entry) -/

theorem W4_v34 : W4 m ρ c (Proc.devRef .tc main_v34) = mean16 (F := Ideal) (W3 m ρ c (Proc.devRef .tc main_v15)) (W3 m ρ c (Proc.devRef .tc main_v7)) (W3 m ρ c (Proc.devRef .tc main_v8)) (W3 m ρ c (Proc.devRef .tc main_v3)) (cntCol (F := Ideal) (W3 m ρ c (Proc.devRef .tc main_v3))) := h11_v34 _
theorem W4_v32 : W4 m ρ c (Proc.devRef .tc main_v32) = cntCol (F := Ideal) (W3 m ρ c (Proc.devRef .tc main_v3)) := h11_v32 _
theorem W4_v35 : W4 m ρ c (Proc.devRef .tc main_v35) = bias1row (F := Ideal) (W3 m ρ c (Proc.devRef .tc main_arg5)) := h11_v35 _
theorem W4_v40 : W4 m ρ c (Proc.devRef .tc main_v40) = wcat2 (F := Ideal) (W3 m ρ c (Proc.devRef .tc main_arg6)) := h11_v40 _
theorem W4_v14_1 : W4 m ρ c (Proc.devRef .tc main_v14_1) = W3 m ρ c (Proc.devRef .tc main_v14_1) := p11_v14_1 _
theorem W4_v1 : W4 m ρ c (Proc.devRef .tc main_v1) = W3 m ρ c (Proc.devRef .tc main_v1) := p11_v1 _
theorem W4_v3 : W4 m ρ c (Proc.devRef .tc main_v3) = W3 m ρ c (Proc.devRef .tc main_v3) := p11_v3 _
theorem W4_v7 : W4 m ρ c (Proc.devRef .tc main_v7) = W3 m ρ c (Proc.devRef .tc main_v7) := p11_v7 _
theorem W4_v8 : W4 m ρ c (Proc.devRef .tc main_v8) = W3 m ρ c (Proc.devRef .tc main_v8) := p11_v8 _
theorem W4_arg7 : W4 m ρ c (Proc.devRef .tc main_arg7) = W3 m ρ c (Proc.devRef .tc main_arg7) := p11_arg7 _
theorem W4_arg8 : W4 m ρ c (Proc.devRef .tc main_arg8) = W3 m ρ c (Proc.devRef .tc main_arg8) := p11_arg8 _

/-! ### At the second kernel's exit -/

theorem W5_v41_0 : W5 m ρ c (Proc.devRef .tc main_v41_0) = Cert.Spec.reg1a (F := Ideal) (W4 m ρ c (Proc.devRef .tc main_v34)) (W4 m ρ c (Proc.devRef .tc main_v14_1)) (W4 m ρ c (Proc.devRef .tc main_v35)) (W4 m ρ c (Proc.devRef .tc main_v40)) :=
  (W5_arr m ρ c 5).trans (Cert.KernelIdeal.Reg1.arr5 (V4 m ρ) c)
theorem W5_v41_1 : W5 m ρ c (Proc.devRef .tc main_v41_1) = Cert.Spec.reg1b (F := Ideal) (W4 m ρ c (Proc.devRef .tc main_v34)) (W4 m ρ c (Proc.devRef .tc main_v14_1)) (W4 m ρ c (Proc.devRef .tc main_v35)) (W4 m ρ c (Proc.devRef .tc main_arg7)) :=
  (W5_arr m ρ c 6).trans (Cert.KernelIdeal.Reg1.arr6 (V4 m ρ) c)
theorem W5_v1 : W5 m ρ c (Proc.devRef .tc main_v1) = W4 m ρ c (Proc.devRef .tc main_v1) := W5_of_ne m ρ c main_v1 (by decide)
theorem W5_v3 : W5 m ρ c (Proc.devRef .tc main_v3) = W4 m ρ c (Proc.devRef .tc main_v3) := W5_of_ne m ρ c main_v3 (by decide)
theorem W5_v7 : W5 m ρ c (Proc.devRef .tc main_v7) = W4 m ρ c (Proc.devRef .tc main_v7) := W5_of_ne m ρ c main_v7 (by decide)
theorem W5_v8 : W5 m ρ c (Proc.devRef .tc main_v8) = W4 m ρ c (Proc.devRef .tc main_v8) := W5_of_ne m ρ c main_v8 (by decide)
theorem W5_v32 : W5 m ρ c (Proc.devRef .tc main_v32) = W4 m ρ c (Proc.devRef .tc main_v32) := W5_of_ne m ρ c main_v32 (by decide)
theorem W5_arg8 : W5 m ρ c (Proc.devRef .tc main_arg8) = W4 m ρ c (Proc.devRef .tc main_arg8) := W5_of_ne m ρ c main_arg8 (by decide)

/-! ### After the gather of layer 2 -/

theorem W6_v42 : W6 m ρ c (Proc.devRef .tc main_v42) = take80 (F := Ideal) (W5 m ρ c (Proc.devRef .tc main_v41_0)) (W5 m ρ c (Proc.devRef .tc main_v1)) := h2_v42 _
theorem W6_v3 : W6 m ρ c (Proc.devRef .tc main_v3) = W5 m ρ c (Proc.devRef .tc main_v3) := p2_v3 _
theorem W6_v7 : W6 m ρ c (Proc.devRef .tc main_v7) = W5 m ρ c (Proc.devRef .tc main_v7) := p2_v7 _
theorem W6_v8 : W6 m ρ c (Proc.devRef .tc main_v8) = W5 m ρ c (Proc.devRef .tc main_v8) := p2_v8 _
theorem W6_v32 : W6 m ρ c (Proc.devRef .tc main_v32) = W5 m ρ c (Proc.devRef .tc main_v32) := p2_v32 _
theorem W6_v41_1 : W6 m ρ c (Proc.devRef .tc main_v41_1) = W5 m ρ c (Proc.devRef .tc main_v41_1) := p2_v41_1 _
theorem W6_arg8 : W6 m ρ c (Proc.devRef .tc main_arg8) = W5 m ρ c (Proc.devRef .tc main_arg8) := p2_arg8 _

/-! ### After layer 2's mean (the third kernel's entry) -/

theorem W7_v54 : W7 m ρ c (Proc.devRef .tc main_v54) = mean40 (F := Ideal) (W6 m ρ c (Proc.devRef .tc main_v42)) (W6 m ρ c (Proc.devRef .tc main_v7)) (W6 m ρ c (Proc.devRef .tc main_v8)) (W6 m ρ c (Proc.devRef .tc main_v3)) (W6 m ρ c (Proc.devRef .tc main_v32)) := h21_v54 _
theorem W7_v55 : W7 m ρ c (Proc.devRef .tc main_v55) = bias2row (F := Ideal) (W6 m ρ c (Proc.devRef .tc main_arg8)) := h21_v55 _
theorem W7_v41_1 : W7 m ρ c (Proc.devRef .tc main_v41_1) = W6 m ρ c (Proc.devRef .tc main_v41_1) := p21_v41_1 _

/-! ### At the third kernel's exit: the result -/

theorem W8_v56 : W8 m ρ c (Proc.devRef .tc main_v56) = Cert.Spec.reg2 (F := Ideal) (W7 m ρ c (Proc.devRef .tc main_v54)) (W7 m ρ c (Proc.devRef .tc main_v41_1)) (W7 m ρ c (Proc.devRef .tc main_v55)) :=
  (W8_arr m ρ c 3).trans (Cert.KernelIdeal.Reg2.arr3 (V7 m ρ) c)

end Boundaries

variable (m : (ℓ : Loc nD τ sig) → Buf (Elt Ideal) ℓ) (ρ : Dev nD → PrngReg)

/-- The result buffer after the last region, as the value function of the launch memory's argument arrays. -/
theorem W8_out (c : Dev nD) :
    W8 (F := Ideal) m ρ c (Proc.devRef .tc main_v56)
      = Cert.KernelIdeal.Val.out (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  rw [W8_v56 m ρ c,
    W7_v54 m ρ c,
    W7_v41_1 m ρ c,
    W7_v55 m ρ c,
    W6_v42 m ρ c,
    W6_v7 m ρ c,
    W6_v8 m ρ c,
    W6_v3 m ρ c,
    W6_v32 m ρ c,
    W6_v41_1 m ρ c,
    W6_arg8 m ρ c,
    W5_v41_0 m ρ c,
    W5_v41_1 m ρ c,
    W5_v1 m ρ c,
    W5_v7 m ρ c,
    W5_v8 m ρ c,
    W5_v3 m ρ c,
    W5_v32 m ρ c,
    W5_arg8 m ρ c,
    W4_v34 m ρ c,
    W4_v32 m ρ c,
    W4_v35 m ρ c,
    W4_v40 m ρ c,
    W4_v14_1 m ρ c,
    W4_v1 m ρ c,
    W4_v3 m ρ c,
    W4_v7 m ρ c,
    W4_v8 m ρ c,
    W4_arg7 m ρ c,
    W4_arg8 m ρ c,
    W3_v15 m ρ c,
    W3_v14_1 m ρ c,
    W3_v1 m ρ c,
    W3_v3 m ρ c,
    W3_v7 m ρ c,
    W3_v8 m ρ c,
    W3_arg5 m ρ c,
    W3_arg6 m ρ c,
    W3_arg7 m ρ c,
    W3_arg8 m ρ c,
    W2_v14_0 m ρ c,
    W2_v14_1 m ρ c,
    W2_v1 m ρ c,
    W2_v3 m ρ c,
    W2_v7 m ρ c,
    W2_v8 m ρ c,
    W2_arg5 m ρ c,
    W2_arg6 m ρ c,
    W2_arg7 m ρ c,
    W2_arg8 m ρ c,
    W1_v13 m ρ c,
    W1_v1 m ρ c,
    W1_v3 m ρ c,
    W1_v7 m ρ c,
    W1_v8 m ρ c,
    W1_arg0 m ρ c,
    W1_arg4 m ρ c,
    W1_arg5 m ρ c,
    W1_arg6 m ρ c,
    W1_arg7 m ρ c,
    W1_arg8 m ρ c,
    W0_arg0 m ρ c,
    W0_arg1 m ρ c,
    W0_arg2 m ρ c,
    W0_arg3 m ρ c,
    W0_arg4 m ρ c,
    W0_arg5 m ρ c,
    W0_arg6 m ρ c,
    W0_arg7 m ρ c,
    W0_arg8 m ρ c]
  rfl

end Cert.KernelIdeal.Gen

end
-- ==== Proof.ROut.lean ====
/-
  The idealized reference program's result as ONE function of its nine argument arrays, written as the
  program prints it: per layer the two dense products X0 = x·W[0], X1 = x·W[1], their rows src(e) gathered,
  blended b0·X0 + b1·X1 per edge, summed into the destination rows, divided by the in-degree (at least 1),
  plus the root term and the bias; ELU after layer 1, log-softmax after layer 2.
-/
import proofs.«429878_j43843026157849_3_alg».proof.ReferenceIdeal
import proofs.«429878_j43843026157849_3_alg».proof.Proof.Gen.ReferenceIdeal
import proofs.«429878_j43843026157849_3_alg».proof.Proof.Spec

noncomputable section

namespace Cert.ReferenceIdeal.Val

open Idealize.ShloMosaic
open Cert.ReferenceIdeal Cert.ReferenceIdeal.Facts₀ Cert.ReferenceIdeal.Facts

variable {F : FTy → Type} [FloatOps F]

/-- Row 0 of the edge list: the source node of each edge. -/
def srcOf (ei : IVec S2x3200000 32) : IVec S3200000 32 :=
  shapeCast S3200000 (extractStridedSlice S1x3200000 ![0, 0] ei slices_S2x3200000_S1x3200000_0_0) shapeCasts_S1x3200000_S3200000
/-- Row 1 of the edge list: the destination node of each edge. -/
def dstOf (ei : IVec S2x3200000 32) : IVec S3200000 32 :=
  shapeCast S3200000 (extractStridedSlice S1x3200000 ![1, 0] ei slices_S2x3200000_S1x3200000_1_0) shapeCasts_S1x3200000_S3200000
/-- The edge weights u as a vector. -/
def uOf (ea : FVec F S3200000x1 .f32) : FVec F S3200000 .f32 := shapeCast S3200000 ea shapeCasts_S3200000x1_S3200000
/-- The column 1 − u. -/
def b0c (ea : FVec F S3200000x1 .f32) : FVec F S3200000x1 .f32 :=
  broadcastInDim S3200000x1 ![0] bcast_S3200000_S3200000x1_0
    (subf (broadcastInDim S3200000 ![] bcast_S_S3200000 (constant S_ .f32 0x3F800000#32)) (uOf ea))
/-- The column u. -/
def b1c (ea : FVec F S3200000x1 .f32) : FVec F S3200000x1 .f32 :=
  broadcastInDim S3200000x1 ![0] bcast_S3200000_S3200000x1_0 (uOf ea)
/-- W[k] of layer 1. -/
def w1k0 (w : FVec F S2x128x16 .f32) : FVec F S128x16 .f32 :=
  shapeCast S128x16 (extractStridedSlice S1x128x16 ![0, 0, 0] w slices_S2x128x16_S1x128x16_0_0_0) shapeCasts_S1x128x16_S128x16
def w1k1 (w : FVec F S2x128x16 .f32) : FVec F S128x16 .f32 :=
  shapeCast S128x16 (extractStridedSlice S1x128x16 ![1, 0, 0] w slices_S2x128x16_S1x128x16_1_0_0) shapeCasts_S1x128x16_S128x16
/-- W[k] of layer 2. -/
def w2k0 (w : FVec F S2x16x40 .f32) : FVec F S16x40 .f32 :=
  shapeCast S16x40 (extractStridedSlice S1x16x40 ![0, 0, 0] w slices_S2x16x40_S1x16x40_0_0_0) shapeCasts_S1x16x40_S16x40
def w2k1 (w : FVec F S2x16x40 .f32) : FVec F S16x40 .f32 :=
  shapeCast S16x40 (extractStridedSlice S1x16x40 ![1, 0, 0] w slices_S2x16x40_S1x16x40_1_0_0) shapeCasts_S1x16x40_S16x40

/-- A node id with a negative one counted from the end, as the index column the gathers read. -/
def idxCol (s : IVec S3200000 32) : IVec S3200000x1 32 :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- The in-degree of each node, at least 1, as a column. -/
def cntCol (d : IVec S3200000 32) : FVec F S100000x1 .f32 :=
  broadcastInDim S100000x1 ![0] bcast_S100000_S100000x1_0
    (maximumf
      (Host.scatterAdd scatter_S100000_S3200000x1_S3200000_n_0_0_1
        (broadcastInDim S100000 ![] bcast_S_S100000 (constant S_ .f32 0x00000000#32))
        (broadcastInDim S3200000x1 ![0] bcast_S3200000_S3200000x1_0 d)
        (broadcastInDim S3200000 ![] bcast_S_S3200000 (constant S_ .f32 0x3F800000#32)))
      (broadcastInDim S100000 ![] bcast_S_S100000 (constant S_ .f32 0x3F800000#32)))

/-- Layer 1's neighbour mean from the two gathered tables. -/
def mean16 (g0 g1 : FVec F S3200000x16 .f32) (p0 p1 : FVec F S3200000x1 .f32) (d : IVec S3200000 32)
    (cnt : FVec F S100000x1 .f32) : FVec F S100000x16 .f32 :=
  Host.divf
    (Host.scatterAdd scatter_S100000x16_S3200000x1_S3200000x16_1_0_0_1
      (broadcastInDim S100000x16 ![] bcast_S_S100000x16 (constant S_ .f32 0x00000000#32))
      (broadcastInDim S3200000x1 ![0] bcast_S3200000_S3200000x1_0 d)
      (addf
        (mulf (broadcastInDim S3200000x16 ![0, 1] bcast_S3200000x1_S3200000x16_0_1 p0) g0)
        (mulf (broadcastInDim S3200000x16 ![0, 1] bcast_S3200000x1_S3200000x16_0_1 p1) g1)))
    (broadcastInDim S100000x16 ![0, 1] bcast_S100000x1_S100000x16_0_1 cnt)

/-- Layer 2's neighbour mean from the two gathered tables. -/
def mean40 (g0 g1 : FVec F S3200000x40 .f32) (p0 p1 : FVec F S3200000x1 .f32) (d : IVec S3200000 32)
    (cnt : FVec F S100000x1 .f32) : FVec F S100000x40 .f32 :=
  Host.divf
    (Host.scatterAdd scatter_S100000x40_S3200000x1_S3200000x40_1_0_0_1
      (broadcastInDim S100000x40 ![] bcast_S_S100000x40 (constant S_ .f32 0x00000000#32))
      (broadcastInDim S3200000x1 ![0] bcast_S3200000_S3200000x1_0 d)
      (addf
        (mulf (broadcastInDim S3200000x40 ![0, 1] bcast_S3200000x1_S3200000x40_0_1 p0) g0)
        (mulf (broadcastInDim S3200000x40 ![0, 1] bcast_S3200000x1_S3200000x40_0_1 p1) g1)))
    (broadcastInDim S100000x40 ![0, 1] bcast_S100000x1_S100000x40_0_1 cnt)

/-- Layer 1's neighbour mean of the arguments. -/
def m1 (x : FVec F S100000x128 .f32) (ei : IVec S2x3200000 32) (ea : FVec F S3200000x1 .f32)
    (w1 : FVec F S2x128x16 .f32) : FVec F S100000x16 .f32 :=
  mean16
    (Host.gather gather_S100000x16_S3200000x1_S3200000x16_1_0_n_n_0_1_116
      (Host.dotGeneral dot_S100000x128_S128x16_S100000x16_1_0_0_1_n_n none x (w1k0 w1)) (idxCol (srcOf ei)))
    (Host.gather gather_S100000x16_S3200000x1_S3200000x16_1_0_n_n_0_1_116
      (Host.dotGeneral dot_S100000x128_S128x16_S100000x16_1_0_0_1_n_n none x (w1k1 w1)) (idxCol (srcOf ei)))
    (b0c ea) (b1c ea) (dstOf ei) (cntCol (dstOf ei))

/-- The hidden layer of the arguments. -/
def hidden (x : FVec F S100000x128 .f32) (ei : IVec S2x3200000 32) (ea : FVec F S3200000x1 .f32)
    (w1 : FVec F S2x128x16 .f32) (r1 : FVec F S128x16 .f32) (bb1 : FVec F S16 .f32) : FVec F S100000x16 .f32 :=
  Cert.Spec.hid (m1 x ei ea w1)
    (Host.dotGeneral dot_S100000x128_S128x16_S100000x16_1_0_0_1_n_n none x r1)
    (broadcastInDim S1x16 ![1] bcast_S16_S1x16_1 bb1)

/-- Layer 2's neighbour mean of the arguments. -/
def m2 (x : FVec F S100000x128 .f32) (ei : IVec S2x3200000 32) (ea : FVec F S3200000x1 .f32)
    (w1 : FVec F S2x128x16 .f32) (r1 : FVec F S128x16 .f32) (bb1 : FVec F S16 .f32) (w2 : FVec F S2x16x40 .f32) :
    FVec F S100000x40 .f32 :=
  mean40
    (Host.gather gather_S100000x40_S3200000x1_S3200000x40_1_0_n_n_0_1_140
      (Host.dotGeneral dot_S100000x16_S16x40_S100000x40_1_0_0_1_n_n none (hidden x ei ea w1 r1 bb1) (w2k0 w2)) (idxCol (srcOf ei)))
    (Host.gather gather_S100000x40_S3200000x1_S3200000x40_1_0_n_n_0_1_140
      (Host.dotGeneral dot_S100000x16_S16x40_S100000x40_1_0_0_1_n_n none (hidden x ei ea w1 r1 bb1) (w2k1 w2)) (idxCol (srcOf ei)))
    (b0c ea) (b1c ea) (dstOf ei) (cntCol (dstOf ei))

/-- The program's result of its nine arguments. -/
def out (x : FVec F S100000x128 .f32) (ei : IVec S2x3200000 32) (ea : FVec F S3200000x1 .f32)
    (w1 : FVec F S2x128x16 .f32) (r1 : FVec F S128x16 .f32) (bb1 : FVec F S16 .f32) (w2 : FVec F S2x16x40 .f32)
    (r2 : FVec F S16x40 .f32) (bb2 : FVec F S40 .f32) : FVec F S100000x40 .f32 :=
  Cert.Spec.reg2 (m2 x ei ea w1 r1 bb1 w2)
    (Host.dotGeneral dot_S100000x16_S16x40_S100000x40_1_0_0_1_n_n none (hidden x ei ea w1 r1 bb1) r2)
    (broadcastInDim S1x40 ![1] bcast_S40_S1x40_1 bb2)

end Cert.ReferenceIdeal.Val

end
-- ==== Proof.RRun.lean ====
/-
  The reference program's run: @main and the functions it calls as one straight line of host operations,
  every weakly fair execution ending with each buffer at the operations' fold over the launch contents, and
  that fold at the result buffer is the value function of the argument arrays.
-/
import proofs.«429878_j43843026157849_3_alg».proof.ReferenceIdeal
import proofs.«429878_j43843026157849_3_alg».proof.Proof.Gen.ReferenceIdeal
import proofs.«429878_j43843026157849_3_alg».proof.Proof.ROut
import Idealize.ShloMosaic.Lib.StableHlo.Run

noncomputable section

namespace Cert.ReferenceIdeal.Run

open Idealize.ShloMosaic Idealize.ShloMosaic.TcCoe Idealize.ShloMosaic.StableHlo Idealize.SL.Sem
open Cert.ReferenceIdeal Cert.ReferenceIdeal.Facts₀ Cert.ReferenceIdeal.Facts

variable {F : FTy → Type} [FloatOps F]

/-- @main's operations in order, the calls unfolded at their sites: the sixty of the first window; @elu's fifteen
    over the record main_call0 (its comparison with zero twice, @_where's three selecting zero where the argument is
    positive, the exponential minus one, the product with one, @_where_0's select); the fifty-two of the second
    window; @log_softmax's fifteen over the record main_call1. -/
abbrev ops : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    reshape main_arg2 main_v4 rfl shapeCasts_S3200000x1_S3200000,
    nullary main_cst (constant S_ .f32 0x3F800000#32),
    unary main_cst main_v5 (broadcastInDim S3200000 ![] bcast_S_S3200000 : (⟨S_, .f32⟩ : BufTy).Contents (Elt F) → (⟨S3200000, .f32⟩ : BufTy).Contents (Elt F)),
    binary main_v5 main_v4 main_v6 (subf : (⟨S3200000, .f32⟩ : BufTy).Contents (Elt F) → (⟨S3200000, .f32⟩ : BufTy).Contents (Elt F) → (⟨S3200000, .f32⟩ : BufTy).Contents (Elt F)),
    unary main_arg3 main_v7 ((extractStridedSlice S1x128x16 ![0, 0, 0] · slices_S2x128x16_S1x128x16_0_0_0) : (⟨S2x128x16, .f32⟩ : BufTy).Contents (Elt F) → (⟨S1x128x16, .f32⟩ : BufTy).Contents (Elt F)),
    reshape main_v7 main_v8 rfl shapeCasts_S1x128x16_S128x16,
    binary main_arg0 main_v8 main_v9 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_arg3 main_v10 ((extractStridedSlice S1x128x16 ![1, 0, 0] · slices_S2x128x16_S1x128x16_1_0_0) : (⟨S2x128x16, .f32⟩ : BufTy).Contents (Elt F) → (⟨S1x128x16, .f32⟩ : BufTy).Contents (Elt F)),
    reshape main_v10 main_v11 rfl shapeCasts_S1x128x16_S128x16,
    binary main_arg0 main_v11 main_v12 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_v6 main_v13 (broadcastInDim S3200000x1 ![0] bcast_S3200000_S3200000x1_0 : (⟨S3200000, .f32⟩ : BufTy).Contents (Elt F) → (⟨S3200000x1, .f32⟩ : BufTy).Contents (Elt F)),
    nullary main_c (constantI S_ 32 0#32),
    unary main_c main_v14 (broadcastInDim S3200000 ![] bcast_S_S3200000 : (⟨S_, .i32⟩ : BufTy).Contents (Elt F) → (⟨S3200000, .i32⟩ : BufTy).Contents (Elt F)),
    binary main_v1 main_v14 main_v15 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v16 (broadcastInDim S3200000 ![] bcast_S_S3200000 : (⟨S_, .i32⟩ : BufTy).Contents (Elt F) → (⟨S3200000, .i32⟩ : BufTy).Contents (Elt F)),
    binary main_v1 main_v16 main_v17 (addi : (⟨S3200000, .i32⟩ : BufTy).Contents (Elt F) → (⟨S3200000, .i32⟩ : BufTy).Contents (Elt F) → (⟨S3200000, .i32⟩ : BufTy).Contents (Elt F)),
    ternary main_v15 main_v17 main_v1 main_v18 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v18 main_v19 (broadcastInDim S3200000x1 ![0] bcast_S3200000_S3200000x1_0 : (⟨S3200000, .i32⟩ : BufTy).Contents (Elt F) → (⟨S3200000x1, .i32⟩ : BufTy).Contents (Elt F)),
    binary main_v9 main_v19 main_v20 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_v13 main_v21 (broadcastInDim S3200000x16 ![0, 1] bcast_S3200000x1_S3200000x16_0_1 : (⟨S3200000x1, .f32⟩ : BufTy).Contents (Elt F) → (⟨S3200000x16, .f32⟩ : BufTy).Contents (Elt F)),
    binary main_v21 main_v20 main_v22 (mulf : (⟨S3200000x16, .f32⟩ : BufTy).Contents (Elt F) → (⟨S3200000x16, .f32⟩ : BufTy).Contents (Elt F) → (⟨S3200000x16, .f32⟩ : BufTy).Contents (Elt F)),
    unary main_v4 main_v23 (broadcastInDim S3200000x1 ![0] bcast_S3200000_S3200000x1_0 : (⟨S3200000, .f32⟩ : BufTy).Contents (Elt F) → (⟨S3200000x1, .f32⟩ : BufTy).Contents (Elt F)),
    nullary main_c_1 (constantI S_ 32 0#32),
    unary main_c_1 main_v24 (broadcastInDim S3200000 ![] bcast_S_S3200000 : (⟨S_, .i32⟩ : BufTy).Contents (Elt F) → (⟨S3200000, .i32⟩ : BufTy).Contents (Elt F)),
    binary main_v1 main_v24 main_v25 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v26 (broadcastInDim S3200000 ![] bcast_S_S3200000 : (⟨S_, .i32⟩ : BufTy).Contents (Elt F) → (⟨S3200000, .i32⟩ : BufTy).Contents (Elt F)),
    binary main_v1 main_v26 main_v27 (addi : (⟨S3200000, .i32⟩ : BufTy).Contents (Elt F) → (⟨S3200000, .i32⟩ : BufTy).Contents (Elt F) → (⟨S3200000, .i32⟩ : BufTy).Contents (Elt F)),
    ternary main_v25 main_v27 main_v1 main_v28 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v28 main_v29 (broadcastInDim S3200000x1 ![0] bcast_S3200000_S3200000x1_0 : (⟨S3200000, .i32⟩ : BufTy).Contents (Elt F) → (⟨S3200000x1, .i32⟩ : BufTy).Contents (Elt F)),
    binary main_v12 main_v29 main_v30 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_v23 main_v31 (broadcastInDim S3200000x16 ![0, 1] bcast_S3200000x1_S3200000x16_0_1 : (⟨S3200000x1, .f32⟩ : BufTy).Contents (Elt F) → (⟨S3200000x16, .f32⟩ : BufTy).Contents (Elt F)),
    binary main_v31 main_v30 main_v32 (mulf : (⟨S3200000x16, .f32⟩ : BufTy).Contents (Elt F) → (⟨S3200000x16, .f32⟩ : BufTy).Contents (Elt F) → (⟨S3200000x16, .f32⟩ : BufTy).Contents (Elt F)),
    binary main_v22 main_v32 main_v33 (addf : (⟨S3200000x16, .f32⟩ : BufTy).Contents (Elt F) → (⟨S3200000x16, .f32⟩ : BufTy).Contents (Elt F) → (⟨S3200000x16, .f32⟩ : BufTy).Contents (Elt F)),
    nullary main_cst_3 (constant S_ .f32 0x00000000#32),
    unary main_cst_3 main_v34 (broadcastInDim S100000x16 ![] bcast_S_S100000x16 : (⟨S_, .f32⟩ : BufTy).Contents (Elt F) → (⟨S100000x16, .f32⟩ : BufTy).Contents (Elt F)),
    unary main_v3 main_v35 (broadcastInDim S3200000x1 ![0] bcast_S3200000_S3200000x1_0 : (⟨S3200000, .i32⟩ : BufTy).Contents (Elt F) → (⟨S3200000x1, .i32⟩ : BufTy).Contents (Elt F)),
    ternary main_v34 main_v35 main_v33 main_v36 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    nullary main_cst_4 (constant S_ .f32 0x3F800000#32),
    unary main_cst_4 main_v37 (broadcastInDim S3200000 ![] bcast_S_S3200000 : (⟨S_, .f32⟩ : BufTy).Contents (Elt F) → (⟨S3200000, .f32⟩ : BufTy).Contents (Elt F)),
    nullary main_cst_5 (constant S_ .f32 0x00000000#32),
    unary main_cst_5 main_v38 (broadcastInDim S100000 ![] bcast_S_S100000 : (⟨S_, .f32⟩ : BufTy).Contents (Elt F) → (⟨S100000, .f32⟩ : BufTy).Contents (Elt F)),
    unary main_v3 main_v39 (broadcastInDim S3200000x1 ![0] bcast_S3200000_S3200000x1_0 : (⟨S3200000, .i32⟩ : BufTy).Contents (Elt F) → (⟨S3200000x1, .i32⟩ : BufTy).Contents (Elt F)),
    ternary main_v38 main_v39 main_v37 main_v40 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_6 (constant S_ .f32 0x3F800000#32),
    unary main_cst_6 main_v41 (broadcastInDim S100000 ![] bcast_S_S100000 : (⟨S_, .f32⟩ : BufTy).Contents (Elt F) → (⟨S100000, .f32⟩ : BufTy).Contents (Elt F)),
    binary main_v40 main_v41 main_v42 (maximumf : (⟨S100000, .f32⟩ : BufTy).Contents (Elt F) → (⟨S100000, .f32⟩ : BufTy).Contents (Elt F) → (⟨S100000, .f32⟩ : BufTy).Contents (Elt F)),
    unary main_v42 main_v43 (broadcastInDim S100000x1 ![0] bcast_S100000_S100000x1_0 : (⟨S100000, .f32⟩ : BufTy).Contents (Elt F) → (⟨S100000x1, .f32⟩ : BufTy).Contents (Elt F)),
    unary main_v43 main_v44 (broadcastInDim S100000x16 ![0, 1] bcast_S100000x1_S100000x16_0_1 : (⟨S100000x1, .f32⟩ : BufTy).Contents (Elt F) → (⟨S100000x16, .f32⟩ : BufTy).Contents (Elt F)),
    binary main_v36 main_v44 main_v45 (Host.divf : (⟨S100000x16, .f32⟩ : BufTy).Contents (Elt F) → (⟨S100000x16, .f32⟩ : BufTy).Contents (Elt F) → (⟨S100000x16, .f32⟩ : BufTy).Contents (Elt F)),
    binary main_arg0 main_arg4 main_v46 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    binary main_v45 main_v46 main_v47 (addf : (⟨S100000x16, .f32⟩ : BufTy).Contents (Elt F) → (⟨S100000x16, .f32⟩ : BufTy).Contents (Elt F) → (⟨S100000x16, .f32⟩ : BufTy).Contents (Elt F)),
    unary main_arg5 main_v48 (broadcastInDim S1x16 ![1] bcast_S16_S1x16_1 : (⟨S16, .f32⟩ : BufTy).Contents (Elt F) → (⟨S1x16, .f32⟩ : BufTy).Contents (Elt F)),
    unary main_v48 main_v49 (broadcastInDim S100000x16 ![0, 1] bcast_S1x16_S100000x16_0_1 : (⟨S1x16, .f32⟩ : BufTy).Contents (Elt F) → (⟨S100000x16, .f32⟩ : BufTy).Contents (Elt F)),
    binary main_v47 main_v49 main_v50 (addf : (⟨S100000x16, .f32⟩ : BufTy).Contents (Elt F) → (⟨S100000x16, .f32⟩ : BufTy).Contents (Elt F) → (⟨S100000x16, .f32⟩ : BufTy).Contents (Elt F)),
    TRef.nullary main_call0.cst (constant S_ .f32 0x00000000#32),
    TRef.unary main_call0.cst main_call0.v0 (broadcastInDim S100000x16 ![] bcast_S_S100000x16),
    TRef.binary (.of main_v50 : TRef sig ⟨S100000x16, .f32⟩) main_call0.v0 main_call0.v1 (cmpf .ogt),
    TRef.nullary main_call0.cst_0 (constant S_ .f32 0x00000000#32),
    TRef.unary main_call0.cst_0 main_call0.v2 (broadcastInDim S100000x16 ![] bcast_S_S100000x16),
    TRef.binary (.of main_v50 : TRef sig ⟨S100000x16, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x16 ![] bcast_S_S100000x16),
    TRef.ternary main_call0.v3 main_call0.call0.v1 (.of main_v50 : TRef sig ⟨S100000x16, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x16 ![] bcast_S_S100000x16),
    TRef.binary main_call0.v6 main_call0.v5 main_call0.v7 mulf,
    TRef.ternary main_call0.v1 (.of main_v50 : TRef sig ⟨S100000x16, .f32⟩) main_call0.v7 main_call0.call1.v0 select,
    unary main_arg6 main_v52 ((extractStridedSlice S1x16x40 ![0, 0, 0] · slices_S2x16x40_S1x16x40_0_0_0) : (⟨S2x16x40, .f32⟩ : BufTy).Contents (Elt F) → (⟨S1x16x40, .f32⟩ : BufTy).Contents (Elt F)),
    reshape main_v52 main_v53 rfl shapeCasts_S1x16x40_S16x40,
    binary main_v51 main_v53 main_v54 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    unary main_arg6 main_v55 ((extractStridedSlice S1x16x40 ![1, 0, 0] · slices_S2x16x40_S1x16x40_1_0_0) : (⟨S2x16x40, .f32⟩ : BufTy).Contents (Elt F) → (⟨S1x16x40, .f32⟩ : BufTy).Contents (Elt F)),
    reshape main_v55 main_v56 rfl shapeCasts_S1x16x40_S16x40,
    binary main_v51 main_v56 main_v57 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    unary main_v6 main_v58 (broadcastInDim S3200000x1 ![0] bcast_S3200000_S3200000x1_0 : (⟨S3200000, .f32⟩ : BufTy).Contents (Elt F) → (⟨S3200000x1, .f32⟩ : BufTy).Contents (Elt F)),
    nullary main_c_7 (constantI S_ 32 0#32),
    unary main_c_7 main_v59 (broadcastInDim S3200000 ![] bcast_S_S3200000 : (⟨S_, .i32⟩ : BufTy).Contents (Elt F) → (⟨S3200000, .i32⟩ : BufTy).Contents (Elt F)),
    binary main_v1 main_v59 main_v60 (cmpi .slt : (⟨S3200000, .i32⟩ : BufTy).Contents (Elt F) → (⟨S3200000, .i32⟩ : BufTy).Contents (Elt F) → (⟨S3200000, .i1⟩ : BufTy).Contents (Elt F)),
    nullary main_c_8 (constantI S_ 32 100000#32),
    unary main_c_8 main_v61 (broadcastInDim S3200000 ![] bcast_S_S3200000 : (⟨S_, .i32⟩ : BufTy).Contents (Elt F) → (⟨S3200000, .i32⟩ : BufTy).Contents (Elt F)),
    binary main_v1 main_v61 main_v62 (addi : (⟨S3200000, .i32⟩ : BufTy).Contents (Elt F) → (⟨S3200000, .i32⟩ : BufTy).Contents (Elt F) → (⟨S3200000, .i32⟩ : BufTy).Contents (Elt F)),
    ternary main_v60 main_v62 main_v1 main_v63 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v63 main_v64 (broadcastInDim S3200000x1 ![0] bcast_S3200000_S3200000x1_0 : (⟨S3200000, .i32⟩ : BufTy).Contents (Elt F) → (⟨S3200000x1, .i32⟩ : BufTy).Contents (Elt F)),
    binary main_v54 main_v64 main_v65 ((fun x i => Host.gather gather_S100000x40_S3200000x1_S3200000x40_1_0_n_n_0_1_140 x i) : (⟨S100000x40, .f32⟩ : BufTy).Contents (Elt F) → (⟨S3200000x1, .i32⟩ : BufTy).Contents (Elt F) → (⟨S3200000x40, .f32⟩ : BufTy).Contents (Elt F)),
    unary main_v58 main_v66 (broadcastInDim S3200000x40 ![0, 1] bcast_S3200000x1_S3200000x40_0_1 : (⟨S3200000x1, .f32⟩ : BufTy).Contents (Elt F) → (⟨S3200000x40, .f32⟩ : BufTy).Contents (Elt F)),
    binary main_v66 main_v65 main_v67 (mulf : (⟨S3200000x40, .f32⟩ : BufTy).Contents (Elt F) → (⟨S3200000x40, .f32⟩ : BufTy).Contents (Elt F) → (⟨S3200000x40, .f32⟩ : BufTy).Contents (Elt F)),
    unary main_v4 main_v68 (broadcastInDim S3200000x1 ![0] bcast_S3200000_S3200000x1_0 : (⟨S3200000, .f32⟩ : BufTy).Contents (Elt F) → (⟨S3200000x1, .f32⟩ : BufTy).Contents (Elt F)),
    nullary main_c_9 (constantI S_ 32 0#32),
    unary main_c_9 main_v69 (broadcastInDim S3200000 ![] bcast_S_S3200000 : (⟨S_, .i32⟩ : BufTy).Contents (Elt F) → (⟨S3200000, .i32⟩ : BufTy).Contents (Elt F)),
    binary main_v1 main_v69 main_v70 (cmpi .slt : (⟨S3200000, .i32⟩ : BufTy).Contents (Elt F) → (⟨S3200000, .i32⟩ : BufTy).Contents (Elt F) → (⟨S3200000, .i1⟩ : BufTy).Contents (Elt F)),
    nullary main_c_10 (constantI S_ 32 100000#32),
    unary main_c_10 main_v71 (broadcastInDim S3200000 ![] bcast_S_S3200000 : (⟨S_, .i32⟩ : BufTy).Contents (Elt F) → (⟨S3200000, .i32⟩ : BufTy).Contents (Elt F)),
    binary main_v1 main_v71 main_v72 (addi : (⟨S3200000, .i32⟩ : BufTy).Contents (Elt F) → (⟨S3200000, .i32⟩ : BufTy).Contents (Elt F) → (⟨S3200000, .i32⟩ : BufTy).Contents (Elt F)),
    ternary main_v70 main_v72 main_v1 main_v73 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v73 main_v74 (broadcastInDim S3200000x1 ![0] bcast_S3200000_S3200000x1_0 : (⟨S3200000, .i32⟩ : BufTy).Contents (Elt F) → (⟨S3200000x1, .i32⟩ : BufTy).Contents (Elt F)),
    binary main_v57 main_v74 main_v75 ((fun x i => Host.gather gather_S100000x40_S3200000x1_S3200000x40_1_0_n_n_0_1_140 x i) : (⟨S100000x40, .f32⟩ : BufTy).Contents (Elt F) → (⟨S3200000x1, .i32⟩ : BufTy).Contents (Elt F) → (⟨S3200000x40, .f32⟩ : BufTy).Contents (Elt F)),
    unary main_v68 main_v76 (broadcastInDim S3200000x40 ![0, 1] bcast_S3200000x1_S3200000x40_0_1 : (⟨S3200000x1, .f32⟩ : BufTy).Contents (Elt F) → (⟨S3200000x40, .f32⟩ : BufTy).Contents (Elt F)),
    binary main_v76 main_v75 main_v77 (mulf : (⟨S3200000x40, .f32⟩ : BufTy).Contents (Elt F) → (⟨S3200000x40, .f32⟩ : BufTy).Contents (Elt F) → (⟨S3200000x40, .f32⟩ : BufTy).Contents (Elt F)),
    binary main_v67 main_v77 main_v78 (addf : (⟨S3200000x40, .f32⟩ : BufTy).Contents (Elt F) → (⟨S3200000x40, .f32⟩ : BufTy).Contents (Elt F) → (⟨S3200000x40, .f32⟩ : BufTy).Contents (Elt F)),
    nullary main_cst_11 (constant S_ .f32 0x00000000#32),
    unary main_cst_11 main_v79 (broadcastInDim S100000x40 ![] bcast_S_S100000x40 : (⟨S_, .f32⟩ : BufTy).Contents (Elt F) → (⟨S100000x40, .f32⟩ : BufTy).Contents (Elt F)),
    unary main_v3 main_v80 (broadcastInDim S3200000x1 ![0] bcast_S3200000_S3200000x1_0 : (⟨S3200000, .i32⟩ : BufTy).Contents (Elt F) → (⟨S3200000x1, .i32⟩ : BufTy).Contents (Elt F)),
    ternary main_v79 main_v80 main_v78 main_v81 ((fun x i u => Host.scatterAdd scatter_S100000x40_S3200000x1_S3200000x40_1_0_0_1 x i u) : (⟨S100000x40, .f32⟩ : BufTy).Contents (Elt F) → (⟨S3200000x1, .i32⟩ : BufTy).Contents (Elt F) → (⟨S3200000x40, .f32⟩ : BufTy).Contents (Elt F) → (⟨S100000x40, .f32⟩ : BufTy).Contents (Elt F)),
    nullary main_cst_12 (constant S_ .f32 0x3F800000#32),
    unary main_cst_12 main_v82 (broadcastInDim S3200000 ![] bcast_S_S3200000 : (⟨S_, .f32⟩ : BufTy).Contents (Elt F) → (⟨S3200000, .f32⟩ : BufTy).Contents (Elt F)),
    nullary main_cst_13 (constant S_ .f32 0x00000000#32),
    unary main_cst_13 main_v83 (broadcastInDim S100000 ![] bcast_S_S100000 : (⟨S_, .f32⟩ : BufTy).Contents (Elt F) → (⟨S100000, .f32⟩ : BufTy).Contents (Elt F)),
    unary main_v3 main_v84 (broadcastInDim S3200000x1 ![0] bcast_S3200000_S3200000x1_0 : (⟨S3200000, .i32⟩ : BufTy).Contents (Elt F) → (⟨S3200000x1, .i32⟩ : BufTy).Contents (Elt F)),
    ternary main_v83 main_v84 main_v82 main_v85 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_14 (constant S_ .f32 0x3F800000#32),
    unary main_cst_14 main_v86 (broadcastInDim S100000 ![] bcast_S_S100000 : (⟨S_, .f32⟩ : BufTy).Contents (Elt F) → (⟨S100000, .f32⟩ : BufTy).Contents (Elt F)),
    binary main_v85 main_v86 main_v87 (maximumf : (⟨S100000, .f32⟩ : BufTy).Contents (Elt F) → (⟨S100000, .f32⟩ : BufTy).Contents (Elt F) → (⟨S100000, .f32⟩ : BufTy).Contents (Elt F)),
    unary main_v87 main_v88 (broadcastInDim S100000x1 ![0] bcast_S100000_S100000x1_0 : (⟨S100000, .f32⟩ : BufTy).Contents (Elt F) → (⟨S100000x1, .f32⟩ : BufTy).Contents (Elt F)),
    unary main_v88 main_v89 (broadcastInDim S100000x40 ![0, 1] bcast_S100000x1_S100000x40_0_1 : (⟨S100000x1, .f32⟩ : BufTy).Contents (Elt F) → (⟨S100000x40, .f32⟩ : BufTy).Contents (Elt F)),
    binary main_v81 main_v89 main_v90 (Host.divf : (⟨S100000x40, .f32⟩ : BufTy).Contents (Elt F) → (⟨S100000x40, .f32⟩ : BufTy).Contents (Elt F) → (⟨S100000x40, .f32⟩ : BufTy).Contents (Elt F)),
    binary main_v51 main_arg7 main_v91 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    binary main_v90 main_v91 main_v92 (addf : (⟨S100000x40, .f32⟩ : BufTy).Contents (Elt F) → (⟨S100000x40, .f32⟩ : BufTy).Contents (Elt F) → (⟨S100000x40, .f32⟩ : BufTy).Contents (Elt F)),
    unary main_arg8 main_v93 (broadcastInDim S1x40 ![1] bcast_S40_S1x40_1 : (⟨S40, .f32⟩ : BufTy).Contents (Elt F) → (⟨S1x40, .f32⟩ : BufTy).Contents (Elt F)),
    unary main_v93 main_v94 (broadcastInDim S100000x40 ![0, 1] bcast_S1x40_S100000x40_0_1 : (⟨S1x40, .f32⟩ : BufTy).Contents (Elt F) → (⟨S100000x40, .f32⟩ : BufTy).Contents (Elt F)),
    binary main_v92 main_v94 main_v95 (addf : (⟨S100000x40, .f32⟩ : BufTy).Contents (Elt F) → (⟨S100000x40, .f32⟩ : BufTy).Contents (Elt F) → (⟨S100000x40, .f32⟩ : BufTy).Contents (Elt F)),
    TRef.nullary main_call1.cst (constant S_ .f32 0xFF800000#32),
    TRef.binary (.of main_v95 : TRef sig ⟨S100000x40, .f32⟩) main_call1.cst main_call1.v0 (fun x v => Host.reduce FloatOps.maximumf x v reducesTo_S100000x40_S100000_d1 h_S_),
    TRef.nullary main_call1.cst_0 (constant S_ .f32 0xFF800000#32),
    TRef.unary main_call1.cst_0 main_call1.v1 (broadcastInDim S100000 ![] bcast_S_S100000),
    TRef.binary main_call1.v1 main_call1.v0 main_call1.v2 maximumf,
    TRef.unary main_call1.v2 main_call1.v3 (broadcastInDim S100000x1 ![0] bcast_S100000_S100000x1_0),
    TRef.unary main_call1.v3 main_call1.v4 (broadcastInDim S100000x40 ![0, 1] bcast_S100000x1_S100000x40_0_1),
    TRef.binary (.of main_v95 : TRef sig ⟨S100000x40, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S100000x40_S100000_d1 h_S_),
    TRef.unary main_call1.v7 main_call1.v8 (broadcastInDim S100000x1 ![0] bcast_S100000_S100000x1_0),
    TRef.unary main_call1.v8 main_call1.v9 Host.log,
    TRef.unary main_call1.v9 main_call1.v10 (broadcastInDim S100000x40 ![0, 1] bcast_S100000x1_S100000x40_0_1),
    TRef.binary main_call1.v5 main_call1.v10 main_call1.v11 subf ]

-- one hundred and forty-two binds re-associated: the rewrite under the chain recurses once per statement
set_option maxRecDepth 8192 in
set_option maxHeartbeats 4000000 in
/-- @main is that straight line: the windows and the functions unfolded at their calls, the records at their
    fields, both sides are one chain of steps once sequencing is reassociated. -/
theorem main_eq (c : Dev nD) : main (F := F) c = seq ops := by
  simp only [main, main_part0, main_part1, fn_elu.body, fn_where.body, fn_where_0.body, fn_log_softmax.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of the line touches TensorCore references only. -/
theorem ops_sub : (ops : List (HloOp τ sig (Elt F))).Forall fun op => op.bufs ⊆ tcRefs τ sig := by
  simp only [ops, List.forall_cons, List.Forall, nullary_bufs_sub, unary_bufs_sub, binary_bufs_sub, ternary_bufs_sub,
    reshape_bufs_sub, and_self]

/-- From any memory with zero counters every weakly fair execution of @main terminates, each buffer ending at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The first window: layer 1 up to the sum before the activation. -/
abbrev s1 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    reshape main_arg2 main_v4 rfl shapeCasts_S3200000x1_S3200000,
    nullary main_cst (constant S_ .f32 0x3F800000#32),
    unary main_cst main_v5 (broadcastInDim S3200000 ![] bcast_S_S3200000 : (⟨S_, .f32⟩ : BufTy).Contents (Elt F) → (⟨S3200000, .f32⟩ : BufTy).Contents (Elt F)),
    binary main_v5 main_v4 main_v6 (subf : (⟨S3200000, .f32⟩ : BufTy).Contents (Elt F) → (⟨S3200000, .f32⟩ : BufTy).Contents (Elt F) → (⟨S3200000, .f32⟩ : BufTy).Contents (Elt F)),
    unary main_arg3 main_v7 ((extractStridedSlice S1x128x16 ![0, 0, 0] · slices_S2x128x16_S1x128x16_0_0_0) : (⟨S2x128x16, .f32⟩ : BufTy).Contents (Elt F) → (⟨S1x128x16, .f32⟩ : BufTy).Contents (Elt F)),
    reshape main_v7 main_v8 rfl shapeCasts_S1x128x16_S128x16,
    binary main_arg0 main_v8 main_v9 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_arg3 main_v10 ((extractStridedSlice S1x128x16 ![1, 0, 0] · slices_S2x128x16_S1x128x16_1_0_0) : (⟨S2x128x16, .f32⟩ : BufTy).Contents (Elt F) → (⟨S1x128x16, .f32⟩ : BufTy).Contents (Elt F)),
    reshape main_v10 main_v11 rfl shapeCasts_S1x128x16_S128x16,
    binary main_arg0 main_v11 main_v12 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_v6 main_v13 (broadcastInDim S3200000x1 ![0] bcast_S3200000_S3200000x1_0 : (⟨S3200000, .f32⟩ : BufTy).Contents (Elt F) → (⟨S3200000x1, .f32⟩ : BufTy).Contents (Elt F)),
    nullary main_c (constantI S_ 32 0#32),
    unary main_c main_v14 (broadcastInDim S3200000 ![] bcast_S_S3200000 : (⟨S_, .i32⟩ : BufTy).Contents (Elt F) → (⟨S3200000, .i32⟩ : BufTy).Contents (Elt F)),
    binary main_v1 main_v14 main_v15 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v16 (broadcastInDim S3200000 ![] bcast_S_S3200000 : (⟨S_, .i32⟩ : BufTy).Contents (Elt F) → (⟨S3200000, .i32⟩ : BufTy).Contents (Elt F)),
    binary main_v1 main_v16 main_v17 (addi : (⟨S3200000, .i32⟩ : BufTy).Contents (Elt F) → (⟨S3200000, .i32⟩ : BufTy).Contents (Elt F) → (⟨S3200000, .i32⟩ : BufTy).Contents (Elt F)),
    ternary main_v15 main_v17 main_v1 main_v18 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v18 main_v19 (broadcastInDim S3200000x1 ![0] bcast_S3200000_S3200000x1_0 : (⟨S3200000, .i32⟩ : BufTy).Contents (Elt F) → (⟨S3200000x1, .i32⟩ : BufTy).Contents (Elt F)),
    binary main_v9 main_v19 main_v20 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_v13 main_v21 (broadcastInDim S3200000x16 ![0, 1] bcast_S3200000x1_S3200000x16_0_1 : (⟨S3200000x1, .f32⟩ : BufTy).Contents (Elt F) → (⟨S3200000x16, .f32⟩ : BufTy).Contents (Elt F)),
    binary main_v21 main_v20 main_v22 (mulf : (⟨S3200000x16, .f32⟩ : BufTy).Contents (Elt F) → (⟨S3200000x16, .f32⟩ : BufTy).Contents (Elt F) → (⟨S3200000x16, .f32⟩ : BufTy).Contents (Elt F)),
    unary main_v4 main_v23 (broadcastInDim S3200000x1 ![0] bcast_S3200000_S3200000x1_0 : (⟨S3200000, .f32⟩ : BufTy).Contents (Elt F) → (⟨S3200000x1, .f32⟩ : BufTy).Contents (Elt F)),
    nullary main_c_1 (constantI S_ 32 0#32),
    unary main_c_1 main_v24 (broadcastInDim S3200000 ![] bcast_S_S3200000 : (⟨S_, .i32⟩ : BufTy).Contents (Elt F) → (⟨S3200000, .i32⟩ : BufTy).Contents (Elt F)),
    binary main_v1 main_v24 main_v25 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v26 (broadcastInDim S3200000 ![] bcast_S_S3200000 : (⟨S_, .i32⟩ : BufTy).Contents (Elt F) → (⟨S3200000, .i32⟩ : BufTy).Contents (Elt F)),
    binary main_v1 main_v26 main_v27 (addi : (⟨S3200000, .i32⟩ : BufTy).Contents (Elt F) → (⟨S3200000, .i32⟩ : BufTy).Contents (Elt F) → (⟨S3200000, .i32⟩ : BufTy).Contents (Elt F)),
    ternary main_v25 main_v27 main_v1 main_v28 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v28 main_v29 (broadcastInDim S3200000x1 ![0] bcast_S3200000_S3200000x1_0 : (⟨S3200000, .i32⟩ : BufTy).Contents (Elt F) → (⟨S3200000x1, .i32⟩ : BufTy).Contents (Elt F)),
    binary main_v12 main_v29 main_v30 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_v23 main_v31 (broadcastInDim S3200000x16 ![0, 1] bcast_S3200000x1_S3200000x16_0_1 : (⟨S3200000x1, .f32⟩ : BufTy).Contents (Elt F) → (⟨S3200000x16, .f32⟩ : BufTy).Contents (Elt F)),
    binary main_v31 main_v30 main_v32 (mulf : (⟨S3200000x16, .f32⟩ : BufTy).Contents (Elt F) → (⟨S3200000x16, .f32⟩ : BufTy).Contents (Elt F) → (⟨S3200000x16, .f32⟩ : BufTy).Contents (Elt F)),
    binary main_v22 main_v32 main_v33 (addf : (⟨S3200000x16, .f32⟩ : BufTy).Contents (Elt F) → (⟨S3200000x16, .f32⟩ : BufTy).Contents (Elt F) → (⟨S3200000x16, .f32⟩ : BufTy).Contents (Elt F)),
    nullary main_cst_3 (constant S_ .f32 0x00000000#32),
    unary main_cst_3 main_v34 (broadcastInDim S100000x16 ![] bcast_S_S100000x16 : (⟨S_, .f32⟩ : BufTy).Contents (Elt F) → (⟨S100000x16, .f32⟩ : BufTy).Contents (Elt F)),
    unary main_v3 main_v35 (broadcastInDim S3200000x1 ![0] bcast_S3200000_S3200000x1_0 : (⟨S3200000, .i32⟩ : BufTy).Contents (Elt F) → (⟨S3200000x1, .i32⟩ : BufTy).Contents (Elt F)),
    ternary main_v34 main_v35 main_v33 main_v36 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    nullary main_cst_4 (constant S_ .f32 0x3F800000#32),
    unary main_cst_4 main_v37 (broadcastInDim S3200000 ![] bcast_S_S3200000 : (⟨S_, .f32⟩ : BufTy).Contents (Elt F) → (⟨S3200000, .f32⟩ : BufTy).Contents (Elt F)),
    nullary main_cst_5 (constant S_ .f32 0x00000000#32),
    unary main_cst_5 main_v38 (broadcastInDim S100000 ![] bcast_S_S100000 : (⟨S_, .f32⟩ : BufTy).Contents (Elt F) → (⟨S100000, .f32⟩ : BufTy).Contents (Elt F)),
    unary main_v3 main_v39 (broadcastInDim S3200000x1 ![0] bcast_S3200000_S3200000x1_0 : (⟨S3200000, .i32⟩ : BufTy).Contents (Elt F) → (⟨S3200000x1, .i32⟩ : BufTy).Contents (Elt F)),
    ternary main_v38 main_v39 main_v37 main_v40 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_6 (constant S_ .f32 0x3F800000#32),
    unary main_cst_6 main_v41 (broadcastInDim S100000 ![] bcast_S_S100000 : (⟨S_, .f32⟩ : BufTy).Contents (Elt F) → (⟨S100000, .f32⟩ : BufTy).Contents (Elt F)),
    binary main_v40 main_v41 main_v42 (maximumf : (⟨S100000, .f32⟩ : BufTy).Contents (Elt F) → (⟨S100000, .f32⟩ : BufTy).Contents (Elt F) → (⟨S100000, .f32⟩ : BufTy).Contents (Elt F)),
    unary main_v42 main_v43 (broadcastInDim S100000x1 ![0] bcast_S100000_S100000x1_0 : (⟨S100000, .f32⟩ : BufTy).Contents (Elt F) → (⟨S100000x1, .f32⟩ : BufTy).Contents (Elt F)),
    unary main_v43 main_v44 (broadcastInDim S100000x16 ![0, 1] bcast_S100000x1_S100000x16_0_1 : (⟨S100000x1, .f32⟩ : BufTy).Contents (Elt F) → (⟨S100000x16, .f32⟩ : BufTy).Contents (Elt F)),
    binary main_v36 main_v44 main_v45 (Host.divf : (⟨S100000x16, .f32⟩ : BufTy).Contents (Elt F) → (⟨S100000x16, .f32⟩ : BufTy).Contents (Elt F) → (⟨S100000x16, .f32⟩ : BufTy).Contents (Elt F)),
    binary main_arg0 main_arg4 main_v46 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    binary main_v45 main_v46 main_v47 (addf : (⟨S100000x16, .f32⟩ : BufTy).Contents (Elt F) → (⟨S100000x16, .f32⟩ : BufTy).Contents (Elt F) → (⟨S100000x16, .f32⟩ : BufTy).Contents (Elt F)),
    unary main_arg5 main_v48 (broadcastInDim S1x16 ![1] bcast_S16_S1x16_1 : (⟨S16, .f32⟩ : BufTy).Contents (Elt F) → (⟨S1x16, .f32⟩ : BufTy).Contents (Elt F)),
    unary main_v48 main_v49 (broadcastInDim S100000x16 ![0, 1] bcast_S1x16_S100000x16_0_1 : (⟨S1x16, .f32⟩ : BufTy).Contents (Elt F) → (⟨S100000x16, .f32⟩ : BufTy).Contents (Elt F)),
    binary main_v47 main_v49 main_v50 (addf : (⟨S100000x16, .f32⟩ : BufTy).Contents (Elt F) → (⟨S100000x16, .f32⟩ : BufTy).Contents (Elt F) → (⟨S100000x16, .f32⟩ : BufTy).Contents (Elt F)) ]

/-- @elu's fifteen operations. -/
abbrev s2 : List (HloOp τ sig (Elt F)) :=
  [ TRef.nullary main_call0.cst (constant S_ .f32 0x00000000#32),
    TRef.unary main_call0.cst main_call0.v0 (broadcastInDim S100000x16 ![] bcast_S_S100000x16),
    TRef.binary (.of main_v50 : TRef sig ⟨S100000x16, .f32⟩) main_call0.v0 main_call0.v1 (cmpf .ogt),
    TRef.nullary main_call0.cst_0 (constant S_ .f32 0x00000000#32),
    TRef.unary main_call0.cst_0 main_call0.v2 (broadcastInDim S100000x16 ![] bcast_S_S100000x16),
    TRef.binary (.of main_v50 : TRef sig ⟨S100000x16, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x16 ![] bcast_S_S100000x16),
    TRef.ternary main_call0.v3 main_call0.call0.v1 (.of main_v50 : TRef sig ⟨S100000x16, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x16 ![] bcast_S_S100000x16),
    TRef.binary main_call0.v6 main_call0.v5 main_call0.v7 mulf,
    TRef.ternary main_call0.v1 (.of main_v50 : TRef sig ⟨S100000x16, .f32⟩) main_call0.v7 main_call0.call1.v0 select ]

/-- The second window's fifty-two operations: layer 2 up to the sum before the log-softmax. -/
abbrev s3 : List (HloOp τ sig (Elt F)) :=
  [ unary main_arg6 main_v52 ((extractStridedSlice S1x16x40 ![0, 0, 0] · slices_S2x16x40_S1x16x40_0_0_0) : (⟨S2x16x40, .f32⟩ : BufTy).Contents (Elt F) → (⟨S1x16x40, .f32⟩ : BufTy).Contents (Elt F)),
    reshape main_v52 main_v53 rfl shapeCasts_S1x16x40_S16x40,
    binary main_v51 main_v53 main_v54 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    unary main_arg6 main_v55 ((extractStridedSlice S1x16x40 ![1, 0, 0] · slices_S2x16x40_S1x16x40_1_0_0) : (⟨S2x16x40, .f32⟩ : BufTy).Contents (Elt F) → (⟨S1x16x40, .f32⟩ : BufTy).Contents (Elt F)),
    reshape main_v55 main_v56 rfl shapeCasts_S1x16x40_S16x40,
    binary main_v51 main_v56 main_v57 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    unary main_v6 main_v58 (broadcastInDim S3200000x1 ![0] bcast_S3200000_S3200000x1_0 : (⟨S3200000, .f32⟩ : BufTy).Contents (Elt F) → (⟨S3200000x1, .f32⟩ : BufTy).Contents (Elt F)),
    nullary main_c_7 (constantI S_ 32 0#32),
    unary main_c_7 main_v59 (broadcastInDim S3200000 ![] bcast_S_S3200000 : (⟨S_, .i32⟩ : BufTy).Contents (Elt F) → (⟨S3200000, .i32⟩ : BufTy).Contents (Elt F)),
    binary main_v1 main_v59 main_v60 (cmpi .slt : (⟨S3200000, .i32⟩ : BufTy).Contents (Elt F) → (⟨S3200000, .i32⟩ : BufTy).Contents (Elt F) → (⟨S3200000, .i1⟩ : BufTy).Contents (Elt F)),
    nullary main_c_8 (constantI S_ 32 100000#32),
    unary main_c_8 main_v61 (broadcastInDim S3200000 ![] bcast_S_S3200000 : (⟨S_, .i32⟩ : BufTy).Contents (Elt F) → (⟨S3200000, .i32⟩ : BufTy).Contents (Elt F)),
    binary main_v1 main_v61 main_v62 (addi : (⟨S3200000, .i32⟩ : BufTy).Contents (Elt F) → (⟨S3200000, .i32⟩ : BufTy).Contents (Elt F) → (⟨S3200000, .i32⟩ : BufTy).Contents (Elt F)),
    ternary main_v60 main_v62 main_v1 main_v63 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v63 main_v64 (broadcastInDim S3200000x1 ![0] bcast_S3200000_S3200000x1_0 : (⟨S3200000, .i32⟩ : BufTy).Contents (Elt F) → (⟨S3200000x1, .i32⟩ : BufTy).Contents (Elt F)),
    binary main_v54 main_v64 main_v65 ((fun x i => Host.gather gather_S100000x40_S3200000x1_S3200000x40_1_0_n_n_0_1_140 x i) : (⟨S100000x40, .f32⟩ : BufTy).Contents (Elt F) → (⟨S3200000x1, .i32⟩ : BufTy).Contents (Elt F) → (⟨S3200000x40, .f32⟩ : BufTy).Contents (Elt F)),
    unary main_v58 main_v66 (broadcastInDim S3200000x40 ![0, 1] bcast_S3200000x1_S3200000x40_0_1 : (⟨S3200000x1, .f32⟩ : BufTy).Contents (Elt F) → (⟨S3200000x40, .f32⟩ : BufTy).Contents (Elt F)),
    binary main_v66 main_v65 main_v67 (mulf : (⟨S3200000x40, .f32⟩ : BufTy).Contents (Elt F) → (⟨S3200000x40, .f32⟩ : BufTy).Contents (Elt F) → (⟨S3200000x40, .f32⟩ : BufTy).Contents (Elt F)),
    unary main_v4 main_v68 (broadcastInDim S3200000x1 ![0] bcast_S3200000_S3200000x1_0 : (⟨S3200000, .f32⟩ : BufTy).Contents (Elt F) → (⟨S3200000x1, .f32⟩ : BufTy).Contents (Elt F)),
    nullary main_c_9 (constantI S_ 32 0#32),
    unary main_c_9 main_v69 (broadcastInDim S3200000 ![] bcast_S_S3200000 : (⟨S_, .i32⟩ : BufTy).Contents (Elt F) → (⟨S3200000, .i32⟩ : BufTy).Contents (Elt F)),
    binary main_v1 main_v69 main_v70 (cmpi .slt : (⟨S3200000, .i32⟩ : BufTy).Contents (Elt F) → (⟨S3200000, .i32⟩ : BufTy).Contents (Elt F) → (⟨S3200000, .i1⟩ : BufTy).Contents (Elt F)),
    nullary main_c_10 (constantI S_ 32 100000#32),
    unary main_c_10 main_v71 (broadcastInDim S3200000 ![] bcast_S_S3200000 : (⟨S_, .i32⟩ : BufTy).Contents (Elt F) → (⟨S3200000, .i32⟩ : BufTy).Contents (Elt F)),
    binary main_v1 main_v71 main_v72 (addi : (⟨S3200000, .i32⟩ : BufTy).Contents (Elt F) → (⟨S3200000, .i32⟩ : BufTy).Contents (Elt F) → (⟨S3200000, .i32⟩ : BufTy).Contents (Elt F)),
    ternary main_v70 main_v72 main_v1 main_v73 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v73 main_v74 (broadcastInDim S3200000x1 ![0] bcast_S3200000_S3200000x1_0 : (⟨S3200000, .i32⟩ : BufTy).Contents (Elt F) → (⟨S3200000x1, .i32⟩ : BufTy).Contents (Elt F)),
    binary main_v57 main_v74 main_v75 ((fun x i => Host.gather gather_S100000x40_S3200000x1_S3200000x40_1_0_n_n_0_1_140 x i) : (⟨S100000x40, .f32⟩ : BufTy).Contents (Elt F) → (⟨S3200000x1, .i32⟩ : BufTy).Contents (Elt F) → (⟨S3200000x40, .f32⟩ : BufTy).Contents (Elt F)),
    unary main_v68 main_v76 (broadcastInDim S3200000x40 ![0, 1] bcast_S3200000x1_S3200000x40_0_1 : (⟨S3200000x1, .f32⟩ : BufTy).Contents (Elt F) → (⟨S3200000x40, .f32⟩ : BufTy).Contents (Elt F)),
    binary main_v76 main_v75 main_v77 (mulf : (⟨S3200000x40, .f32⟩ : BufTy).Contents (Elt F) → (⟨S3200000x40, .f32⟩ : BufTy).Contents (Elt F) → (⟨S3200000x40, .f32⟩ : BufTy).Contents (Elt F)),
    binary main_v67 main_v77 main_v78 (addf : (⟨S3200000x40, .f32⟩ : BufTy).Contents (Elt F) → (⟨S3200000x40, .f32⟩ : BufTy).Contents (Elt F) → (⟨S3200000x40, .f32⟩ : BufTy).Contents (Elt F)),
    nullary main_cst_11 (constant S_ .f32 0x00000000#32),
    unary main_cst_11 main_v79 (broadcastInDim S100000x40 ![] bcast_S_S100000x40 : (⟨S_, .f32⟩ : BufTy).Contents (Elt F) → (⟨S100000x40, .f32⟩ : BufTy).Contents (Elt F)),
    unary main_v3 main_v80 (broadcastInDim S3200000x1 ![0] bcast_S3200000_S3200000x1_0 : (⟨S3200000, .i32⟩ : BufTy).Contents (Elt F) → (⟨S3200000x1, .i32⟩ : BufTy).Contents (Elt F)),
    ternary main_v79 main_v80 main_v78 main_v81 ((fun x i u => Host.scatterAdd scatter_S100000x40_S3200000x1_S3200000x40_1_0_0_1 x i u) : (⟨S100000x40, .f32⟩ : BufTy).Contents (Elt F) → (⟨S3200000x1, .i32⟩ : BufTy).Contents (Elt F) → (⟨S3200000x40, .f32⟩ : BufTy).Contents (Elt F) → (⟨S100000x40, .f32⟩ : BufTy).Contents (Elt F)),
    nullary main_cst_12 (constant S_ .f32 0x3F800000#32),
    unary main_cst_12 main_v82 (broadcastInDim S3200000 ![] bcast_S_S3200000 : (⟨S_, .f32⟩ : BufTy).Contents (Elt F) → (⟨S3200000, .f32⟩ : BufTy).Contents (Elt F)),
    nullary main_cst_13 (constant S_ .f32 0x00000000#32),
    unary main_cst_13 main_v83 (broadcastInDim S100000 ![] bcast_S_S100000 : (⟨S_, .f32⟩ : BufTy).Contents (Elt F) → (⟨S100000, .f32⟩ : BufTy).Contents (Elt F)),
    unary main_v3 main_v84 (broadcastInDim S3200000x1 ![0] bcast_S3200000_S3200000x1_0 : (⟨S3200000, .i32⟩ : BufTy).Contents (Elt F) → (⟨S3200000x1, .i32⟩ : BufTy).Contents (Elt F)),
    ternary main_v83 main_v84 main_v82 main_v85 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_14 (constant S_ .f32 0x3F800000#32),
    unary main_cst_14 main_v86 (broadcastInDim S100000 ![] bcast_S_S100000 : (⟨S_, .f32⟩ : BufTy).Contents (Elt F) → (⟨S100000, .f32⟩ : BufTy).Contents (Elt F)),
    binary main_v85 main_v86 main_v87 (maximumf : (⟨S100000, .f32⟩ : BufTy).Contents (Elt F) → (⟨S100000, .f32⟩ : BufTy).Contents (Elt F) → (⟨S100000, .f32⟩ : BufTy).Contents (Elt F)),
    unary main_v87 main_v88 (broadcastInDim S100000x1 ![0] bcast_S100000_S100000x1_0 : (⟨S100000, .f32⟩ : BufTy).Contents (Elt F) → (⟨S100000x1, .f32⟩ : BufTy).Contents (Elt F)),
    unary main_v88 main_v89 (broadcastInDim S100000x40 ![0, 1] bcast_S100000x1_S100000x40_0_1 : (⟨S100000x1, .f32⟩ : BufTy).Contents (Elt F) → (⟨S100000x40, .f32⟩ : BufTy).Contents (Elt F)),
    binary main_v81 main_v89 main_v90 (Host.divf : (⟨S100000x40, .f32⟩ : BufTy).Contents (Elt F) → (⟨S100000x40, .f32⟩ : BufTy).Contents (Elt F) → (⟨S100000x40, .f32⟩ : BufTy).Contents (Elt F)),
    binary main_v51 main_arg7 main_v91 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    binary main_v90 main_v91 main_v92 (addf : (⟨S100000x40, .f32⟩ : BufTy).Contents (Elt F) → (⟨S100000x40, .f32⟩ : BufTy).Contents (Elt F) → (⟨S100000x40, .f32⟩ : BufTy).Contents (Elt F)),
    unary main_arg8 main_v93 (broadcastInDim S1x40 ![1] bcast_S40_S1x40_1 : (⟨S40, .f32⟩ : BufTy).Contents (Elt F) → (⟨S1x40, .f32⟩ : BufTy).Contents (Elt F)),
    unary main_v93 main_v94 (broadcastInDim S100000x40 ![0, 1] bcast_S1x40_S100000x40_0_1 : (⟨S1x40, .f32⟩ : BufTy).Contents (Elt F) → (⟨S100000x40, .f32⟩ : BufTy).Contents (Elt F)),
    binary main_v92 main_v94 main_v95 (addf : (⟨S100000x40, .f32⟩ : BufTy).Contents (Elt F) → (⟨S100000x40, .f32⟩ : BufTy).Contents (Elt F) → (⟨S100000x40, .f32⟩ : BufTy).Contents (Elt F)) ]

/-- @log_softmax's first eight operations: the rows shifted by their maximum. -/
abbrev s4a : List (HloOp τ sig (Elt F)) :=
  [ TRef.nullary main_call1.cst (constant S_ .f32 0xFF800000#32),
    TRef.binary (.of main_v95 : TRef sig ⟨S100000x40, .f32⟩) main_call1.cst main_call1.v0 (fun x v => Host.reduce FloatOps.maximumf x v reducesTo_S100000x40_S100000_d1 h_S_),
    TRef.nullary main_call1.cst_0 (constant S_ .f32 0xFF800000#32),
    TRef.unary main_call1.cst_0 main_call1.v1 (broadcastInDim S100000 ![] bcast_S_S100000),
    TRef.binary main_call1.v1 main_call1.v0 main_call1.v2 maximumf,
    TRef.unary main_call1.v2 main_call1.v3 (broadcastInDim S100000x1 ![0] bcast_S100000_S100000x1_0),
    TRef.unary main_call1.v3 main_call1.v4 (broadcastInDim S100000x40 ![0, 1] bcast_S100000x1_S100000x40_0_1),
    TRef.binary (.of main_v95 : TRef sig ⟨S100000x40, .f32⟩) main_call1.v4 main_call1.v5 subf ]

/-- @log_softmax's last seven operations: the log of the row sums of exponentials subtracted. -/
abbrev s4b : List (HloOp τ sig (Elt F)) :=
  [ TRef.unary main_call1.v5 main_call1.v6 Host.exp,
    TRef.nullary main_call1.cst_1 (constant S_ .f32 0x00000000#32),
    TRef.binary main_call1.v6 main_call1.cst_1 main_call1.v7 (fun x v => Host.reduceAdd x v reducesTo_S100000x40_S100000_d1 h_S_),
    TRef.unary main_call1.v7 main_call1.v8 (broadcastInDim S100000x1 ![0] bcast_S100000_S100000x1_0),
    TRef.unary main_call1.v8 main_call1.v9 Host.log,
    TRef.unary main_call1.v9 main_call1.v10 (broadcastInDim S100000x40 ![0, 1] bcast_S100000x1_S100000x40_0_1),
    TRef.binary main_call1.v5 main_call1.v10 main_call1.v11 subf ]

/-- The line is its five stages in order. -/
theorem ops_split : (ops : List (HloOp τ sig (Elt F))) = s1 ++ s2 ++ s3 ++ s4a ++ s4b := rfl

/-- Two lines folded one after the other are their concatenation folded as one. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Layer 1's sum before the activation: neighbour mean, root term, bias row. -/
def z1 (x : FVec F S100000x128 .f32) (ei : IVec S2x3200000 32) (ea : FVec F S3200000x1 .f32)
    (w1 : FVec F S2x128x16 .f32) (r1 : FVec F S128x16 .f32) (bb1 : FVec F S16 .f32) : FVec F S100000x16 .f32 :=
  addf (addf (Val.m1 x ei ea w1) (Host.dotGeneral dot_S100000x128_S128x16_S100000x16_1_0_0_1_n_n none x r1))
    (broadcastInDim S100000x16 ![0, 1] bcast_S1x16_S100000x16_0_1 (broadcastInDim S1x16 ![1] bcast_S16_S1x16_1 bb1))

/-- Layer 2's sum before the log-softmax, of the hidden layer `h`, the edges' sources `s` and destinations `d`,
    the weights `u` and `om` = 1 − u, and layer 2's parameters. -/
def z2 (h : FVec F S100000x16 .f32) (s d : IVec S3200000 32) (u om : FVec F S3200000 .f32)
    (w2 : FVec F S2x16x40 .f32) (r2 : FVec F S16x40 .f32) (bb2 : FVec F S40 .f32) : FVec F S100000x40 .f32 :=
  addf (addf
      (Val.mean40
        (Host.gather gather_S100000x40_S3200000x1_S3200000x40_1_0_n_n_0_1_140
          (Host.dotGeneral dot_S100000x16_S16x40_S100000x40_1_0_0_1_n_n none h (Val.w2k0 w2)) (Val.idxCol s))
        (Host.gather gather_S100000x40_S3200000x1_S3200000x40_1_0_n_n_0_1_140
          (Host.dotGeneral dot_S100000x16_S16x40_S100000x40_1_0_0_1_n_n none h (Val.w2k1 w2)) (Val.idxCol s))
        (broadcastInDim S3200000x1 ![0] bcast_S3200000_S3200000x1_0 om)
        (broadcastInDim S3200000x1 ![0] bcast_S3200000_S3200000x1_0 u) d (Val.cntCol d))
      (Host.dotGeneral dot_S100000x16_S16x40_S100000x40_1_0_0_1_n_n none h r2))
    (broadcastInDim S100000x40 ![0, 1] bcast_S1x40_S100000x40_0_1 (broadcastInDim S1x40 ![1] bcast_S40_S1x40_1 bb2))

/-- The rows shifted by their maximum (taken from −∞): the log-softmax's first half. -/
def lsmShift (z : FVec F S100000x40 .f32) : FVec F S100000x40 .f32 :=
  subf z (broadcastInDim S100000x40 ![0, 1] bcast_S100000x1_S100000x40_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x40_S100000_d1 h_S_))))

/-! ### Stage 1: layer 1 up to the activation's argument, and what layer 2 reads of it -/

attribute [local irreducible] Host.reduce Host.reduceAdd Host.gather Host.scatterAdd select cmpf cmpi mulf addf subf addi maximumf broadcastInDim constant constantI shapeCast extractStridedSlice Host.expm1 Host.exp Host.log Host.divf in
set_option maxRecDepth 16384 in
set_option maxHeartbeats 2000000 in
theorem s1_v50 (V : Valuation τ sig (Elt F)) :
    after s1 V (main_v50 : DevRef τ sig) = z1 (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp
  rfl

attribute [local irreducible] Host.reduce Host.reduceAdd Host.gather Host.scatterAdd select cmpf cmpi mulf addf subf addi maximumf broadcastInDim constant constantI shapeCast extractStridedSlice Host.expm1 Host.exp Host.log Host.divf in
set_option maxRecDepth 16384 in
set_option maxHeartbeats 400000 in
theorem s1_v1 (V : Valuation τ sig (Elt F)) :
    after s1 V (main_v1 : DevRef τ sig) = Val.srcOf (V (main_arg1 : DevRef τ sig)) := by
  after_results_simp
  rfl

attribute [local irreducible] Host.reduce Host.reduceAdd Host.gather Host.scatterAdd select cmpf cmpi mulf addf subf addi maximumf broadcastInDim constant constantI shapeCast extractStridedSlice Host.expm1 Host.exp Host.log Host.divf in
set_option maxRecDepth 16384 in
set_option maxHeartbeats 400000 in
theorem s1_v3 (V : Valuation τ sig (Elt F)) :
    after s1 V (main_v3 : DevRef τ sig) = Val.dstOf (V (main_arg1 : DevRef τ sig)) := by
  after_results_simp
  rfl

attribute [local irreducible] Host.reduce Host.reduceAdd Host.gather Host.scatterAdd select cmpf cmpi mulf addf subf addi maximumf broadcastInDim constant constantI shapeCast extractStridedSlice Host.expm1 Host.exp Host.log Host.divf in
set_option maxRecDepth 16384 in
set_option maxHeartbeats 400000 in
theorem s1_v4 (V : Valuation τ sig (Elt F)) :
    after s1 V (main_v4 : DevRef τ sig) = Val.uOf (V (main_arg2 : DevRef τ sig)) := by
  after_results_simp
  rfl

attribute [local irreducible] Host.reduce Host.reduceAdd Host.gather Host.scatterAdd select cmpf cmpi mulf addf subf addi maximumf broadcastInDim constant constantI shapeCast extractStridedSlice Host.expm1 Host.exp Host.log Host.divf in
set_option maxRecDepth 16384 in
set_option maxHeartbeats 400000 in
theorem s1_v6 (V : Valuation τ sig (Elt F)) :
    after s1 V (main_v6 : DevRef τ sig) = subf (broadcastInDim S3200000 ![] bcast_S_S3200000 (constant S_ .f32 0x3F800000#32)) (Val.uOf (V (main_arg2 : DevRef τ sig))) := by
  after_results_simp
  rfl

set_option maxRecDepth 8192 in
theorem s1_arg6 (V : Valuation τ sig (Elt F)) :
    after s1 V (main_arg6 : DevRef τ sig) = (V (main_arg6 : DevRef τ sig)) := by
  after_results_simp

set_option maxRecDepth 8192 in
theorem s1_arg7 (V : Valuation τ sig (Elt F)) :
    after s1 V (main_arg7 : DevRef τ sig) = (V (main_arg7 : DevRef τ sig)) := by
  after_results_simp

set_option maxRecDepth 8192 in
theorem s1_arg8 (V : Valuation τ sig (Elt F)) :
    after s1 V (main_arg8 : DevRef τ sig) = (V (main_arg8 : DevRef τ sig)) := by
  after_results_simp

/-! ### Stage 2: the activation -/

attribute [local irreducible] Host.reduce Host.reduceAdd Host.gather Host.scatterAdd select cmpf cmpi mulf addf subf addi maximumf broadcastInDim constant constantI shapeCast extractStridedSlice Host.expm1 Host.exp Host.log Host.divf in
set_option maxRecDepth 16384 in
set_option maxHeartbeats 400000 in
theorem s2_v51 (V : Valuation τ sig (Elt F)) :
    after s2 V (main_v51 : DevRef τ sig) = Cert.Spec.elu (V (main_v50 : DevRef τ sig)) := by
  after_results_simp
  simp only [TRef.toBuf, TRef.ofBuf, cast_eq]
  rfl

set_option maxRecDepth 8192 in
theorem s2_v1 (V : Valuation τ sig (Elt F)) :
    after s2 V (main_v1 : DevRef τ sig) = (V (main_v1 : DevRef τ sig)) := by
  after_results_simp

set_option maxRecDepth 8192 in
theorem s2_v3 (V : Valuation τ sig (Elt F)) :
    after s2 V (main_v3 : DevRef τ sig) = (V (main_v3 : DevRef τ sig)) := by
  after_results_simp

set_option maxRecDepth 8192 in
theorem s2_v4 (V : Valuation τ sig (Elt F)) :
    after s2 V (main_v4 : DevRef τ sig) = (V (main_v4 : DevRef τ sig)) := by
  after_results_simp

set_option maxRecDepth 8192 in
theorem s2_v6 (V : Valuation τ sig (Elt F)) :
    after s2 V (main_v6 : DevRef τ sig) = (V (main_v6 : DevRef τ sig)) := by
  after_results_simp

set_option maxRecDepth 8192 in
theorem s2_arg6 (V : Valuation τ sig (Elt F)) :
    after s2 V (main_arg6 : DevRef τ sig) = (V (main_arg6 : DevRef τ sig)) := by
  after_results_simp

set_option maxRecDepth 8192 in
theorem s2_arg7 (V : Valuation τ sig (Elt F)) :
    after s2 V (main_arg7 : DevRef τ sig) = (V (main_arg7 : DevRef τ sig)) := by
  after_results_simp

set_option maxRecDepth 8192 in
theorem s2_arg8 (V : Valuation τ sig (Elt F)) :
    after s2 V (main_arg8 : DevRef τ sig) = (V (main_arg8 : DevRef τ sig)) := by
  after_results_simp

/-! ### Stage 3: layer 2 up to the log-softmax's argument -/

attribute [local irreducible] Host.reduce Host.reduceAdd Host.gather Host.scatterAdd select cmpf cmpi mulf addf subf addi maximumf broadcastInDim constant constantI shapeCast extractStridedSlice Host.expm1 Host.exp Host.log Host.divf in
set_option maxRecDepth 16384 in
set_option maxHeartbeats 2000000 in
theorem s3_v95 (V : Valuation τ sig (Elt F)) :
    after s3 V (main_v95 : DevRef τ sig) = z2 (V (main_v51 : DevRef τ sig)) (V (main_v1 : DevRef τ sig)) (V (main_v3 : DevRef τ sig)) (V (main_v4 : DevRef τ sig)) (V (main_v6 : DevRef τ sig)) (V (main_arg6 : DevRef τ sig)) (V (main_arg7 : DevRef τ sig)) (V (main_arg8 : DevRef τ sig)) := by
  after_results_simp
  rfl

/-! ### Stages 4 and 5: the log-softmax, its row reductions abstracted while the fold is computed -/

/-- @log_softmax's first eight operations, the row reduction a parameter. -/
abbrev s4aOf (g : (⟨S100000x40, .f32⟩ : BufTy).Contents (Elt F) → (⟨S_, .f32⟩ : BufTy).Contents (Elt F) → (⟨S100000, .f32⟩ : BufTy).Contents (Elt F)) : List (HloOp τ sig (Elt F)) :=
  [ TRef.nullary main_call1.cst (constant S_ .f32 0xFF800000#32),
    TRef.binary (.of main_v95 : TRef sig ⟨S100000x40, .f32⟩) main_call1.cst main_call1.v0 g,
    TRef.nullary main_call1.cst_0 (constant S_ .f32 0xFF800000#32),
    TRef.unary main_call1.cst_0 main_call1.v1 (broadcastInDim S100000 ![] bcast_S_S100000),
    TRef.binary main_call1.v1 main_call1.v0 main_call1.v2 maximumf,
    TRef.unary main_call1.v2 main_call1.v3 (broadcastInDim S100000x1 ![0] bcast_S100000_S100000x1_0),
    TRef.unary main_call1.v3 main_call1.v4 (broadcastInDim S100000x40 ![0, 1] bcast_S100000x1_S100000x40_0_1),
    TRef.binary (.of main_v95 : TRef sig ⟨S100000x40, .f32⟩) main_call1.v4 main_call1.v5 subf ]

/-- @log_softmax's last seven operations, the row reduction a parameter. -/
abbrev s4bOf (g : (⟨S100000x40, .f32⟩ : BufTy).Contents (Elt F) → (⟨S_, .f32⟩ : BufTy).Contents (Elt F) → (⟨S100000, .f32⟩ : BufTy).Contents (Elt F)) : List (HloOp τ sig (Elt F)) :=
  [ TRef.unary main_call1.v5 main_call1.v6 Host.exp,
    TRef.nullary main_call1.cst_1 (constant S_ .f32 0x00000000#32),
    TRef.binary main_call1.v6 main_call1.cst_1 main_call1.v7 g,
    TRef.unary main_call1.v7 main_call1.v8 (broadcastInDim S100000x1 ![0] bcast_S100000_S100000x1_0),
    TRef.unary main_call1.v8 main_call1.v9 Host.log,
    TRef.unary main_call1.v9 main_call1.v10 (broadcastInDim S100000x40 ![0, 1] bcast_S100000x1_S100000x40_0_1),
    TRef.binary main_call1.v5 main_call1.v10 main_call1.v11 subf ]

attribute [local irreducible] Host.reduce Host.reduceAdd Host.gather Host.scatterAdd select cmpf cmpi mulf addf subf addi maximumf broadcastInDim constant constantI shapeCast extractStridedSlice Host.expm1 Host.exp Host.log Host.divf in
set_option maxRecDepth 16384 in
set_option maxHeartbeats 400000 in
/-- The first half of the log-softmax whatever the row reduction: the argument less the broadcast of the greater of −∞
    and its rows' reduction. -/
theorem s4aOf_v5 (g : (⟨S100000x40, .f32⟩ : BufTy).Contents (Elt F) → (⟨S_, .f32⟩ : BufTy).Contents (Elt F) → (⟨S100000, .f32⟩ : BufTy).Contents (Elt F)) (V : Valuation τ sig (Elt F)) :
    after (s4aOf g) V (main_call1_v5 : DevRef τ sig)
      = subf (V (main_v95 : DevRef τ sig)) (broadcastInDim S100000x40 ![0, 1] bcast_S100000x1_S100000x40_0_1
          (broadcastInDim S100000x1 ![0] bcast_S100000_S100000x1_0
            (maximumf (broadcastInDim S100000 ![] bcast_S_S100000 (constant S_ .f32 0xFF800000#32))
              (g (V (main_v95 : DevRef τ sig)) (constant S_ .f32 0xFF800000#32))))) := by
  after_results_simp
  simp only [TRef.toBuf, TRef.ofBuf, cast_eq]

attribute [local irreducible] Host.reduce Host.reduceAdd Host.gather Host.scatterAdd select cmpf cmpi mulf addf subf addi maximumf broadcastInDim constant constantI shapeCast extractStridedSlice Host.expm1 Host.exp Host.log Host.divf in
set_option maxRecDepth 16384 in
set_option maxHeartbeats 400000 in
/-- The second half whatever the row reduction: the shifted rows less the broadcast of the log of the reduction of
    their exponentials. -/
theorem s4bOf_v96 (g : (⟨S100000x40, .f32⟩ : BufTy).Contents (Elt F) → (⟨S_, .f32⟩ : BufTy).Contents (Elt F) → (⟨S100000, .f32⟩ : BufTy).Contents (Elt F)) (V : Valuation τ sig (Elt F)) :
    after (s4bOf g) V (main_v96 : DevRef τ sig)
      = subf (V (main_call1_v5 : DevRef τ sig)) (broadcastInDim S100000x40 ![0, 1] bcast_S100000x1_S100000x40_0_1
          (Host.log (broadcastInDim S100000x1 ![0] bcast_S100000_S100000x1_0
            (g (Host.exp (V (main_call1_v5 : DevRef τ sig))) (constant S_ .f32 0x00000000#32))))) := by
  after_results_simp
  simp only [TRef.toBuf, TRef.ofBuf, cast_eq]

/-- The rows shifted by their maximum. -/
theorem s4a_v5 (V : Valuation τ sig (Elt F)) :
    after s4a V (main_call1_v5 : DevRef τ sig) = lsmShift (V (main_v95 : DevRef τ sig)) :=
  s4aOf_v5 (fun x v => Host.reduce FloatOps.maximumf x v reducesTo_S100000x40_S100000_d1 h_S_) V

/-- The log of the row sums of exponentials subtracted. -/
theorem s4b_v96 (V : Valuation τ sig (Elt F)) :
    after s4b V (main_v96 : DevRef τ sig) = subf (V (main_call1_v5 : DevRef τ sig)) (broadcastInDim S100000x40 ![0, 1] bcast_S100000x1_S100000x40_0_1 (Host.log (broadcastInDim S100000x1 ![0] bcast_S100000_S100000x1_0
      (Host.reduceAdd (Host.exp (V (main_call1_v5 : DevRef τ sig))) (constant S_ .f32 0x00000000#32) reducesTo_S100000x40_S100000_d1 h_S_)))) :=
  s4bOf_v96 (fun x v => Host.reduceAdd x v reducesTo_S100000x40_S100000_d1 h_S_) V

/-! ### The fold at the result buffer and at the arguments -/

attribute [local irreducible] Host.reduce Host.reduceAdd Host.gather Host.scatterAdd select cmpf cmpi mulf addf subf addi maximumf broadcastInDim constant constantI shapeCast extractStridedSlice Host.expm1 Host.exp Host.log Host.divf in
set_option maxRecDepth 8192 in
/-- The fold at the result buffer is the value function of the arguments: stage by stage, then the staged functions
    unfolded (the log-softmax, the second layer's mean, the hidden layer, the first layer's mean) are the stages' terms. -/
theorem out_eq (V : Valuation τ sig (Elt F)) :
    after ops V (main_v96 : DevRef τ sig) = Cert.ReferenceIdeal.Val.out (F := F) (V (main_arg0 : DevRef τ sig)) (V (main_arg1 : DevRef τ sig))
        (V (main_arg2 : DevRef τ sig)) (V (main_arg3 : DevRef τ sig)) (V (main_arg4 : DevRef τ sig))
        (V (main_arg5 : DevRef τ sig)) (V (main_arg6 : DevRef τ sig)) (V (main_arg7 : DevRef τ sig))
        (V (main_arg8 : DevRef τ sig)) := by
  rw [ops_split, after_app, after_app, after_app, after_app, s4b_v96, s4a_v5, s3_v95, s2_v51, s2_v1, s2_v3, s2_v4, s2_v6,
    s2_arg6, s2_arg7, s2_arg8, s1_v50, s1_v1, s1_v3, s1_v4, s1_v6, s1_arg6, s1_arg7, s1_arg8]
  rfl

set_option maxRecDepth 8192 in
set_option maxHeartbeats 1000000 in
/-- No operation writes argument 0. -/
theorem arg0_eq (V : Valuation τ sig (Elt F)) :
    after ops V (main_arg0 : DevRef τ sig) = V (main_arg0 : DevRef τ sig) := by
  after_results_simp

set_option maxRecDepth 8192 in
set_option maxHeartbeats 1000000 in
/-- No operation writes argument 1. -/
theorem arg1_eq (V : Valuation τ sig (Elt F)) :
    after ops V (main_arg1 : DevRef τ sig) = V (main_arg1 : DevRef τ sig) := by
  after_results_simp

set_option maxRecDepth 8192 in
set_option maxHeartbeats 1000000 in
/-- No operation writes argument 2. -/
theorem arg2_eq (V : Valuation τ sig (Elt F)) :
    after ops V (main_arg2 : DevRef τ sig) = V (main_arg2 : DevRef τ sig) := by
  after_results_simp

set_option maxRecDepth 8192 in
set_option maxHeartbeats 1000000 in
/-- No operation writes argument 3. -/
theorem arg3_eq (V : Valuation τ sig (Elt F)) :
    after ops V (main_arg3 : DevRef τ sig) = V (main_arg3 : DevRef τ sig) := by
  after_results_simp

set_option maxRecDepth 8192 in
set_option maxHeartbeats 1000000 in
/-- No operation writes argument 4. -/
theorem arg4_eq (V : Valuation τ sig (Elt F)) :
    after ops V (main_arg4 : DevRef τ sig) = V (main_arg4 : DevRef τ sig) := by
  after_results_simp

set_option maxRecDepth 8192 in
set_option maxHeartbeats 1000000 in
/-- No operation writes argument 5. -/
theorem arg5_eq (V : Valuation τ sig (Elt F)) :
    after ops V (main_arg5 : DevRef τ sig) = V (main_arg5 : DevRef τ sig) := by
  after_results_simp

set_option maxRecDepth 8192 in
set_option maxHeartbeats 1000000 in
/-- No operation writes argument 6. -/
theorem arg6_eq (V : Valuation τ sig (Elt F)) :
    after ops V (main_arg6 : DevRef τ sig) = V (main_arg6 : DevRef τ sig) := by
  after_results_simp

set_option maxRecDepth 8192 in
set_option maxHeartbeats 1000000 in
/-- No operation writes argument 7. -/
theorem arg7_eq (V : Valuation τ sig (Elt F)) :
    after ops V (main_arg7 : DevRef τ sig) = V (main_arg7 : DevRef τ sig) := by
  after_results_simp

set_option maxRecDepth 8192 in
set_option maxHeartbeats 1000000 in
/-- No operation writes argument 8. -/
theorem arg8_eq (V : Valuation τ sig (Elt F)) :
    after ops V (main_arg8 : DevRef τ sig) = V (main_arg8 : DevRef τ sig) := by
  after_results_simp

/-- The run's post: the result buffer at the value function of the launch memory's arguments, the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96)
        = Cert.ReferenceIdeal.Val.out (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v96).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _), (h c main_arg6).trans (arg6_eq _),
      (h c main_arg7).trans (arg7_eq _), (h c main_arg8).trans (arg8_eq _)⟩)
    (run_main m ρ)

end Cert.ReferenceIdeal.Run

end
-- ==== Proof.Bridge.lean ====
/-
  Where every source index lies in [0, 100000) the two value functions agree on the extended reals: the
  kernel gathers rows of x·[W0 | W1] and splits them, the reference gathers rows of x·W0 and of x·W1; in range
  the fill never applies, and column j of x·[W0 | W1] is column j of x·W0 for j below the width, column
  j − width of x·W1 above it.  Everything after the gathers is the same operations on both sides.
-/
import proofs.«429878_j43843026157849_3_alg».proof.Proof.KOut
import proofs.«429878_j43843026157849_3_alg».proof.Proof.ROut
import Idealize.ShloMosaic.PureOps.Ideal.Laws
import Idealize.ShloMosaic.Lib.ValueIdx
import Idealize.ShloMosaic.Lib.Pipeline.Value
import Idealize.ShloMosaic.Lib.ReduceAll

noncomputable section

namespace Cert.Bridge

open Idealize.ShloMosaic Idealize.ShloMosaic.ValueIdx

/-! ## A rows-by-columns product read at an index -/

section Product
variable {m K n : Nat} (d : DotDims ⟨2, ![m, K]⟩ ⟨2, ![K, n]⟩ ⟨2, ![m, n]⟩)
  (hlb : d.lhsBatch = []) (hln : d.lhsNonContracting = [0]) (hlc : d.lhsContracting = [1])
  (hrb : d.rhsBatch = []) (hrn : d.rhsNonContracting = [1]) (hrc : d.rhsContracting = [0])
include hlb hln hlc hrb hrn hrc

/-- The contraction runs over one axis. -/
theorem prod_rank : d.contr.rank = 1 := by
  rw [d.rank_contr, hlc]; rfl

/-- That axis has the K positions of the left operand's columns. -/
theorem prod_size : d.contr.size ⟨0, by rw [prod_rank d hlb hln hlc hrb hrn hrc]; exact Nat.one_pos⟩ = K := by
  rw [d.size_contr 0 (by rw [hlc]; exact Nat.one_pos)]
  simp [hlc]

/-- A coordinate of an index does not depend on how its axis number is written. -/
theorem coord_irrel {s : Shape} (j : s.Idx) (a b : Fin s.rank) (h : a.val = b.val) : (j a).val = (j b).val := by
  obtain rfl : a = b := Fin.ext h
  rfl

/-- Left operand, axis 0: the result's row. -/
theorem prod_lhs_row (j : (⟨2, ![m, n]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_irrel d hlb hln hlc hrb hrn hrc j _ _ (by simp [hlb, hln])

/-- Right operand, axis 1: the result's column. -/
theorem prod_rhs_col (j : (⟨2, ![m, n]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_irrel d hlb hln hlc hrb hrn hrc j _ _ (by simp [hlb, hln, hrn])

/-- Entry (p, q) of the product is the sum over k of x(p, k) · w(k, q). -/
theorem prod_apply (x : FVec Ideal ⟨2, ![m, K]⟩ .f32) (w : FVec Ideal ⟨2, ![K, n]⟩ .f32) (p : Fin m) (q : Fin n) :
    Host.dotGeneral (F := Ideal) d none x w (ix2 p q) = ∑ k : Fin K, x (ix2 p k) * w (ix2 k q) := by
  have hr := prod_rank d hlb hln hlc hrb hrn hrc
  have hs := prod_size d hlb hln hlc hrb hrn hrc
  simp only [Host.dotGeneral]
  rw [Ideal.dotGeneral_apply, ← Equiv.sum_comp (contrEquiv1 d K hr hs).symm]
  refine Finset.sum_congr rfl fun k _ => ?_
  have hk := contrEquiv1_symm_val d K hr hs k
  have hl : d.lhsIdx (ix2 p q) ((contrEquiv1 d K hr hs).symm k) = ix2 p k := by
    funext a
    match a with
    | ⟨0, _⟩ => exact Fin.ext (prod_lhs_row d hlb hln hlc hrb hrn hrc _ _)
    | ⟨1, _⟩ => exact Fin.ext ((d.lhsIdx_val_of_single hlc _ _).trans hk)
  have hrr : d.rhsIdx (ix2 p q) ((contrEquiv1 d K hr hs).symm k) = ix2 k q := by
    funext a
    match a with
    | ⟨0, _⟩ => exact Fin.ext ((d.rhsIdx_val_of_single hrc _ _).trans hk)
    | ⟨1, _⟩ => exact Fin.ext (prod_rhs_col d hlb hln hlc hrb hrn hrc _ _)
  rw [hl, hrr]

end Product

/-! ## A row gather read at an index -/

section Rows
variable {α : Type} {N M n m w : Nat}

/-- Rows of an [N, M] table picked by an [n, 1] column of start indices, m columns of each kept from column 0: entry
    (p, q) of the result reads the table at row (start index p, read signed, clamped into the table) and column q. -/
theorem rows_idx (d : GatherDims ⟨2, ![N, M]⟩ ⟨2, ![n, 1]⟩ ⟨2, ![n, m]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (q : Fin m) :
    (d.operandIdx (ix2 p q) idx 0).val = min (idx (ix2 p (0 : Fin 1))).toInt.toNat (N - 1) ∧
    (d.operandIdx (ix2 p q) idx 1).val = q.val := by
  obtain ⟨od, cd, ob, sb, sim, ivd, ss, wf⟩ := d
  simp only at hoff hcoll hob hsim hivd
  subst hoff hcoll hob hsim hivd
  constructor
  · show GatherDims.start _ (ix2 p q) idx 0 + GatherDims.batchCoord _ (ix2 p q) 0 + GatherDims.offCoord _ (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsl : ss 0 = 1 := GatherDims.slice_collapsed ⟨[1], [0], [], sb, [0], 1, ss, wf⟩ 0 (List.mem_singleton.mpr rfl)
    show min (idx _).toInt.toNat (N - ss 0) = _
    rw [hsl]
    congr 3
    congr 1
    funext b
    match b with
    | ⟨0, _⟩ => rfl
    | ⟨1, _⟩ => rfl
  · show GatherDims.start _ (ix2 p q) idx 1 + GatherDims.batchCoord _ (ix2 p q) 1 + GatherDims.offCoord _ (ix2 p q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

end Rows

/-! ## The two kinds of dimension numbers met here, as facts -/

/-- Rows times columns: the left operand's axis 1 against the right operand's axis 0, nothing batched. -/
structure Plain {m K n : Nat} (d : DotDims ⟨2, ![m, K]⟩ ⟨2, ![K, n]⟩ ⟨2, ![m, n]⟩) : Prop where
  lb : d.lhsBatch = []
  ln : d.lhsNonContracting = [0]
  lc : d.lhsContracting = [1]
  rb : d.rhsBatch = []
  rn : d.rhsNonContracting = [1]
  rc : d.rhsContracting = [0]

/-- Whole rows of a table picked by a column of start indices. -/
structure TakesRows {N M n m : Nat} (d : GatherDims ⟨2, ![N, M]⟩ ⟨2, ![n, 1]⟩ ⟨2, ![n, m]⟩) : Prop where
  off : d.offsetDims = [1]
  coll : d.collapsedSliceDims = [0]
  ob : d.operandBatchingDims = []
  sim : d.startIndexMap = [0]
  ivd : d.indexVectorDim = 1

theorem Plain.apply {m K n : Nat} {d : DotDims ⟨2, ![m, K]⟩ ⟨2, ![K, n]⟩ ⟨2, ![m, n]⟩} (h : Plain d)
    (x : FVec Ideal ⟨2, ![m, K]⟩ .f32) (w : FVec Ideal ⟨2, ![K, n]⟩ .f32) (p : Fin m) (q : Fin n) :
    Host.dotGeneral (F := Ideal) d none x w (ix2 p q) = ∑ k : Fin K, x (ix2 p k) * w (ix2 k q) :=
  prod_apply d h.lb h.ln h.lc h.rb h.rn h.rc x w p q

/-- The row a start index names: read signed, clamped into the table. -/
theorem TakesRows.row_lt {N M n m w : Nat} {d : GatherDims ⟨2, ![N, M]⟩ ⟨2, ![n, 1]⟩ ⟨2, ![n, m]⟩} (h : TakesRows d)
    (idx : IVec ⟨2, ![n, 1]⟩ w) (p : Fin n) (q : Fin m) : min (idx (ix2 p (0 : Fin 1))).toInt.toNat (N - 1) < N := by
  have hlt := idx2_lt0 (d.operandIdx (ix2 p q) idx)
  rw [(rows_idx d h.off h.coll h.ob h.sim h.ivd idx p q).1] at hlt
  exact hlt

/-- The gather at (p, q): the table at (that row, q). -/
theorem TakesRows.apply {α : Type} {N M n m w : Nat} {d : GatherDims ⟨2, ![N, M]⟩ ⟨2, ![n, 1]⟩ ⟨2, ![n, m]⟩} (h : TakesRows d)
    (y : (⟨2, ![N, M]⟩ : Shape).Idx → α) (idx : IVec ⟨2, ![n, 1]⟩ w) (p : Fin n) (q : Fin m) (r : Fin N) (c : Fin M)
    (hr : r.val = min (idx (ix2 p (0 : Fin 1))).toInt.toNat (N - 1)) (hc : c.val = q.val) :
    Host.gather d y idx (ix2 p q) = y (ix2 r c) := by
  unfold Host.gather
  congr 1
  funext a
  have hi := rows_idx d h.off h.coll h.ob h.sim h.ivd idx p q
  match a with
  | ⟨0, _⟩ => exact Fin.ext (hi.1.trans hr.symm)
  | ⟨1, _⟩ => exact Fin.ext (hi.2.trans hc.symm)

/-! ## An "and" over ones -/

theorem foldl_andi_ones {ι : Type} (f : ι → BitVec 1) :
    ∀ l : List ι, (∀ i ∈ l, f i = 1#1) → l.foldl (fun r i => IntOp.andi r (f i)) 1#1 = 1#1
  | [], _ => rfl
  | a :: l, h => by
    have h11 : IntOp.andi 1#1 1#1 = 1#1 := by decide
    rw [List.foldl_cons, h a List.mem_cons_self, h11]
    exact foldl_andi_ones f l fun i hi => h i (List.mem_cons_of_mem _ hi)

/-- An "and" reduction from 1 over an array of ones is 1 everywhere. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl, hinit]
  exact foldl_andi_ones x _ fun i _ => hx i

/-! ## Column blocks of gathered rows of x · [A | B] -/

section Blocks
variable {N K n₁ n₂ nn E w : Nat}
  {g : GatherDims ⟨2, ![N, nn]⟩ ⟨2, ![E, 1]⟩ ⟨2, ![E, nn]⟩} (hg : TakesRows g)
  {dd : DotDims ⟨2, ![N, K]⟩ ⟨2, ![K, nn]⟩ ⟨2, ![N, nn]⟩} (hdd : Plain dd)
  (hcat : Shape.Concatenates [⟨2, ![K, n₁]⟩, ⟨2, ![K, n₂]⟩] ⟨2, ![K, nn]⟩ 1)
  (x : FVec Ideal ⟨2, ![N, K]⟩ .f32) (A : FVec Ideal ⟨2, ![K, n₁]⟩ .f32) (B : FVec Ideal ⟨2, ![K, n₂]⟩ .f32)
  (idx : IVec ⟨2, ![E, 1]⟩ w)
include hg hdd

/-- Columns [0, n₁) of the gathered rows of x · [A | B] are the gathered rows of x · A. -/
theorem block_left {g₁ : GatherDims ⟨2, ![N, n₁]⟩ ⟨2, ![E, 1]⟩ ⟨2, ![E, n₁]⟩} (hg₁ : TakesRows g₁)
    {d₁ : DotDims ⟨2, ![N, K]⟩ ⟨2, ![K, n₁]⟩ ⟨2, ![N, n₁]⟩} (hd₁ : Plain d₁)
    (hsl : (⟨2, ![E, nn]⟩ : Shape).Slices ![0, 0] ⟨2, ![E, n₁]⟩) :
    extractStridedSlice ⟨2, ![E, n₁]⟩ ![0, 0]
        (Host.gather g (Host.dotGeneral (F := Ideal) dd none x
          (concatenate ⟨2, ![K, nn]⟩ 1 [⟨⟨2, ![K, n₁]⟩, A⟩, ⟨⟨2, ![K, n₂]⟩, B⟩] hcat)) idx) hsl
      = Host.gather g₁ (Host.dotGeneral (F := Ideal) d₁ none x A) idx := by
  funext j
  obtain ⟨p, q, rfl⟩ : ∃ (p : Fin E) (q : Fin n₁), j = ix2 p q := ⟨j 0, j 1, eq_ix2 j⟩
  have hq : q.val < nn := by
    have := hsl.2 1
    have h1 : (![0, 0] : Fin 2 → Nat) 1 + n₁ ≤ nn := this
    have h0 : (![0, 0] : Fin 2 → Nat) 1 = 0 := rfl
    have := q.isLt
    omega
  have hrow := hg₁.row_lt idx p q
  rw [extractStridedSlice_apply ![0, 0] _ hsl (ix2 p q) (ix2 p ⟨q.val, hq⟩) (fun a => by
    match a with
    | ⟨0, _⟩ => exact (Nat.zero_add _).symm
    | ⟨1, _⟩ => exact (Nat.zero_add _).symm)]
  rw [hg.apply _ idx p ⟨q.val, hq⟩ ⟨_, hrow⟩ ⟨q.val, hq⟩ rfl rfl, hg₁.apply _ idx p q ⟨_, hrow⟩ q rfl rfl,
    hdd.apply, hd₁.apply]
  refine Finset.sum_congr rfl fun k _ => ?_
  congr 1
  exact concatenate_pair_apply_left 1 A B hcat (ix2 k ⟨q.val, hq⟩) rfl (ix2 k q) (fun b => by
    match b with
    | ⟨0, _⟩ => rfl
    | ⟨1, _⟩ => rfl)

/-- Columns [n₁, n₁ + n₂) of the gathered rows of x · [A | B] are the gathered rows of x · B. -/
theorem block_right {g₂ : GatherDims ⟨2, ![N, n₂]⟩ ⟨2, ![E, 1]⟩ ⟨2, ![E, n₂]⟩} (hg₂ : TakesRows g₂)
    {d₂ : DotDims ⟨2, ![N, K]⟩ ⟨2, ![K, n₂]⟩ ⟨2, ![N, n₂]⟩} (hd₂ : Plain d₂)
    (hsl : (⟨2, ![E, nn]⟩ : Shape).Slices ![0, n₁] ⟨2, ![E, n₂]⟩) :
    extractStridedSlice ⟨2, ![E, n₂]⟩ ![0, n₁]
        (Host.gather g (Host.dotGeneral (F := Ideal) dd none x
          (concatenate ⟨2, ![K, nn]⟩ 1 [⟨⟨2, ![K, n₁]⟩, A⟩, ⟨⟨2, ![K, n₂]⟩, B⟩] hcat)) idx) hsl
      = Host.gather g₂ (Host.dotGeneral (F := Ideal) d₂ none x B) idx := by
  funext j
  obtain ⟨p, q, rfl⟩ : ∃ (p : Fin E) (q : Fin n₂), j = ix2 p q := ⟨j 0, j 1, eq_ix2 j⟩
  have hq : n₁ + q.val < nn := by
    have := hsl.2 1
    have h1 : (![0, n₁] : Fin 2 → Nat) 1 + n₂ ≤ nn := this
    have h0 : (![0, n₁] : Fin 2 → Nat) 1 = n₁ := rfl
    have := q.isLt
    omega
  have hrow := hg₂.row_lt idx p q
  rw [extractStridedSlice_apply ![0, n₁] _ hsl (ix2 p q) (ix2 p ⟨n₁ + q.val, hq⟩) (fun a => by
    match a with
    | ⟨0, _⟩ => exact (Nat.zero_add _).symm
    | ⟨1, _⟩ => rfl)]
  rw [hg.apply _ idx p ⟨n₁ + q.val, hq⟩ ⟨_, hrow⟩ ⟨n₁ + q.val, hq⟩ rfl rfl, hg₂.apply _ idx p q ⟨_, hrow⟩ q rfl rfl,
    hdd.apply, hd₂.apply]
  refine Finset.sum_congr rfl fun k _ => ?_
  congr 1
  exact concatenate_pair_apply_right 1 A B hcat (ix2 k ⟨n₁ + q.val, hq⟩) rfl rfl (ix2 k q) (fun b hb => by
    match b, hb with
    | ⟨0, _⟩, _ => rfl
    | ⟨1, _⟩, hb => exact absurd rfl hb) (Nat.add_comm _ _)

end Blocks

/-! ## In range the fill never applies -/

/-- A broadcast of an array of ones is ones. -/
theorem bcast_ones {s t : Shape} (dims : Fin s.rank → Fin t.rank) (h : s.BroadcastsInDim t dims) (c : IVec s 1)
    (hc : ∀ e, c e = 1#1) : broadcastInDim t dims h c = fun _ => 1#1 := by
  funext j
  exact hc _

section Range
open Cert.KernelIdeal Cert.KernelIdeal.Val Cert.KernelIdeal.Facts₀ Cert.KernelIdeal.Facts

variable (s : IVec S3200000 32) (hs : ∀ e : S3200000.Idx, 0 ≤ (s e).toInt ∧ (s e).toInt < 100000)
include hs

/-- A non-negative index is not counted from the end. -/
theorem wrapIdx_eq : wrapIdx s = s := by
  funext e
  have hlt : ¬ IntOp.cmpi .slt (s e) 0#32 = 1#1 := by
    rw [IntOp.cmpi_slt]
    have h0 : (0#32 : BitVec 32).toInt = 0 := by decide
    rw [h0]
    exact not_lt.mpr (hs e).1
  show Scalar.select (IntOp.cmpi .slt (s e) 0#32) _ (s e) = s e
  rw [eq_zero_of_ne_one hlt, select_zero]

/-- Every entry of the index column is one of the indices. -/
theorem idxCol_at (i : S3200000x1.Idx) : ∃ e : S3200000.Idx, idxCol s i = s e := by
  have h : idxCol s = broadcastInDim S3200000x1 ![0] bcast_S3200000_S3200000x1_0 s := by
    unfold idxCol
    rw [wrapIdx_eq s hs]
  rw [h]
  exact ⟨_, rfl⟩

/-- Every index passes the range test. -/
theorem inRange_eq (e : S3200000.Idx) : inRange s e = 1#1 := by
  unfold inRange
  refine reduce_andi_ones _ _ _ _ _ rfl fun i => ?_
  obtain ⟨e', he'⟩ := idxCol_at s hs i
  show IntOp.andi (IntOp.cmpi .sge (idxCol s i) 0#32) (IntOp.cmpi .sle (idxCol s i) 99999#32) = 1#1
  rw [he', IntOp.andi_eq_one, IntOp.cmpi_sge, IntOp.cmpi_sle]
  have h0 : (0#32 : BitVec 32).toInt = 0 := by decide
  have h9 : (99999#32 : BitVec 32).toInt = 99999 := by decide
  rw [h0, h9]
  have := hs e'
  omega

/-- So the 32-column take is the plain gather … -/
theorem take32_eq (y : FVec Ideal S100000x32 .f32) :
    take32 y s = Host.gather gather_S100000x32_S3200000x1_S3200000x32_1_0_n_n_0_1_132 y (idxCol s) := by
  unfold take32
  rw [bcast_ones _ _ _ (inRange_eq s hs)]
  funext j
  rw [select_apply, select_one]

/-- … and the 80-column take likewise. -/
theorem take80_eq (y : FVec Ideal S100000x80 .f32) :
    take80 y s = Host.gather gather_S100000x80_S3200000x1_S3200000x80_1_0_n_n_0_1_180 y (idxCol s) := by
  unfold take80
  rw [bcast_ones _ _ _ (inRange_eq s hs)]
  funext j
  rw [select_apply, select_one]

/-! ## The gathered tables of the two programs -/

/-- Layer 1, columns 0–15 of the gathered [X0 | X1] rows: the gathered rows of X0. -/
theorem rows1_left (x : FVec Ideal S100000x128 .f32) (w1 : FVec Ideal S2x128x16 .f32) :
    extractStridedSlice S3200000x16 ![0, 0] (take32 (Cert.Spec.reg0a x (wcat1 w1)) s) slices_S3200000x32_S3200000x16_0_0
      = Host.gather Cert.ReferenceIdeal.gather_S100000x16_S3200000x1_S3200000x16_1_0_n_n_0_1_116
          (Host.dotGeneral Cert.ReferenceIdeal.dot_S100000x128_S128x16_S100000x16_1_0_0_1_n_n none x
            (Cert.ReferenceIdeal.Val.w1k0 w1)) (Cert.ReferenceIdeal.Val.idxCol s) := by
  rw [take32_eq s hs]
  unfold Cert.Spec.reg0a wcat1
  exact block_left (g := gather_S100000x32_S3200000x1_S3200000x32_1_0_n_n_0_1_132) ⟨rfl, rfl, rfl, rfl, rfl⟩
    (dd := Cert.Spec.dN_128_32) ⟨rfl, rfl, rfl, rfl, rfl, rfl⟩ _ x _ _ (idxCol s)
    (g₁ := Cert.ReferenceIdeal.gather_S100000x16_S3200000x1_S3200000x16_1_0_n_n_0_1_116) ⟨rfl, rfl, rfl, rfl, rfl⟩
    (d₁ := Cert.ReferenceIdeal.dot_S100000x128_S128x16_S100000x16_1_0_0_1_n_n) ⟨rfl, rfl, rfl, rfl, rfl, rfl⟩ _

/-- Layer 1, columns 16–31: the gathered rows of X1. -/
theorem rows1_right (x : FVec Ideal S100000x128 .f32) (w1 : FVec Ideal S2x128x16 .f32) :
    extractStridedSlice S3200000x16 ![0, 16] (take32 (Cert.Spec.reg0a x (wcat1 w1)) s) slices_S3200000x32_S3200000x16_0_16
      = Host.gather Cert.ReferenceIdeal.gather_S100000x16_S3200000x1_S3200000x16_1_0_n_n_0_1_116
          (Host.dotGeneral Cert.ReferenceIdeal.dot_S100000x128_S128x16_S100000x16_1_0_0_1_n_n none x
            (Cert.ReferenceIdeal.Val.w1k1 w1)) (Cert.ReferenceIdeal.Val.idxCol s) := by
  rw [take32_eq s hs]
  unfold Cert.Spec.reg0a wcat1
  exact block_right (g := gather_S100000x32_S3200000x1_S3200000x32_1_0_n_n_0_1_132) ⟨rfl, rfl, rfl, rfl, rfl⟩
    (dd := Cert.Spec.dN_128_32) ⟨rfl, rfl, rfl, rfl, rfl, rfl⟩ _ x _ _ (idxCol s)
    (g₂ := Cert.ReferenceIdeal.gather_S100000x16_S3200000x1_S3200000x16_1_0_n_n_0_1_116) ⟨rfl, rfl, rfl, rfl, rfl⟩
    (d₂ := Cert.ReferenceIdeal.dot_S100000x128_S128x16_S100000x16_1_0_0_1_n_n) ⟨rfl, rfl, rfl, rfl, rfl, rfl⟩ _

/-- Layer 2, columns 0–39 of the gathered rows, over any hidden layer. -/
theorem rows2_left (hd : FVec Ideal S100000x16 .f32) (w2 : FVec Ideal S2x16x40 .f32) :
    extractStridedSlice S3200000x40 ![0, 0] (take80 (Host.dotGeneral (F := Ideal) Cert.Spec.dN_16_80 none hd (wcat2 w2)) s)
        slices_S3200000x80_S3200000x40_0_0
      = Host.gather Cert.ReferenceIdeal.gather_S100000x40_S3200000x1_S3200000x40_1_0_n_n_0_1_140
          (Host.dotGeneral Cert.ReferenceIdeal.dot_S100000x16_S16x40_S100000x40_1_0_0_1_n_n none hd
            (Cert.ReferenceIdeal.Val.w2k0 w2)) (Cert.ReferenceIdeal.Val.idxCol s) := by
  rw [take80_eq s hs]
  unfold wcat2
  exact block_left (g := gather_S100000x80_S3200000x1_S3200000x80_1_0_n_n_0_1_180) ⟨rfl, rfl, rfl, rfl, rfl⟩
    (dd := Cert.Spec.dN_16_80) ⟨rfl, rfl, rfl, rfl, rfl, rfl⟩ _ hd _ _ (idxCol s)
    (g₁ := Cert.ReferenceIdeal.gather_S100000x40_S3200000x1_S3200000x40_1_0_n_n_0_1_140) ⟨rfl, rfl, rfl, rfl, rfl⟩
    (d₁ := Cert.ReferenceIdeal.dot_S100000x16_S16x40_S100000x40_1_0_0_1_n_n) ⟨rfl, rfl, rfl, rfl, rfl, rfl⟩ _

/-- Layer 2, columns 40–79. -/
theorem rows2_right (hd : FVec Ideal S100000x16 .f32) (w2 : FVec Ideal S2x16x40 .f32) :
    extractStridedSlice S3200000x40 ![0, 40] (take80 (Host.dotGeneral (F := Ideal) Cert.Spec.dN_16_80 none hd (wcat2 w2)) s)
        slices_S3200000x80_S3200000x40_0_40
      = Host.gather Cert.ReferenceIdeal.gather_S100000x40_S3200000x1_S3200000x40_1_0_n_n_0_1_140
          (Host.dotGeneral Cert.ReferenceIdeal.dot_S100000x16_S16x40_S100000x40_1_0_0_1_n_n none hd
            (Cert.ReferenceIdeal.Val.w2k1 w2)) (Cert.ReferenceIdeal.Val.idxCol s) := by
  rw [take80_eq s hs]
  unfold wcat2
  exact block_right (g := gather_S100000x80_S3200000x1_S3200000x80_1_0_n_n_0_1_180) ⟨rfl, rfl, rfl, rfl, rfl⟩
    (dd := Cert.Spec.dN_16_80) ⟨rfl, rfl, rfl, rfl, rfl, rfl⟩ _ hd _ _ (idxCol s)
    (g₂ := Cert.ReferenceIdeal.gather_S100000x40_S3200000x1_S3200000x40_1_0_n_n_0_1_140) ⟨rfl, rfl, rfl, rfl, rfl⟩
    (d₂ := Cert.ReferenceIdeal.dot_S100000x16_S16x40_S100000x40_1_0_0_1_n_n) ⟨rfl, rfl, rfl, rfl, rfl, rfl⟩ _

end Range

/-! ## The two value functions -/

section Whole
variable (x : FVec Ideal Cert.KernelIdeal.S100000x128 .f32) (ei : IVec Cert.KernelIdeal.S2x3200000 32)
  (ea : FVec Ideal Cert.KernelIdeal.S3200000x1 .f32) (w1 : FVec Ideal Cert.KernelIdeal.S2x128x16 .f32)
  (r1 : FVec Ideal Cert.KernelIdeal.S128x16 .f32) (bb1 : FVec Ideal Cert.KernelIdeal.S16 .f32)
  (w2 : FVec Ideal Cert.KernelIdeal.S2x16x40 .f32) (r2 : FVec Ideal Cert.KernelIdeal.S16x40 .f32)
  (bb2 : FVec Ideal Cert.KernelIdeal.S40 .f32)
  (hsrc : ∀ e : Cert.KernelIdeal.S3200000.Idx,
    0 ≤ (Cert.KernelIdeal.Val.srcOf ei e).toInt ∧ (Cert.KernelIdeal.Val.srcOf ei e).toInt < 100000)
include hsrc

/-- Layer 1's neighbour means agree. -/
theorem m1_eq : Cert.KernelIdeal.Val.m1 (F := Ideal) x ei ea w1 = Cert.ReferenceIdeal.Val.m1 (F := Ideal) x ei ea w1 := by
  unfold Cert.KernelIdeal.Val.m1 Cert.ReferenceIdeal.Val.m1 Cert.KernelIdeal.Val.mean16 Cert.ReferenceIdeal.Val.mean16
  rw [rows1_left _ hsrc x w1, rows1_right _ hsrc x w1]
  rfl

/-- So the hidden layers agree. -/
theorem hidden_eq :
    Cert.Spec.hid (F := Ideal) (Cert.KernelIdeal.Val.m1 x ei ea w1) (Cert.Spec.reg0b x r1) (Cert.KernelIdeal.Val.bias1row bb1)
      = Cert.ReferenceIdeal.Val.hidden (F := Ideal) x ei ea w1 r1 bb1 := by
  unfold Cert.ReferenceIdeal.Val.hidden
  rw [m1_eq x ei ea w1 hsrc]
  rfl

/-- Layer 2's neighbour means agree. -/
theorem m2_eq : Cert.KernelIdeal.Val.m2 (F := Ideal) x ei ea w1 r1 bb1 w2
    = Cert.ReferenceIdeal.Val.m2 (F := Ideal) x ei ea w1 r1 bb1 w2 := by
  unfold Cert.KernelIdeal.Val.m2 Cert.ReferenceIdeal.Val.m2 Cert.KernelIdeal.Val.mean40 Cert.ReferenceIdeal.Val.mean40
    Cert.KernelIdeal.Val.y2 Cert.Spec.reg1a
  rw [hidden_eq x ei ea w1 r1 bb1 hsrc, rows2_left _ hsrc, rows2_right _ hsrc]
  rfl

end Whole

/-- The two programs' value functions agree where every source index is a node id. -/
theorem out_eq (x : FVec Ideal Cert.KernelIdeal.S100000x128 .f32) (ei : IVec Cert.KernelIdeal.S2x3200000 32)
    (ea : FVec Ideal Cert.KernelIdeal.S3200000x1 .f32) (w1 : FVec Ideal Cert.KernelIdeal.S2x128x16 .f32)
    (r1 : FVec Ideal Cert.KernelIdeal.S128x16 .f32) (bb1 : FVec Ideal Cert.KernelIdeal.S16 .f32)
    (w2 : FVec Ideal Cert.KernelIdeal.S2x16x40 .f32) (r2 : FVec Ideal Cert.KernelIdeal.S16x40 .f32)
    (bb2 : FVec Ideal Cert.KernelIdeal.S40 .f32)
    (hsrc : ∀ e : Cert.KernelIdeal.S3200000.Idx,
      0 ≤ (Cert.KernelIdeal.Val.srcOf ei e).toInt ∧ (Cert.KernelIdeal.Val.srcOf ei e).toInt < 100000) :
    Cert.KernelIdeal.Val.out (F := Ideal) x ei ea w1 r1 bb1 w2 r2 bb2
      = Cert.ReferenceIdeal.Val.out (F := Ideal) x ei ea w1 r1 bb1 w2 r2 bb2 := by
  unfold Cert.KernelIdeal.Val.out Cert.ReferenceIdeal.Val.out Cert.KernelIdeal.Val.xr2 Cert.Spec.reg1b
  rw [m2_eq x ei ea w1 r1 bb1 w2 hsrc, hidden_eq x ei ea w1 r1 bb1 hsrc]
  rfl

end Cert.Bridge

end
-- ==== Proof.SrcRange.lean ====
/-
  The precondition's last conjunct, read back: every source index (row 0 of the edge list) is a node id.
-/
import proofs.«429878_j43843026157849_3_alg».proof.Pre_finite_inputs
import proofs.«429878_j43843026157849_3_alg».proof.Proof.Gen.Pre_finite_inputs
import proofs.«429878_j43843026157849_3_alg».proof.Proof.KOut
import Idealize.ShloMosaic.Lib.ReduceAll
import Idealize.ShloMosaic.Lib.StableHlo.Predicate
import Idealize.ShloMosaic.Lib.ValueIdx
import Idealize.ShloMosaic.Lib.IdealHost

noncomputable section

namespace Cert.SrcRange

open Idealize.ShloMosaic

/-- The rank-0 shape has exactly one index. -/
instance : Subsingleton Cert.Pre_finite_inputs.S_.Idx := ⟨fun a b => funext fun d => d.elim0⟩

theorem src_in_range (a0 : FVec Ideal Cert.Pre_finite_inputs.S100000x128 .f32) (a1 : IVec Cert.Pre_finite_inputs.S2x3200000 32)
    (a2 : FVec Ideal Cert.Pre_finite_inputs.S3200000x1 .f32) (a3 : FVec Ideal Cert.Pre_finite_inputs.S2x128x16 .f32)
    (a4 : FVec Ideal Cert.Pre_finite_inputs.S128x16 .f32) (a5 : FVec Ideal Cert.Pre_finite_inputs.S16 .f32)
    (a6 : FVec Ideal Cert.Pre_finite_inputs.S2x16x40 .f32) (a7 : FVec Ideal Cert.Pre_finite_inputs.S16x40 .f32)
    (a8 : FVec Ideal Cert.Pre_finite_inputs.S40 .f32)
    (h : Cert.Pre_finite_inputs.fn (F := Ideal) a0 a1 a2 a3 a4 a5 a6 a7 a8 = fun _ => 1#1) :
    ∀ e : Cert.KernelIdeal.S3200000.Idx,
      0 ≤ (Cert.KernelIdeal.Val.srcOf a1 e).toInt ∧ (Cert.KernelIdeal.Val.srcOf a1 e).toInt < 100000 := by
  intro e
  have h0 := congrFun h ValueIdx.ix0
  dsimp only [Cert.Pre_finite_inputs.fn, Cert.Pre_finite_inputs.fn_part1, Cert.Pre_finite_inputs.fn_part2] at h0
  have h1 := (IntOp.andi_eq_one.1 h0).2
  have h2 := Host.reduce_andi_all _ _ _ _ _ h1 e
  obtain ⟨hge, hlt⟩ := IntOp.andi_eq_one.1 h2
  have hge' := IntOp.cmpi_sge.1 hge
  have hlt' := IntOp.cmpi_slt.1 hlt
  rw [ValueIdx.broadcastInDim_scalar_apply] at hge' hlt'
  exact ⟨hge', hlt'⟩

end Cert.SrcRange

end
-- ==== Proof.lean ====
/-
  The certificate of the two-layer spline convolution: the kernel program (three row-blocked kernels among
  host gathers and scatter-adds) against its jnp reference, equal over the extended reals wherever every
  source index of the edge list is a node id.

  Frames: the kernel program's two readings have their generated frame; the reference's is its run with the
  result dropped.  The idealization rewrote nothing, so it preserves trivially.  Equality: the kernel's run
  leaves the result buffer at the value function Cert.KernelIdeal.Val.out of the arguments (the regions' whole-array
  values read back through the host stretches), the reference's run at Cert.ReferenceIdeal.Val.out, and the
  two functions agree in range: column j of x·[W0 | W1] is column j of x·W0 or of x·W1, and an in-range
  gather never meets the fill.
-/
import proofs.«429878_j43843026157849_3_alg».proof.Defs
import proofs.«429878_j43843026157849_3_alg».proof.Proof.Gen.Kernel
import proofs.«429878_j43843026157849_3_alg».proof.Proof.Gen.Kernel.Frame
import proofs.«429878_j43843026157849_3_alg».proof.Proof.Gen.KernelIdeal
import proofs.«429878_j43843026157849_3_alg».proof.Proof.Gen.KernelIdeal.Frame
import proofs.«429878_j43843026157849_3_alg».proof.Proof.Gen.ReferenceIdeal
import proofs.«429878_j43843026157849_3_alg».proof.Proof.Gen.Pre_finite_inputs
import proofs.«429878_j43843026157849_3_alg».proof.Proof.KRun
import proofs.«429878_j43843026157849_3_alg».proof.Proof.KHost
import proofs.«429878_j43843026157849_3_alg».proof.Proof.RRun
import proofs.«429878_j43843026157849_3_alg».proof.Proof.Bridge
import proofs.«429878_j43843026157849_3_alg».proof.Proof.SrcRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Run.run (F := Ideal) m ρ)

/-- Both runs end at one function of the (agreeing) arguments: the kernel's value function, which in range is
    the reference's. -/
theorem algebraic : Cert.algebraic_KernelIdeal_ReferenceIdeal := by
  intro m ρ m' ρ' hpre hagree
  refine ⟨fun c => Cert.KernelIdeal.Val.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Gen.W8_out m ρ c), (h c).2⟩)
      (Cert.KernelIdeal.Gen.run_out (F := Ideal) m ρ)
  · refine (θ_run Cert.ReferenceIdeal.defs _ _).mono (fun r h c => ⟨(h c).1.trans ?_, (h c).2⟩)
      (Cert.ReferenceIdeal.Run.run (F := Ideal) m' ρ')
    obtain ⟨e0, e1, e2, e3, e4, e5, e6, e7, e8⟩ := hagree c
    rw [e0, e1, e2, e3, e4, e5, e6, e7, e8]
    exact (Cert.Bridge.out_eq _ _ _ _ _ _ _ _ _ (Cert.SrcRange.src_in_range _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
